-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S_ : Shape := ⟨0, ![]⟩
abbrev S4194304x2 : Shape := ⟨2, ![4194304, 2]⟩
abbrev S4194304x1 : Shape := ⟨2, ![4194304, 1]⟩
abbrev S4194304 : Shape := ⟨1, ![4194304]⟩
abbrev S4194304x3 : Shape := ⟨2, ![4194304, 3]⟩
abbrev S4194304x12 : Shape := ⟨2, ![4194304, 12]⟩
abbrev S1x12 : Shape := ⟨2, ![1, 12]⟩
abbrev S4194304x8 : Shape := ⟨2, ![4194304, 8]⟩
abbrev S1x8 : Shape := ⟨2, ![1, 8]⟩
abbrev S1x2 : Shape := ⟨2, ![1, 2]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S3x12 : S_.BroadcastsInDim S3x12 (![] : Fin 0 → Fin S3x12.rank)
  reducesTo_S3x12_S_d0_1 : S3x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_
  slices_S4194304x5_S4194304x2_0_0 : S4194304x5.Slices ![0, 0] S4194304x2
  slices_S4194304x2_S4194304x1_0_0 : S4194304x2.Slices ![0, 0] S4194304x1
  bcast_S_S4194304x1 : S_.BroadcastsInDim S4194304x1 (![] : Fin 0 → Fin S4194304x1.rank)
  concatenates_S4194304x1_S4194304x1_S4194304x2_d1 : Shape.Concatenates [S4194304x1, S4194304x1] S4194304x2 1
  reducesTo_S4194304x2_S4194304_d1 : S4194304x2.ReducesTo [1] S4194304
  bcast_S4194304_S4194304x1_0 : S4194304.BroadcastsInDim S4194304x1 (![0] : Fin 1 → Fin S4194304x1.rank)
  concatenates_S4194304x2_S4194304x1_S4194304x3_d1 : Shape.Concatenates [S4194304x2, S4194304x1] S4194304x3 1
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  bcast_S_S4194304x12 : S_.BroadcastsInDim S4194304x12 (![] : Fin 0 → Fin S4194304x12.rank)
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  shapeCasts_S4194304x1_S4194304 : S4194304x1.ShapeCasts S4194304
  slices_S4194304x2_S4194304x1_0_1 : S4194304x2.Slices ![0, 1] S4194304x1
  bcast_S_S4194304 : S_.BroadcastsInDim S4194304 (![] : Fin 0 → Fin S4194304.rank)
  reducesTo_S4194304_S_d0 : S4194304.ReducesTo [0] S_
  dot_S4194304x3_S3x12_S4194304x12_1_0_0_1_n_n_wf : DotDims.WF S4194304x3 S3x12 S4194304x12 [1] [0] [0] [1] [] []
  dot_S4194304x12_S12x8_S4194304x8_1_0_0_1_n_n_wf : DotDims.WF S4194304x12 S12x8 S4194304x8 [1] [0] [0] [1] [] []
  dot_S4194304x8_S8x2_S4194304x2_1_0_0_1_n_n_wf : DotDims.WF S4194304x8 S8x2 S4194304x2 [1] [0] [0] [1] [] []

variable [Facts]

def dot_S4194304x3_S3x12_S4194304x12_1_0_0_1_n_n : DotDims S4194304x3 S3x12 S4194304x12 where
  lhsContracting := [1]
  rhsContracting := [0]
  lhsNonContracting := [0]
  rhsNonContracting := [1]
  lhsBatch := []
  rhsBatch := []
  wf := dot_S4194304x3_S3x12_S4194304x12_1_0_0_1_n_n_wf
def dot_S4194304x12_S12x8_S4194304x8_1_0_0_1_n_n : DotDims S4194304x12 S12x8 S4194304x8 where
  lhsContracting := [1]
  rhsContracting := [0]
  lhsNonContracting := [0]
  rhsNonContracting := [1]
  lhsBatch := []
  rhsBatch := []
  wf := dot_S4194304x12_S12x8_S4194304x8_1_0_0_1_n_n_wf
def dot_S4194304x8_S8x2_S4194304x2_1_0_0_1_n_n : DotDims S4194304x8 S8x2 S4194304x2 where
  lhsContracting := [1]
  rhsContracting := [0]
  lhsNonContracting := [0]
  rhsNonContracting := [1]
  lhsBatch := []
  rhsBatch := []
  wf := dot_S4194304x8_S8x2_S4194304x2_1_0_0_1_n_n_wf
def fn_part6 {F : FTy → Type} [FloatOps F] (main_arg5 : FVec F S8x2 .f32) (main_arg6 : FVec F S2 .f32) (main_v33 : IVec S_ 1) (main_v78 : FVec F S4194304x2 .f32) (main_v112 : FVec F S4194304x8 .f32) (main_v117 : FVec F S4194304x8 .f32) : IVec S_ 1 :=
  let main_v118 : FVec F S4194304x2 .f32 := (fun l r => Host.dotGeneral dot_S4194304x8_S8x2_S4194304x2_1_0_0_1_n_n none l r) main_v112 main_arg5
  let main_v119 : FVec F S4194304x2 .f32 := (fun l r => Host.dotGeneral dot_S4194304x8_S8x2_S4194304x2_1_0_0_1_n_n none l r) main_v117 main_arg5
  let main_v120 : FVec F S1x2 .f32 := broadcastInDim S1x2 ![1] bcast_S2_S1x2_1 main_arg6
  let main_v121 : FVec F S4194304x2 .f32 := broadcastInDim S4194304x2 ![0, 1] bcast_S1x2_S4194304x2_0_1 main_v120
  let main_v122 : FVec F S4194304x2 .f32 := addf main_v118 main_v121
  let main_v123 : FVec F S4194304x1 .f32 := (extractStridedSlice S4194304x1 ![0, 0] · slices_S4194304x2_S4194304x1_0_0) main_v78
  let main_v124 : FVec F S4194304 .f32 := shapeCast S4194304 main_v123 shapeCasts_S4194304x1_S4194304
  let main_v125 : FVec F S4194304x1 .f32 := (extractStridedSlice S4194304x1 ![0, 1] · slices_S4194304x2_S4194304x1_0_1) main_v119
  let main_v126 : FVec F S4194304 .f32 := shapeCast S4194304 main_v125 shapeCasts_S4194304x1_S4194304
  let main_v127 : FVec F S4194304 .f32 := mulf main_v124 main_v126
  let main_v128 : FVec F S4194304x1 .f32 := (extractStridedSlice S4194304x1 ![0, 0] · slices_S4194304x2_S4194304x1_0_0) main_v119
  let main_v129 : FVec F S4194304 .f32 := shapeCast S4194304 main_v128 shapeCasts_S4194304x1_S4194304
  let main_v130 : FVec F S4194304x1 .f32 := (extractStridedSlice S4194304x1 ![0, 1] · slices_S4194304x2_S4194304x1_0_1) main_v78
  let main_v131 : FVec F S4194304 .f32 := shapeCast S4194304 main_v130 shapeCasts_S4194304x1_S4194304
  let main_v132 : FVec F S4194304 .f32 := mulf main_v129 main_v131
  let main_v133 : FVec F S4194304 .f32 := subf main_v127 main_v132
  let main_cst_24 : FVec F S_ .f32 := constant S_ .f32 0x00000000#32
  let main_v134 : FVec F S4194304 .f32 := broadcastInDim S4194304 ![] bcast_S_S4194304 main_cst_24
  let main_v135 : IVec S4194304 1 := cmpf .une main_v133 main_v134
  let main_c_25 : IVec S_ 1 := constantI S_ 1 1#1
  let main_v136 : IVec S_ 1 := (fun x v => Host.reduce IntOp.andi x v reducesTo_S4194304_S_d0 h_S_) main_v135 main_c_25
  let main_v137 : IVec S_ 1 := andi main_v33 main_v136
  main_v137

def fn_part5 {F : FTy → Type} [FloatOps F] (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) (main_v78 : FVec F S4194304x2 .f32) (main_v94 : FVec F S4194304x3 .f32) (main_v95 : FVec F S4194304x3 .f32) : IVec S_ 1 :=
  let main_v96 : FVec F S4194304x12 .f32 := (fun l r => Host.dotGeneral dot_S4194304x3_S3x12_S4194304x12_1_0_0_1_n_n none l r) main_v94 main_arg1
  let main_v97 : FVec F S4194304x12 .f32 := (fun l r => Host.dotGeneral dot_S4194304x3_S3x12_S4194304x12_1_0_0_1_n_n none l r) main_v95 main_arg1
  let main_v98 : FVec F S1x12 .f32 := broadcastInDim S1x12 ![1] bcast_S12_S1x12_1 main_arg2
  let main_v99 : FVec F S4194304x12 .f32 := broadcastInDim S4194304x12 ![0, 1] bcast_S1x12_S4194304x12_0_1 main_v98
  let main_v100 : FVec F S4194304x12 .f32 := addf main_v96 main_v99
  let main_v101 : FVec F S4194304x12 .f32 := Host.tanh main_v100
  let main_v102 : FVec F S4194304x12 .f32 := mulf main_v97 main_v101
  let main_v103 : FVec F S4194304x12 .f32 := addf main_v97 main_v102
  let main_cst_22 : FVec F S_ .f32 := constant S_ .f32 0x3F800000#32
  let main_v104 : FVec F S4194304x12 .f32 := broadcastInDim S4194304x12 ![] bcast_S_S4194304x12 main_cst_22
  let main_v105 : FVec F S4194304x12 .f32 := subf main_v104 main_v101
  let main_v106 : FVec F S4194304x12 .f32 := mulf main_v103 main_v105
  let main_v107 : FVec F S4194304x8 .f32 := (fun l r => Host.dotGeneral dot_S4194304x12_S12x8_S4194304x8_1_0_0_1_n_n none l r) main_v101 main_arg3
  let main_v108 : FVec F S4194304x8 .f32 := (fun l r => Host.dotGeneral dot_S4194304x12_S12x8_S4194304x8_1_0_0_1_n_n none l r) main_v106 main_arg3
  let main_v109 : FVec F S1x8 .f32 := broadcastInDim S1x8 ![1] bcast_S8_S1x8_1 main_arg4
  let main_v110 : FVec F S4194304x8 .f32 := broadcastInDim S4194304x8 ![0, 1] bcast_S1x8_S4194304x8_0_1 main_v109
  let main_v111 : FVec F S4194304x8 .f32 := addf main_v107 main_v110
  let main_v112 : FVec F S4194304x8 .f32 := Host.tanh main_v111
  let main_v113 : FVec F S4194304x8 .f32 := mulf main_v108 main_v112
  let main_v114 : FVec F S4194304x8 .f32 := addf main_v108 main_v113
  let main_cst_23 : FVec F S_ .f32 := constant S_ .f32 0x3F800000#32
  let main_v115 : FVec F S4194304x8 .f32 := broadcastInDim S4194304x8 ![] bcast_S_S4194304x8 main_cst_23
  let main_v116 : FVec F S4194304x8 .f32 := subf main_v115 main_v112
  let main_v117 : FVec F S4194304x8 .f32 := mulf main_v114 main_v116
  fn_part6 (F := F) main_arg5 main_arg6 main_v33 main_v78 main_v112 main_v117

def fn_part4 {F : FTy → Type} [FloatOps F] (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) (main_v34 : FVec F S4194304x2 .f32) (main_v40 : FVec F S4194304x2 .f32) (main_v71 : FVec F S4194304x8 .f32) (main_v73 : FVec F S4194304x8 .f32) (main_v74 : FVec F S4194304x8 .f32) : IVec S_ 1 :=
  let main_v75 : FVec F S4194304x8 .f32 := subf main_v74 main_v71
  let main_v76 : FVec F S4194304x8 .f32 := mulf main_v73 main_v75
  let main_v77 : FVec F S4194304x2 .f32 := (fun l r => Host.dotGeneral dot_S4194304x8_S8x2_S4194304x2_1_0_0_1_n_n none l r) main_v71 main_arg5
  let main_v78 : FVec F S4194304x2 .f32 := (fun l r => Host.dotGeneral dot_S4194304x8_S8x2_S4194304x2_1_0_0_1_n_n none l r) main_v76 main_arg5
  let main_v79 : FVec F S1x2 .f32 := broadcastInDim S1x2 ![1] bcast_S2_S1x2_1 main_arg6
  let main_v80 : FVec F S4194304x2 .f32 := broadcastInDim S4194304x2 ![0, 1] bcast_S1x2_S4194304x2_0_1 main_v79
  let main_v81 : FVec F S4194304x2 .f32 := addf main_v77 main_v80
  let main_v82 : FVec F S4194304x2 .f32 := mulf main_v34 main_v34
  let main_v83 : FVec F S4194304x2 .f32 := mulf main_v40 main_v34
  let main_v84 : FVec F S4194304x2 .f32 := mulf main_v34 main_v40
  let main_v85 : FVec F S4194304x2 .f32 := addf main_v83 main_v84
  let main_cst_19 : FVec F S_ .f32 := constant S_ .f32 0x00000000#32
  let main_v86 : FVec F S4194304 .f32 := (fun x v => Host.reduceAdd x v reducesTo_S4194304x2_S4194304_d1 h_S_) main_v82 main_cst_19
  let main_cst_20 : FVec F S_ .f32 := constant S_ .f32 0x00000000#32
  let main_v87 : FVec F S4194304 .f32 := (fun x v => Host.reduceAdd x v reducesTo_S4194304x2_S4194304_d1 h_S_) main_v85 main_cst_20
  let main_v88 : FVec F S4194304x1 .f32 := broadcastInDim S4194304x1 ![0] bcast_S4194304_S4194304x1_0 main_v86
  let main_v89 : FVec F S4194304x1 .f32 := broadcastInDim S4194304x1 ![0] bcast_S4194304_S4194304x1_0 main_v87
  let main_v90 : FVec F S4194304x1 .f32 := Host.sqrt main_v88
  let main_cst_21 : FVec F S_ .f32 := constant S_ .f32 0x3F000000#32
  let main_v91 : FVec F S4194304x1 .f32 := broadcastInDim S4194304x1 ![] bcast_S_S4194304x1 main_cst_21
  let main_v92 : FVec F S4194304x1 .f32 := Host.divf main_v91 main_v90
  let main_v93 : FVec F S4194304x1 .f32 := mulf main_v89 main_v92
  let main_v94 : FVec F S4194304x3 .f32 := (fun a b => concatenate S4194304x3 1 [⟨S4194304x2, a⟩, ⟨S4194304x1, b⟩] concatenates_S4194304x2_S4194304x1_S4194304x3_d1) main_v34 main_v90
  let main_v95 : FVec F S4194304x3 .f32 := (fun a b => concatenate S4194304x3 1 [⟨S4194304x2, a⟩, ⟨S4194304x1, b⟩] concatenates_S4194304x2_S4194304x1_S4194304x3_d1) main_v40 main_v93
  fn_part5 (F := F) main_arg1 main_arg2 main_arg3 main_arg4 main_arg5 main_arg6 main_v33 main_v78 main_v94 main_v95

def fn_part3 {F : FTy → Type} [FloatOps F] (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) (main_v34 : FVec F S4194304x2 .f32) (main_v39 : FVec F S4194304x2 .f32) (main_v40 : FVec F S4194304x2 .f32) (main_v49 : FVec F S4194304x1 .f32) (main_v52 : FVec F S4194304x1 .f32) : IVec S_ 1 :=
  let main_v53 : FVec F S4194304x3 .f32 := (fun a b => concatenate S4194304x3 1 [⟨S4194304x2, a⟩, ⟨S4194304x1, b⟩] concatenates_S4194304x2_S4194304x1_S4194304x3_d1) main_v34 main_v49
  let main_v54 : FVec F S4194304x3 .f32 := (fun a b => concatenate S4194304x3 1 [⟨S4194304x2, a⟩, ⟨S4194304x1, b⟩] concatenates_S4194304x2_S4194304x1_S4194304x3_d1) main_v39 main_v52
  let main_v55 : FVec F S4194304x12 .f32 := (fun l r => Host.dotGeneral dot_S4194304x3_S3x12_S4194304x12_1_0_0_1_n_n none l r) main_v53 main_arg1
  let main_v56 : FVec F S4194304x12 .f32 := (fun l r => Host.dotGeneral dot_S4194304x3_S3x12_S4194304x12_1_0_0_1_n_n none l r) main_v54 main_arg1
  let main_v57 : FVec F S1x12 .f32 := broadcastInDim S1x12 ![1] bcast_S12_S1x12_1 main_arg2
  let main_v58 : FVec F S4194304x12 .f32 := broadcastInDim S4194304x12 ![0, 1] bcast_S1x12_S4194304x12_0_1 main_v57
  let main_v59 : FVec F S4194304x12 .f32 := addf main_v55 main_v58
  let main_v60 : FVec F S4194304x12 .f32 := Host.tanh main_v59
  let main_v61 : FVec F S4194304x12 .f32 := mulf main_v56 main_v60
  let main_v62 : FVec F S4194304x12 .f32 := addf main_v56 main_v61
  let main_cst_17 : FVec F S_ .f32 := constant S_ .f32 0x3F800000#32
  let main_v63 : FVec F S4194304x12 .f32 := broadcastInDim S4194304x12 ![] bcast_S_S4194304x12 main_cst_17
  let main_v64 : FVec F S4194304x12 .f32 := subf main_v63 main_v60
  let main_v65 : FVec F S4194304x12 .f32 := mulf main_v62 main_v64
  let main_v66 : FVec F S4194304x8 .f32 := (fun l r => Host.dotGeneral dot_S4194304x12_S12x8_S4194304x8_1_0_0_1_n_n none l r) main_v60 main_arg3
  let main_v67 : FVec F S4194304x8 .f32 := (fun l r => Host.dotGeneral dot_S4194304x12_S12x8_S4194304x8_1_0_0_1_n_n none l r) main_v65 main_arg3
  let main_v68 : FVec F S1x8 .f32 := broadcastInDim S1x8 ![1] bcast_S8_S1x8_1 main_arg4
  let main_v69 : FVec F S4194304x8 .f32 := broadcastInDim S4194304x8 ![0, 1] bcast_S1x8_S4194304x8_0_1 main_v68
  let main_v70 : FVec F S4194304x8 .f32 := addf main_v66 main_v69
  let main_v71 : FVec F S4194304x8 .f32 := Host.tanh main_v70
  let main_v72 : FVec F S4194304x8 .f32 := mulf main_v67 main_v71
  let main_v73 : FVec F S4194304x8 .f32 := addf main_v67 main_v72
  let main_cst_18 : FVec F S_ .f32 := constant S_ .f32 0x3F800000#32
  let main_v74 : FVec F S4194304x8 .f32 := broadcastInDim S4194304x8 ![] bcast_S_S4194304x8 main_cst_18
  fn_part4 (F := F) main_arg1 main_arg2 main_arg3 main_arg4 main_arg5 main_arg6 main_v33 main_v34 main_v40 main_v71 main_v73 main_v74

def fn_part2 {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) (main_v33 : IVec S_ 1) : IVec S_ 1 :=
  let main_v34 : FVec F S4194304x2 .f32 := (extractStridedSlice S4194304x2 ![0, 0] · slices_S4194304x5_S4194304x2_0_0) main_arg0
  let main_v35 : FVec F S4194304x1 .f32 := (extractStridedSlice S4194304x1 ![0, 0] · slices_S4194304x2_S4194304x1_0_0) main_v34
  let main_cst_12 : FVec F S_ .f32 := constant S_ .f32 0x3F800000#32
  let main_v36 : FVec F S4194304x1 .f32 := broadcastInDim S4194304x1 ![] bcast_S_S4194304x1 main_cst_12
  let main_v37 : FVec F S4194304x1 .f32 := (extractStridedSlice S4194304x1 ![0, 0] · slices_S4194304x2_S4194304x1_0_0) main_v34
  let main_cst_13 : FVec F S_ .f32 := constant S_ .f32 0x00000000#32
  let main_v38 : FVec F S4194304x1 .f32 := broadcastInDim S4194304x1 ![] bcast_S_S4194304x1 main_cst_13
  let main_v39 : FVec F S4194304x2 .f32 := (fun a b => concatenate S4194304x2 1 [⟨S4194304x1, a⟩, ⟨S4194304x1, b⟩] concatenates_S4194304x1_S4194304x1_S4194304x2_d1) main_v36 main_v38
  let main_v40 : FVec F S4194304x2 .f32 := (fun a b => concatenate S4194304x2 1 [⟨S4194304x1, a⟩, ⟨S4194304x1, b⟩] concatenates_S4194304x1_S4194304x1_S4194304x2_d1) main_v38 main_v36
  let main_v41 : FVec F S4194304x2 .f32 := mulf main_v34 main_v34
  let main_v42 : FVec F S4194304x2 .f32 := mulf main_v39 main_v34
  let main_v43 : FVec F S4194304x2 .f32 := mulf main_v34 main_v39
  let main_v44 : FVec F S4194304x2 .f32 := addf main_v42 main_v43
  let main_cst_14 : FVec F S_ .f32 := constant S_ .f32 0x00000000#32
  let main_v45 : FVec F S4194304 .f32 := (fun x v => Host.reduceAdd x v reducesTo_S4194304x2_S4194304_d1 h_S_) main_v41 main_cst_14
  let main_cst_15 : FVec F S_ .f32 := constant S_ .f32 0x00000000#32
  let main_v46 : FVec F S4194304 .f32 := (fun x v => Host.reduceAdd x v reducesTo_S4194304x2_S4194304_d1 h_S_) main_v44 main_cst_15
  let main_v47 : FVec F S4194304x1 .f32 := broadcastInDim S4194304x1 ![0] bcast_S4194304_S4194304x1_0 main_v45
  let main_v48 : FVec F S4194304x1 .f32 := broadcastInDim S4194304x1 ![0] bcast_S4194304_S4194304x1_0 main_v46
  let main_v49 : FVec F S4194304x1 .f32 := Host.sqrt main_v47
  let main_cst_16 : FVec F S_ .f32 := constant S_ .f32 0x3F000000#32
  let main_v50 : FVec F S4194304x1 .f32 := broadcastInDim S4194304x1 ![] bcast_S_S4194304x1 main_cst_16
  let main_v51 : FVec F S4194304x1 .f32 := Host.divf main_v50 main_v49
  let main_v52 : FVec F S4194304x1 .f32 := mulf main_v48 main_v51
  fn_part3 (F := F) main_arg1 main_arg2 main_arg3 main_arg4 main_arg5 main_arg6 main_v33 main_v34 main_v39 main_v40 main_v49 main_v52

def fn_part1 {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) (main_v13 : IVec S_ 1) (main_v16 : IVec S12x8 1) : IVec S_ 1 :=
  let main_c_5 : IVec S_ 1 := constantI S_ 1 1#1
  let main_v17 : IVec S_ 1 := (fun x v => Host.reduce IntOp.andi x v reducesTo_S12x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x2 .f32 := Host.absf main_arg5
  let main_cst_8 : FVec F S_ .f32 := constant S_ .f32 0x7F800000#32
  let main_v25 : FVec F S8x2 .f32 := broadcastInDim S8x2 ![] bcast_S_S8x2 main_cst_8
  let main_v26 : IVec S8x2 1 := cmpf .olt main_v24 main_v25
  let main_c_9 : IVec S_ 1 := constantI S_ 1 1#1
  let main_v27 : IVec S_ 1 := (fun x v => Host.reduce IntOp.andi x v reducesTo_S8x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg0 main_arg1 main_arg2 main_arg3 main_arg4 main_arg5 main_arg6 main_v33

def fn {F : FTy → Type} [FloatOps F] (main_arg0 : FVec F S4194304x5 .f32) (main_arg1 : FVec F S3x12 .f32) (main_arg2 : FVec F S12 .f32) (main_arg3 : FVec F S12x8 .f32) (main_arg4 : FVec F S8 .f32) (main_arg5 : FVec F S8x2 .f32) (main_arg6 : FVec F S2 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S3x12 .f32 := Host.absf main_arg1
  let main_cst_0 : FVec F S_ .f32 := constant S_ .f32 0x7F800000#32
  let main_v5 : FVec F S3x12 .f32 := broadcastInDim S3x12 ![] bcast_S_S3x12 main_cst_0
  let main_v6 : IVec S3x12 1 := cmpf .olt main_v4 main_v5
  let main_c_1 : IVec S_ 1 := constantI S_ 1 1#1
  let main_v7 : IVec S_ 1 := (fun x v => Host.reduce IntOp.andi x v reducesTo_S3x12_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x8 .f32 := Host.absf main_arg3
  let main_cst_4 : FVec F S_ .f32 := constant S_ .f32 0x7F800000#32
  let main_v15 : FVec F S12x8 .f32 := broadcastInDim S12x8 ![] bcast_S_S12x8 main_cst_4
  let main_v16 : IVec S12x8 1 := cmpf .olt main_v14 main_v15
  fn_part1 (F := F) main_arg0 main_arg1 main_arg2 main_arg3 main_arg4 main_arg5 main_arg6 main_v13 main_v16
-- ==== Kernel.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S1x12 : Shape := ⟨2, ![1, 12]⟩
abbrev S1x8 : Shape := ⟨2, ![1, 8]⟩
abbrev S1x2 : Shape := ⟨2, ![1, 2]⟩
abbrev S4194304x2 : Shape := ⟨2, ![4194304, 2]⟩
abbrev S65536x5 : Shape := ⟨2, ![65536, 5]⟩
abbrev S65536x2 : Shape := ⟨2, ![65536, 2]⟩
abbrev S65536x1 : Shape := ⟨2, ![65536, 1]⟩
abbrev S65536x3 : Shape := ⟨2, ![65536, 3]⟩
abbrev S65536x12 : Shape := ⟨2, ![65536, 12]⟩
abbrev S65536x8 : Shape := ⟨2, ![65536, 8]⟩

abbrev nBuf : Space → Nat
  | .hbm => 11
  | .vmem => 10
  | .smem => 0
  | _ => 0

abbrev bufTy : (tb : Table) → Fin (tcTables nBuf tb) → BufTy
  | .hbm, ⟨0, _⟩ => ⟨S4194304x5, .f32⟩
  | .hbm, ⟨1, _⟩ => ⟨S3x12, .f32⟩
  | .hbm, ⟨2, _⟩ => ⟨S12, .f32⟩
  | .hbm, ⟨3, _⟩ => ⟨S12x8, .f32⟩
  | .hbm, ⟨4, _⟩ => ⟨S8, .f32⟩
  | .hbm, ⟨5, _⟩ => ⟨S8x2, .f32⟩
  | .hbm, ⟨6, _⟩ => ⟨S2, .f32⟩
  | .hbm, ⟨7, _⟩ => ⟨S1x12, .f32⟩
  | .hbm, ⟨8, _⟩ => ⟨S1x8, .f32⟩
  | .hbm, ⟨9, _⟩ => ⟨S1x2, .f32⟩
  | .hbm, ⟨10, _⟩ => ⟨S4194304x2, .f32⟩
  | .local _ .vmem, ⟨0, _⟩ => ⟨S65536x5, .f32⟩
  | .local _ .vmem, ⟨1, _⟩ => ⟨S65536x5, .f32⟩
  | .local _ .vmem, ⟨2, _⟩ => ⟨S3x12, .f32⟩
  | .local _ .vmem, ⟨3, _⟩ => ⟨S1x12, .f32⟩
  | .local _ .vmem, ⟨4, _⟩ => ⟨S12x8, .f32⟩
  | .local _ .vmem, ⟨5, _⟩ => ⟨S1x8, .f32⟩
  | .local _ .vmem, ⟨6, _⟩ => ⟨S8x2, .f32⟩
  | .local _ .vmem, ⟨7, _⟩ => ⟨S1x2, .f32⟩
  | .local _ .vmem, ⟨8, _⟩ => ⟨S65536x2, .f32⟩
  | .local _ .vmem, ⟨9, _⟩ => ⟨S65536x2, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S65536x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S12_S1x12 : S12.ShapeCasts S1x12
  shapeCasts_S8_S1x8 : S8.ShapeCasts S1x8
  shapeCasts_S2_S1x2 : S2.ShapeCasts S1x2
  inb_S65536x5_S65536x5_0_0 : ∀ a, (![0, 0] : Fin 2 → Nat) a + S65536x5.size a ≤ S65536x5.size a
  h_S65536x5 : 0 < S65536x5.numel
  slices_S65536x5_o0_0_S65536x1 : S65536x5.Slices ![0, 0] S65536x1
  slices_S65536x5_o0_1_S65536x1 : S65536x5.Slices ![0, 1] S65536x1
  concatenates_S65536x1_S65536x1_S65536x1_S65536x3_d1 : Shape.Concatenates [S65536x1, S65536x1, S65536x1] S65536x3 1
  inb_S3x12_S3x12_0_0 : ∀ a, (![0, 0] : Fin 2 → Nat) a + S3x12.size a ≤ S3x12.size a
  h_S3x12 : 0 < S3x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S12x8_S12x8_0_0 : ∀ a, (![0, 0] : Fin 2 → Nat) a + S12x8.size a ≤ S12x8.size a
  h_S12x8 : 0 < S12x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8x2_S8x2_0_0 : ∀ a, (![0, 0] : Fin 2 → Nat) a + S8x2.size a ≤ S8x2.size a
  h_S8x2 : 0 < S8x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x12_S65536x12 : S1x12.Broadcasts S65536x12
  broadcasts_S1x8_S65536x8 : S1x8.Broadcasts S65536x8
  broadcasts_S1x2_S65536x2 : S1x2.Broadcasts S65536x2
  slices_S65536x2_o0_0_S65536x1 : S65536x2.Slices ![0, 0] S65536x1
  slices_S65536x2_o0_1_S65536x1 : S65536x2.Slices ![0, 1] S65536x1
  slices_S65536x5_o0_2_S65536x1 : S65536x5.Slices ![0, 2] S65536x1
  concatenates_S65536x1_S65536x1_S65536x2_d1 : Shape.Concatenates [S65536x1, S65536x1] S65536x2 1
  slices_S65536x5_o0_0_S65536x2 : S65536x5.Slices ![0, 0] S65536x2
  inb_S65536x2_S65536x2_0_0 : ∀ a, (![0, 0] : Fin 2 → Nat) a + S65536x2.size a ≤ S65536x2.size a
  h_S65536x2 : 0 < S65536x2.numel
  dot_S65536x3_S3x12_S65536x12_1_0_0_1_n_n_wf : DotDims.WF S65536x3 S3x12 S65536x12 [1] [0] [0] [1] [] []
  dot_S65536x12_S12x8_S65536x8_1_0_0_1_n_n_wf : DotDims.WF S65536x12 S12x8 S65536x8 [1] [0] [0] [1] [] []
  dot_S65536x8_S8x2_S65536x2_1_0_0_1_n_n_wf : DotDims.WF S65536x8 S8x2 S65536x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x5.size a ≤ S4194304x5.size a
  hwx0_0 : ∀ i : grid0.Coords, EltTy.bits .f32 = 32 ∨ (Rect.block (s := S4194304x5) S65536x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x12.size a ≤ S3x12.size a
  hwx0_1 : ∀ i : grid0.Coords, EltTy.bits .f32 = 32 ∨ (Rect.block (s := S3x12) S3x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x8.size a ≤ S12x8.size a
  hwx0_3 : ∀ i : grid0.Coords, EltTy.bits .f32 = 32 ∨ (Rect.block (s := S12x8) S12x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x2.size a ≤ S8x2.size a
  hwx0_5 : ∀ i : grid0.Coords, EltTy.bits .f32 = 32 ∨ (Rect.block (s := S8x2) S8x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S65536x2.size a ≤ S4194304x2.size a
  hwx0_7 : ∀ i : grid0.Coords, EltTy.bits .f32 = 32 ∨ (Rect.block (s := S4194304x2) S65536x2.size (cc0_transform_7 i) (hinb0_7 i)).WholeWords (EltTy.packing .f32)

variable [Facts₀]

def dot_S65536x3_S3x12_S65536x12_1_0_0_1_n_n : DotDims S65536x3 S3x12 S65536x12 where
  lhsContracting := [1]
  rhsContracting := [0]
  lhsNonContracting := [0]
  rhsNonContracting := [1]
  lhsBatch := []
  rhsBatch := []
  wf := dot_S65536x3_S3x12_S65536x12_1_0_0_1_n_n_wf
def dot_S65536x12_S12x8_S65536x8_1_0_0_1_n_n : DotDims S65536x12 S12x8 S65536x8 where
  lhsContracting := [1]
  rhsContracting := [0]
  lhsNonContracting := [0]
  rhsNonContracting := [1]
  lhsBatch := []
  rhsBatch := []
  wf := dot_S65536x12_S12x8_S65536x8_1_0_0_1_n_n_wf
def dot_S65536x8_S8x2_S65536x2_1_0_0_1_n_n : DotDims S65536x8 S8x2 S65536x2 where
  lhsContracting := [1]
  rhsContracting := [0]
  lhsNonContracting := [0]
  rhsNonContracting := [1]
  lhsBatch := []
  rhsBatch := []
  wf := dot_S65536x8_S8x2_S65536x2_1_0_0_1_n_n_wf

abbrev win0_0 : Pipeline.Window sig grid0 :=
  Pipeline.Window.ofSpec (Memref.whole main_arg0) S65536x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S12x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S65536x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S3x12 : Shape := ⟨2, ![3, 12]⟩
abbrev S12 : Shape := ⟨1, ![12]⟩
abbrev S12x8 : Shape := ⟨2, ![12, 8]⟩
abbrev S8 : Shape := ⟨1, ![8]⟩
abbrev S8x2 : Shape := ⟨2, ![8, 2]⟩
abbrev S2 : Shape := ⟨1, ![2]⟩
abbrev S2x1 : Shape := ⟨2, ![2, 1]⟩
abbrev S1x2x1 : Shape := ⟨3, ![1, 2, 1]⟩
abbrev S4194304x2 : Shape := ⟨2, ![4194304, 2]⟩
abbrev S_ : Shape := ⟨0, ![]⟩
abbrev S4194304 : Shape := ⟨1, ![4194304]⟩
abbrev S4194304x1 : Shape := ⟨2, ![4194304, 1]⟩
abbrev S4194304x3 : Shape := ⟨2, ![4194304, 3]⟩
abbrev S4194304x12 : Shape := ⟨2, ![4194304, 12]⟩
abbrev S1x12 : Shape := ⟨2, ![1, 12]⟩
abbrev S4194304x8 : Shape := ⟨2, ![4194304, 8]⟩
abbrev S1x8 : Shape := ⟨2, ![1, 8]⟩
abbrev S1x2 : Shape := ⟨2, ![1, 2]⟩
abbrev S4194304x2x1 : Shape := ⟨3, ![4194304, 2, 1]⟩
abbrev S4194304x2x2 : Shape := ⟨3, ![4194304, 2, 2]⟩
abbrev S4194304x1x1 : Shape := ⟨3, ![4194304, 1, 1]⟩
abbrev S4194304x1x2 : Shape := ⟨3, ![4194304, 1, 2]⟩
abbrev S4194304x2x4 : Shape := ⟨3, ![4194304, 2, 4]⟩
abbrev S4194304x4 : Shape := ⟨2, ![4194304, 4]⟩
abbrev S4194304x4x1 : Shape := ⟨3, ![4194304, 4, 1]⟩

abbrev nBuf : Space → Nat
  | .hbm => 158
  | .vmem => 0
  | .smem => 0
  | _ => 0

abbrev hbmTy0_0 (i : Nat) : BufTy := match i % 128 with
  | 0 => ⟨S4194304x5, .f32⟩
  | 1 => ⟨S3x12, .f32⟩
  | 2 => ⟨S12, .f32⟩
  | 3 => ⟨S12x8, .f32⟩
  | 4 => ⟨S8, .f32⟩
  | 5 => ⟨S8x2, .f32⟩
  | 6 => ⟨S2, .f32⟩
  | 7 => ⟨S2, .f32⟩
  | 8 => ⟨S2, .f32⟩
  | 9 => ⟨S2x1, .f32⟩
  | 10 => ⟨S1x2x1, .f32⟩
  | 11 => ⟨S4194304x2, .f32⟩
  | 12 => ⟨S4194304x2, .f32⟩
  | 13 => ⟨S4194304x2, .f32⟩
  | 14 => ⟨S4194304x2, .f32⟩
  | 15 => ⟨S4194304x2, .f32⟩
  | 16 => ⟨S4194304x2, .f32⟩
  | 17 => ⟨S4194304x2, .f32⟩
  | 18 => ⟨S_, .f32⟩
  | 19 => ⟨S4194304, .f32⟩
  | 20 => ⟨S_, .f32⟩
  | 21 => ⟨S4194304, .f32⟩
  | 22 => ⟨S4194304x1, .f32⟩
  | 23 => ⟨S4194304x1, .f32⟩
  | 24 => ⟨S4194304x1, .f32⟩
  | 25 => ⟨S_, .f32⟩
  | 26 => ⟨S4194304x1, .f32⟩
  | 27 => ⟨S4194304x1, .f32⟩
  | 28 => ⟨S4194304x1, .f32⟩
  | 29 => ⟨S4194304x3, .f32⟩
  | 30 => ⟨S4194304x3, .f32⟩
  | 31 => ⟨S4194304x12, .f32⟩
  | 32 => ⟨S4194304x12, .f32⟩
  | 33 => ⟨S1x12, .f32⟩
  | 34 => ⟨S4194304x12, .f32⟩
  | 35 => ⟨S4194304x12, .f32⟩
  | 36 => ⟨S4194304x12, .f32⟩
  | 37 => ⟨S4194304x12, .f32⟩
  | 38 => ⟨S4194304x12, .f32⟩
  | 39 => ⟨S_, .f32⟩
  | 40 => ⟨S4194304x12, .f32⟩
  | 41 => ⟨S4194304x12, .f32⟩
  | 42 => ⟨S4194304x12, .f32⟩
  | 43 => ⟨S4194304x8, .f32⟩
  | 44 => ⟨S4194304x8, .f32⟩
  | 45 => ⟨S1x8, .f32⟩
  | 46 => ⟨S4194304x8, .f32⟩
  | 47 => ⟨S4194304x8, .f32⟩
  | 48 => ⟨S4194304x8, .f32⟩
  | 49 => ⟨S4194304x8, .f32⟩
  | 50 => ⟨S4194304x8, .f32⟩
  | 51 => ⟨S_, .f32⟩
  | 52 => ⟨S4194304x8, .f32⟩
  | 53 => ⟨S4194304x8, .f32⟩
  | 54 => ⟨S4194304x8, .f32⟩
  | 55 => ⟨S4194304x2, .f32⟩
  | 56 => ⟨S4194304x2, .f32⟩
  | 57 => ⟨S1x2, .f32⟩
  | 58 => ⟨S4194304x2, .f32⟩
  | 59 => ⟨S4194304x2, .f32⟩
  | 60 => ⟨S4194304x2, .f32⟩
  | 61 => ⟨S4194304x2, .f32⟩
  | 62 => ⟨S4194304x2, .f32⟩
  | 63 => ⟨S4194304x2, .f32⟩
  | 64 => ⟨S_, .f32⟩
  | 65 => ⟨S4194304, .f32⟩
  | 66 => ⟨S_, .f32⟩
  | 67 => ⟨S4194304, .f32⟩
  | 68 => ⟨S4194304x1, .f32⟩
  | 69 => ⟨S4194304x1, .f32⟩
  | 70 => ⟨S4194304x1, .f32⟩
  | 71 => ⟨S_, .f32⟩
  | 72 => ⟨S4194304x1, .f32⟩
  | 73 => ⟨S4194304x1, .f32⟩
  | 74 => ⟨S4194304x1, .f32⟩
  | 75 => ⟨S4194304x3, .f32⟩
  | 76 => ⟨S4194304x3, .f32⟩
  | 77 => ⟨S4194304x12, .f32⟩
  | 78 => ⟨S4194304x12, .f32⟩
  | 79 => ⟨S1x12, .f32⟩
  | 80 => ⟨S4194304x12, .f32⟩
  | 81 => ⟨S4194304x12, .f32⟩
  | 82 => ⟨S4194304x12, .f32⟩
  | 83 => ⟨S4194304x12, .f32⟩
  | 84 => ⟨S4194304x12, .f32⟩
  | 85 => ⟨S_, .f32⟩
  | 86 => ⟨S4194304x12, .f32⟩
  | 87 => ⟨S4194304x12, .f32⟩
  | 88 => ⟨S4194304x12, .f32⟩
  | 89 => ⟨S4194304x8, .f32⟩
  | 90 => ⟨S4194304x8, .f32⟩
  | 91 => ⟨S1x8, .f32⟩
  | 92 => ⟨S4194304x8, .f32⟩
  | 93 => ⟨S4194304x8, .f32⟩
  | 94 => ⟨S4194304x8, .f32⟩
  | 95 => ⟨S4194304x8, .f32⟩
  | 96 => ⟨S4194304x8, .f32⟩
  | 97 => ⟨S_, .f32⟩
  | 98 => ⟨S4194304x8, .f32⟩
  | 99 => ⟨S4194304x8, .f32⟩
  | 100 => ⟨S4194304x8, .f32⟩
  | 101 => ⟨S4194304x2, .f32⟩
  | 102 => ⟨S4194304x2, .f32⟩
  | 103 => ⟨S1x2, .f32⟩
  | 104 => ⟨S4194304x2, .f32⟩
  | 105 => ⟨S4194304x2, .f32⟩
  | 106 => ⟨S4194304x2x1, .f32⟩
  | 107 => ⟨S4194304x2x1, .f32⟩
  | 108 => ⟨S4194304x2x2, .f32⟩
  | 109 => ⟨S4194304x1x1, .f32⟩
  | 110 => ⟨S4194304, .f32⟩
  | 111 => ⟨S4194304x1x1, .f32⟩
  | 112 => ⟨S4194304, .f32⟩
  | 113 => ⟨S4194304x1x1, .f32⟩
  | 114 => ⟨S4194304, .f32⟩
  | 115 => ⟨S4194304x1x1, .f32⟩
  | 116 => ⟨S4194304, .f32⟩
  | 117 => ⟨S4194304, .f32⟩
  | 118 => ⟨S4194304, .f32⟩
  | 119 => ⟨S4194304, .f32⟩
  | 120 => ⟨S4194304, .f32⟩
  | 121 => ⟨S4194304x1, .f32⟩
  | 122 => ⟨S4194304x1, .f32⟩
  | 123 => ⟨S4194304x2, .f32⟩
  | 124 => ⟨S4194304, .f32⟩
  | 125 => ⟨S4194304x1, .f32⟩
  | 126 => ⟨S4194304x1, .f32⟩
  | 127 => ⟨S4194304x2, .f32⟩
  | _ => ⟨S4194304x5, .f32⟩

abbrev hbmTy0_1 (i : Nat) : BufTy := match i % 128 with
  | 0 => ⟨S4194304x1x2, .f32⟩
  | 1 => ⟨S4194304x1x2, .f32⟩
  | 2 => ⟨S4194304x2x2, .f32⟩
  | 3 => ⟨S4194304x1x1, .f32⟩
  | 4 => ⟨S4194304x2x2, .f32⟩
  | 5 => ⟨S4194304x2x2, .f32⟩
  | 6 => ⟨S4194304x1, .f32⟩
  | 7 => ⟨S4194304x1, .f32⟩
  | 8 => ⟨S4194304x1, .f32⟩
  | 9 => ⟨S4194304x2, .f32⟩
  | 10 => ⟨S4194304x2x1, .f32⟩
  | 11 => ⟨S_, .f32⟩
  | 12 => ⟨S4194304x2x2, .f32⟩
  | 13 => ⟨S4194304x2x1, .f32⟩
  | 14 => ⟨S_, .f32⟩
  | 15 => ⟨S4194304x2x1, .f32⟩
  | 16 => ⟨S4194304x2x1, .f32⟩
  | 17 => ⟨S4194304x2x4, .f32⟩
  | 18 => ⟨S4194304x3, .f32⟩
  | 19 => ⟨S_, .f32⟩
  | 20 => ⟨S4194304x1, .f32⟩
  | 21 => ⟨S4194304x4, .f32⟩
  | 22 => ⟨S4194304x4x1, .f32⟩
  | 23 => ⟨S4194304x2x1, .f32⟩
  | 24 => ⟨S4194304x2x1, .f32⟩
  | 25 => ⟨S4194304x2, .f32⟩
  | 26 => ⟨S_, .f32⟩
  | 27 => ⟨S4194304x2, .f32⟩
  | 28 => ⟨S4194304x2, .f32⟩
  | 29 => ⟨S4194304x2, .f32⟩
  | _ => ⟨S4194304x5, .f32⟩

abbrev hbmTy (i : Nat) : BufTy := match i / 128 with
  | 0 => hbmTy0_0 i
  | 1 => hbmTy0_1 i
  | _ => ⟨S4194304x5, .f32⟩

abbrev bufTy : (tb : Table) → Fin (tcTables nBuf tb) → BufTy
  | .hbm, ⟨i, _⟩ => hbmTy i
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_v4_0 : Ref sig .tc := ⟨.hbm, 24, rfl⟩
abbrev main_call0_cst_1 : Ref sig .tc := ⟨.hbm, 25, rfl⟩
abbrev main_call0_v9 : Ref sig .tc := ⟨.hbm, 26, rfl⟩
abbrev main_call0_v10 : Ref sig .tc := ⟨.hbm, 27, rfl⟩
abbrev main_v4_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_cst : Ref sig .tc := ⟨.hbm, 64, rfl⟩
abbrev main_call1_v4 : Ref sig .tc := ⟨.hbm, 65, rfl⟩
abbrev main_call1_cst_0 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_v34_0 : Ref sig .tc := ⟨.hbm, 70, rfl⟩
abbrev main_call1_cst_1 : Ref sig .tc := ⟨.hbm, 71, rfl⟩
abbrev main_call1_v9 : Ref sig .tc := ⟨.hbm, 72, rfl⟩
abbrev main_call1_v10 : Ref sig .tc := ⟨.hbm, 73, rfl⟩
abbrev main_v34_1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_4 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_5 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_6 : Ref sig .tc := ⟨.hbm, 139, rfl⟩
abbrev main_v97 : Ref sig .tc := ⟨.hbm, 140, rfl⟩
abbrev main_v98 : Ref sig .tc := ⟨.hbm, 141, rfl⟩
abbrev main_cst_7 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_8 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_9 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩

abbrev nD : Nat := 1
abbrev τ : Topo := Topo.v7x

variable {F : FTy → Type} [FloatOps F]

class Facts₀ : Prop where
  bcast_S2x1_S1x2x1_1_2 : S2x1.BroadcastsInDim S1x2x1 (![1, 2] : Fin 2 → Fin S1x2x1.rank)
  slices_S4194304x5_S4194304x2_0_0 : S4194304x5.Slices ![0, 0] S4194304x2
  bcast_S2_S4194304x2_1 : S2.BroadcastsInDim S4194304x2 (![1] : Fin 1 → Fin S4194304x2.rank)
  reducesTo_S4194304x2_S4194304_d1 : S4194304x2.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  concatenates_S4194304x2_S4194304x1_S4194304x3_d1 : Shape.Concatenates [S4194304x2, S4194304x1] S4194304x3 1
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  bcast_S_S4194304x12 : S_.BroadcastsInDim S4194304x12 (![] : Fin 0 → Fin S4194304x12.rank)
  bcast_S8_S1x8_1 : S8.BroadcastsInDim S1x8 (![1] : Fin 1 → Fin S1x8.rank)
  bcast_S1x8_S4194304x8_0_1 : S1x8.BroadcastsInDim S4194304x8 (![0, 1] : Fin 2 → Fin S4194304x8.rank)
  bcast_S_S4194304x8 : S_.BroadcastsInDim S4194304x8 (![] : Fin 0 → Fin S4194304x8.rank)
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  bcast_S4194304x2_S4194304x2x1_0_1 : S4194304x2.BroadcastsInDim S4194304x2x1 (![0, 1] : Fin 2 → Fin S4194304x2x1.rank)
  concatenates_S4194304x2x1_S4194304x2x1_S4194304x2x2_d2 : Shape.Concatenates [S4194304x2x1, S4194304x2x1] S4194304x2x2 2
  slices_S4194304x2x2_S4194304x1x1_0_0_0 : S4194304x2x2.Slices ![0, 0, 0] S4194304x1x1
  shapeCasts_S4194304x1x1_S4194304 : S4194304x1x1.ShapeCasts S4194304
  slices_S4194304x2x2_S4194304x1x1_0_0_1 : S4194304x2x2.Slices ![0, 0, 1] S4194304x1x1
  slices_S4194304x2x2_S4194304x1x1_0_1_0 : S4194304x2x2.Slices ![0, 1, 0] S4194304x1x1
  slices_S4194304x2x2_S4194304x1x1_0_1_1 : S4194304x2x2.Slices ![0, 1, 1] S4194304x1x1
  concatenates_S4194304x1_S4194304x1_S4194304x2_d1 : Shape.Concatenates [S4194304x1, S4194304x1] S4194304x2 1
  bcast_S4194304x2_S4194304x1x2_0_2 : S4194304x2.BroadcastsInDim S4194304x1x2 (![0, 2] : Fin 2 → Fin S4194304x1x2.rank)
  concatenates_S4194304x1x2_S4194304x1x2_S4194304x2x2_d1 : Shape.Concatenates [S4194304x1x2, S4194304x1x2] S4194304x2x2 1
  bcast_S4194304_S4194304x1x1_0 : S4194304.BroadcastsInDim S4194304x1x1 (![0] : Fin 1 → Fin S4194304x1x1.rank)
  bcast_S4194304x1x1_S4194304x2x2_0_1_2 : S4194304x1x1.BroadcastsInDim S4194304x2x2 (![0, 1, 2] : Fin 3 → Fin S4194304x2x2.rank)
  slices_S4194304x2_S4194304x1_0_0 : S4194304x2.Slices ![0, 0] S4194304x1
  slices_S4194304x2_S4194304x1_0_1 : S4194304x2.Slices ![0, 1] S4194304x1
  bcast_S_S4194304x2x2 : S_.BroadcastsInDim S4194304x2x2 (![] : Fin 0 → Fin S4194304x2x2.rank)
  bcast_S1x2x1_S4194304x2x1_0_1_2 : S1x2x1.BroadcastsInDim S4194304x2x1 (![0, 1, 2] : Fin 3 → Fin S4194304x2x1.rank)
  bcast_S_S4194304x2x1 : S_.BroadcastsInDim S4194304x2x1 (![] : Fin 0 → Fin S4194304x2x1.rank)
  concatenates_S4194304x2x2_S4194304x2x1_S4194304x2x1_S4194304x2x4_d2 : Shape.Concatenates [S4194304x2x2, S4194304x2x1, S4194304x2x1] S4194304x2x4 2
  slices_S4194304x5_S4194304x3_0_0 : S4194304x5.Slices ![0, 0] S4194304x3
  concatenates_S4194304x3_S4194304x1_S4194304x4_d1 : Shape.Concatenates [S4194304x3, S4194304x1] S4194304x4 1
  bcast_S4194304x4_S4194304x4x1_0_1 : S4194304x4.BroadcastsInDim S4194304x4x1 (![0, 1] : Fin 2 → Fin S4194304x4x1.rank)
  shapeCasts_S4194304x2x1_S4194304x2 : S4194304x2x1.ShapeCasts S4194304x2
  bcast_S_S4194304x2 : S_.BroadcastsInDim S4194304x2 (![] : Fin 0 → Fin S4194304x2.rank)
  dot_S4194304x3_S3x12_S4194304x12_1_0_0_1_n_n_wf : DotDims.WF S4194304x3 S3x12 S4194304x12 [1] [0] [0] [1] [] []
  dot_S4194304x12_S12x8_S4194304x8_1_0_0_1_n_n_wf : DotDims.WF S4194304x12 S12x8 S4194304x8 [1] [0] [0] [1] [] []
  dot_S4194304x8_S8x2_S4194304x2_1_0_0_1_n_n_wf : DotDims.WF S4194304x8 S8x2 S4194304x2 [1] [0] [0] [1] [] []
  dot_S4194304x2x4_S4194304x4x1_S4194304x2x1_2_1_1_2_0_0_wf : DotDims.WF S4194304x2x4 S4194304x4x1 S4194304x2x1 [2] [1] [1] [2] [0] [0]
  dot_S4194304x2x2_S4194304x2x1_S4194304x2x1_2_1_1_2_0_0_wf : DotDims.WF S4194304x2x2 S4194304x2x1 S4194304x2x1 [2] [1] [1] [2] [0] [0]

variable [Facts₀]

def dot_S4194304x3_S3x12_S4194304x12_1_0_0_1_n_n : DotDims S4194304x3 S3x12 S4194304x12 where
  lhsContracting := [1]
  rhsContracting := [0]
  lhsNonContracting := [0]
  rhsNonContracting := [1]
  lhsBatch := []
  rhsBatch := []
  wf := dot_S4194304x3_S3x12_S4194304x12_1_0_0_1_n_n_wf
def dot_S4194304x12_S12x8_S4194304x8_1_0_0_1_n_n : DotDims S4194304x12 S12x8 S4194304x8 where
  lhsContracting := [1]
  rhsContracting := [0]
  lhsNonContracting := [0]
  rhsNonContracting := [1]
  lhsBatch := []
  rhsBatch := []
  wf := dot_S4194304x12_S12x8_S4194304x8_1_0_0_1_n_n_wf
def dot_S4194304x8_S8x2_S4194304x2_1_0_0_1_n_n : DotDims S4194304x8 S8x2 S4194304x2 where
  lhsContracting := [1]
  rhsContracting := [0]
  lhsNonContracting := [0]
  rhsNonContracting := [1]
  lhsBatch := []
  rhsBatch := []
  wf := dot_S4194304x8_S8x2_S4194304x2_1_0_0_1_n_n_wf
def dot_S4194304x2x4_S4194304x4x1_S4194304x2x1_2_1_1_2_0_0 : DotDims S4194304x2x4 S4194304x4x1 S4194304x2x1 where
  lhsContracting := [2]
  rhsContracting := [1]
  lhsNonContracting := [1]
  rhsNonContracting := [2]
  lhsBatch := [0]
  rhsBatch := [0]
  wf := dot_S4194304x2x4_S4194304x4x1_S4194304x2x1_2_1_1_2_0_0_wf
def dot_S4194304x2x2_S4194304x2x1_S4194304x2x1_2_1_1_2_0_0 : DotDims S4194304x2x2 S4194304x2x1 S4194304x2x1 where
  lhsContracting := [2]
  rhsContracting := [1]
  lhsNonContracting := [1]
  rhsNonContracting := [2]
  lhsBatch := [0]
  rhsBatch := [0]
  wf := dot_S4194304x2x2_S4194304x2x1_S4194304x2x1_2_1_1_2_0_0_wf

class Facts : Prop extends Facts₀ where

variable [Facts]
-- ==== Proof.Spec.lean ====
import Idealize.ShloMosaic.PureOps.Ideal
import Idealize.ShloMosaic.Lib.ValueIdx
import Mathlib.Algebra.BigOperators.Fin

/-!
# One row of the computation, as extended reals

Every row of the `4194304 × 5` input is treated alone. From its first two entries `x0, x1` a small network
`[x0, x1, √(x0² + x1²)] ↦ tanh ↦ tanh ↦ ψ ∈ ℝ²` is evaluated, together with the two columns of its Jacobian
`∂ψ/∂(x0, x1)`; the `2 × 2` Jacobian is inverted in closed form and applied to a right-hand side built from the row.

The two programs arrange this arithmetic differently, and each arrangement is written here literally:

* `outK` pushes the two unit tangents through the network with the derivative of `tanh` in the form `1 - h·h`,
  takes the tangent of the norm as `x · (1 / ‖x‖)`, and multiplies the adjugate's product by `1 / det` at the end;
* `outR` uses the derivative of `tanh` in the form `(g + g·h)·(1 - h)`, the tangent of the norm as
  `(t·x + x·t summed) · (½ / ‖x‖)`, divides each entry of the adjugate by `det` first, and forms the right-hand side and
  the final product as sums over four and two terms.

Over the reals the two agree wherever `det ≠ 0`; at `‖x‖ = 0` both tangents of the norm are `0 · ⊤ = 0`.
-/

noncomputable section

open Idealize.ShloMosaic Idealize.ShloMosaic.ValueIdx

namespace Cert.Spec

/-- The network's six parameter arrays, entry by entry. -/
structure Net where
  W1 : Fin 3 → Fin 12 → EReal
  b1 : Fin 12 → EReal
  W2 : Fin 12 → Fin 8 → EReal
  b2 : Fin 8 → EReal
  W3 : Fin 8 → Fin 2 → EReal
  b3 : Fin 2 → EReal

/-- The parameter arrays read entry by entry. -/
def netOf (W1 : (⟨2, ![3, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 2]⟩ : Shape).Idx → EReal) (b3 : (⟨1, ![2]⟩ : Shape).Idx → EReal) : Net where
  W1 := fun k j => W1 (ix2 k j)
  b1 := fun j => b1 (ix1 j)
  W2 := fun k j => W2 (ix2 k j)
  b2 := fun j => b2 (ix1 j)
  W3 := fun k j => W3 (ix2 k j)
  b3 := fun j => b3 (ix1 j)

/-! ## The literals both programs carry (the same words on both sides) -/

/-- `1`. -/
def c1 : EReal := Ideal.ofBits .f32 0x3F800000#32
/-- `1/2`. -/
def cHalf : EReal := Ideal.ofBits .f32 0x3F000000#32
/-- The resistance term's coefficient, the single-precision value nearest `-0.18`. -/
def cR : EReal := Ideal.ofBits .f32 0xBE3851EC#32
/-- The electrical angular speed, the single-precision value nearest `300π`. -/
def cW : EReal := Ideal.ofBits .f32 0x446B9E94#32
/-- The switching-state column's non-zero entry, the single-precision value nearest `560/3`. -/
def cS : EReal := Ideal.ofBits .f32 0x433AAAAB#32
/-- The time step, the single-precision value nearest `5·10⁻⁵`. -/
def cT : EReal := Ideal.ofBits .f32 0x3851B717#32

variable (w : Net)

/-! ## The forward pass (the same in both arrangements) -/

/-- `‖(x0, x1)‖`. -/
def nrm (x0 x1 : EReal) : EReal := Ideal.sqrt (x0 * x0 + x1 * x1)

/-- The network's input `[x0, x1, ‖x‖]`. -/
def iall (x0 x1 : EReal) : Fin 3 → EReal := ![x0, x1, nrm x0 x1]

/-- First hidden layer. -/
def h1 (x0 x1 : EReal) (j : Fin 12) : EReal :=
  Ideal.tanh ((∑ k : Fin 3, iall x0 x1 k * w.W1 k j) + w.b1 j)

/-- Second hidden layer. -/
def h2 (x0 x1 : EReal) (j : Fin 8) : EReal :=
  Ideal.tanh ((∑ k : Fin 12, h1 w x0 x1 k * w.W2 k j) + w.b2 j)

/-- The network's output `ψ`. -/
def psi (x0 x1 : EReal) (j : Fin 2) : EReal :=
  (∑ k : Fin 8, h2 w x0 x1 k * w.W3 k j) + w.b3 j

/-! ## The first arrangement -/

/-- The tangent of `[x0, x1, ‖x‖]` along the first coordinate: the norm's as `x0 · (1 / ‖x‖)`. -/
def t1K (x0 x1 : EReal) : Fin 3 → EReal := ![c1, 0, x0 * Ideal.div c1 (nrm x0 x1)]

/-- The tangent along the second coordinate. -/
def t2K (x0 x1 : EReal) : Fin 3 → EReal := ![0, c1, x1 * Ideal.div c1 (nrm x0 x1)]

/-- A tangent `t` of the network's input pushed to `ψ`, `tanh' = 1 - h·h`. -/
def dK (x0 x1 : EReal) (t : Fin 3 → EReal) (j : Fin 2) : EReal :=
  ∑ k8 : Fin 8,
    ((∑ k12 : Fin 12,
        ((∑ k3 : Fin 3, t k3 * w.W1 k3 k12) * (c1 - h1 w x0 x1 k12 * h1 w x0 x1 k12)) * w.W2 k12 k8)
      * (c1 - h2 w x0 x1 k8 * h2 w x0 x1 k8)) * w.W3 k8 j

/-- The Jacobian's entries `a = ∂ψ₀/∂x0`, `c = ∂ψ₁/∂x0`, `b = ∂ψ₀/∂x1`, `d = ∂ψ₁/∂x1`. -/
def aK (x0 x1 : EReal) : EReal := dK w x0 x1 (t1K x0 x1) 0
def cK (x0 x1 : EReal) : EReal := dK w x0 x1 (t1K x0 x1) 1
def bK (x0 x1 : EReal) : EReal := dK w x0 x1 (t2K x0 x1) 0
def dK' (x0 x1 : EReal) : EReal := dK w x0 x1 (t2K x0 x1) 1

/-- The Jacobian's determinant. -/
def detK (x0 x1 : EReal) : EReal := aK w x0 x1 * dK' w x0 x1 - bK w x0 x1 * cK w x0 x1

/-- The right-hand side's two rows. -/
def y0K (x0 x1 : EReal) : EReal := cR * (x0 + x1) + psi w x0 x1 1 * cW
def y1K (x0 x1 x2 : EReal) : EReal := (cR * (x0 + x1) + cS * x2) + (0 - psi w x0 x1 0) * cW

/-- The row's two results in the first arrangement. -/
def outK (x0 x1 x2 : EReal) : Fin 2 → EReal :=
  ![((dK' w x0 x1 * y0K w x0 x1 - bK w x0 x1 * y1K w x0 x1 x2) * Ideal.div c1 (detK w x0 x1)) * cT + x0,
    (((0 - cK w x0 x1) * y0K w x0 x1 + aK w x0 x1 * y1K w x0 x1 x2) * Ideal.div c1 (detK w x0 x1)) * cT + x1]

/-! ## The second arrangement -/

/-- The tangent of the norm along `(t0, t1)`: `(Σⱼ tⱼ·xⱼ + xⱼ·tⱼ) · (½ / ‖x‖)`. -/
def dnR (x0 x1 t0 t1 : EReal) : EReal :=
  ((t0 * x0 + x0 * t0) + (t1 * x1 + x1 * t1)) * Ideal.div cHalf (nrm x0 x1)

/-- The tangent of `[x0, x1, ‖x‖]` along `(t0, t1)`. -/
def tR (x0 x1 t0 t1 : EReal) : Fin 3 → EReal := ![t0, t1, dnR x0 x1 t0 t1]

/-- The tangent after the first hidden layer, `tanh' · g = (g + g·h)·(1 - h)`. -/
def dh1R (x0 x1 : EReal) (t : Fin 3 → EReal) (j : Fin 12) : EReal :=
  ((∑ k : Fin 3, t k * w.W1 k j) + (∑ k : Fin 3, t k * w.W1 k j) * h1 w x0 x1 j) * (c1 - h1 w x0 x1 j)

/-- The tangent after the second hidden layer. -/
def dh2R (x0 x1 : EReal) (t : Fin 3 → EReal) (j : Fin 8) : EReal :=
  ((∑ k : Fin 12, dh1R w x0 x1 t k * w.W2 k j) + (∑ k : Fin 12, dh1R w x0 x1 t k * w.W2 k j) * h2 w x0 x1 j)
    * (c1 - h2 w x0 x1 j)

/-- The tangent at `ψ`. -/
def dR (x0 x1 : EReal) (t : Fin 3 → EReal) (j : Fin 2) : EReal :=
  ∑ k : Fin 8, dh2R w x0 x1 t k * w.W3 k j

def aR (x0 x1 : EReal) : EReal := dR w x0 x1 (tR x0 x1 c1 0) 0
def cR' (x0 x1 : EReal) : EReal := dR w x0 x1 (tR x0 x1 c1 0) 1
def bR (x0 x1 : EReal) : EReal := dR w x0 x1 (tR x0 x1 0 c1) 0
def dR' (x0 x1 : EReal) : EReal := dR w x0 x1 (tR x0 x1 0 c1) 1

/-- The Jacobian's determinant in the second arrangement: the quantity the closed-form inverse divides by. -/
def detR (x0 x1 : EReal) : EReal := aR w x0 x1 * dR' w x0 x1 - bR w x0 x1 * cR' w x0 x1

/-- The inverse of `[[a, b], [c, d]]` in closed form, each adjugate entry divided by the determinant. -/
def invLS (a b c d : EReal) (i j : Fin 2) : EReal :=
  Ideal.div ((![![d, -b], ![-c, a]] : Fin 2 → Fin 2 → EReal) i j) (a * d - b * c)

/-- The right-hand side's row `i`: `[cR, cR, sᵢ, (ψ rotated)ᵢ · cW] · [x0, x1, x2, 1]`, with `ψ = (p0, p1)`. -/
def rS (p0 p1 x0 x1 x2 : EReal) (i : Fin 2) : EReal :=
  ∑ k : Fin 4,
    (![cR, cR, (![0, cS] : Fin 2 → EReal) i, (![p1, -p0] : Fin 2 → EReal) i * cW] : Fin 4 → EReal) k
      * (![x0, x1, x2, c1] : Fin 4 → EReal) k

/-- The closed-form solve and the update, from the Jacobian's entries `a b c d`, `ψ = (p0, p1)` and the row. -/
def solveR (a b c d p0 p1 x0 x1 x2 : EReal) (i : Fin 2) : EReal :=
  (∑ j : Fin 2, invLS a b c d i j * rS p0 p1 x0 x1 x2 j) * cT + (![x0, x1] : Fin 2 → EReal) i

/-- The row's two results in the second arrangement. -/
def outR (x0 x1 x2 : EReal) (i : Fin 2) : EReal :=
  solveR (aR w x0 x1) (bR w x0 x1) (cR' w x0 x1) (dR' w x0 x1) (psi w x0 x1 0) (psi w x0 x1 1) x0 x1 x2 i

end Cert.Spec

namespace Cert.Spec

/-! ## The whole result array, row by row -/

/-- Row `r`, column `q` of the `4194304 × 2` result in the first arrangement, from the argument arrays. -/
def GK (X : (⟨2, ![4194304, 5]⟩ : Shape).Idx → EReal)
    (W1 : (⟨2, ![3, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 2]⟩ : Shape).Idx → EReal) (b3 : (⟨1, ![2]⟩ : Shape).Idx → EReal) :
    (⟨2, ![4194304, 2]⟩ : Shape).Idx → EReal :=
  fun i => outK (netOf W1 b1 W2 b2 W3 b3)
    (X (ix2 (n1 := 5) (i 0 : Fin 4194304) 0)) (X (ix2 (n1 := 5) (i 0 : Fin 4194304) 1)) (X (ix2 (n1 := 5) (i 0 : Fin 4194304) 2))
    (i 1 : Fin 2)

/-- The same in the second arrangement. -/
def GR (X : (⟨2, ![4194304, 5]⟩ : Shape).Idx → EReal)
    (W1 : (⟨2, ![3, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 2]⟩ : Shape).Idx → EReal) (b3 : (⟨1, ![2]⟩ : Shape).Idx → EReal) :
    (⟨2, ![4194304, 2]⟩ : Shape).Idx → EReal :=
  fun i => outR (netOf W1 b1 W2 b2 W3 b3)
    (X (ix2 (n1 := 5) (i 0 : Fin 4194304) 0)) (X (ix2 (n1 := 5) (i 0 : Fin 4194304) 1)) (X (ix2 (n1 := 5) (i 0 : Fin 4194304) 2))
    (i 1 : Fin 2)

/-! ## Finiteness -/

/-- An extended real that is a real number. -/
def IsReal (x : EReal) : Prop := x ≠ ⊥ ∧ x ≠ ⊤

/-- Every parameter is a real number. -/
structure Net.IsReal (w : Net) : Prop where
  W1 : ∀ k j, Cert.Spec.IsReal (w.W1 k j)
  b1 : ∀ j, Cert.Spec.IsReal (w.b1 j)
  W2 : ∀ k j, Cert.Spec.IsReal (w.W2 k j)
  b2 : ∀ j, Cert.Spec.IsReal (w.b2 j)
  W3 : ∀ k j, Cert.Spec.IsReal (w.W3 k j)
  b3 : ∀ j, Cert.Spec.IsReal (w.b3 j)

end Cert.Spec

end
-- ==== Proof.KernelPayload.lean ====
import proofs.«114032_j50405736186087_1_alg».proof.Proof.Gen.KernelIdeal.Frame
import proofs.«114032_j50405736186087_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# What one grid point stores, entry by entry

The body's single store, read at row `p`, column `q` of the `65536 × 2` block, is the first arrangement of the
row's arithmetic on row `p` of the input block and the six parameter blocks.
-/

noncomputable section

namespace Cert.KernelIdeal.Payload

open Cert.KernelIdeal Cert.KernelIdeal.Gen Idealize.ShloMosaic Idealize.ShloMosaic.ValueIdx

/-- The parameter blocks the body loads, entry by entry (the biases arrive as `1 × n` rows). -/
def netBlk (x1 : Vec Ideal S3x12 .f32) (x2 : Vec Ideal S1x12 .f32) (x3 : Vec Ideal S12x8 .f32) (x4 : Vec Ideal S1x8 .f32)
    (x5 : Vec Ideal S8x2 .f32) (x6 : Vec Ideal S1x2 .f32) : Cert.Spec.Net where
  W1 := fun k j => x1 (ix2 k j)
  b1 := fun j => x2 (ix2 (0 : Fin 1) j)
  W2 := fun k j => x3 (ix2 k j)
  b2 := fun j => x4 (ix2 (0 : Fin 1) j)
  W3 := fun k j => x5 (ix2 k j)
  b3 := fun j => x6 (ix2 (0 : Fin 1) j)

/-! ## The three products, read at an entry

Each product contracts the left operand's columns against the right operand's rows; the four lemmas before each say
which coordinate of the result or of the contraction an operand's coordinate is. -/

theorem lhsA_0 (i : S65536x12.Idx) (q : dot_S65536x3_S3x12_S65536x12_1_0_0_1_n_n.contr.Idx) :
    (dot_S65536x3_S3x12_S65536x12_1_0_0_1_n_n.lhsIdx i q 0).val = (i 0).val := by
  unfold DotDims.lhsIdx
  rw [dif_neg (show ¬(0 : Fin S65536x3.rank) ∈ dot_S65536x3_S3x12_S65536x12_1_0_0_1_n_n.lhsBatch by decide),
    dif_pos (show (0 : Fin S65536x3.rank) ∈ dot_S65536x3_S3x12_S65536x12_1_0_0_1_n_n.lhsNonContracting by decide)]
  rfl
theorem lhsA_1 (i : S65536x12.Idx) (q : dot_S65536x3_S3x12_S65536x12_1_0_0_1_n_n.contr.Idx) :
    (dot_S65536x3_S3x12_S65536x12_1_0_0_1_n_n.lhsIdx i q 1).val = (q ⟨0, by decide⟩).val :=
  dot_S65536x3_S3x12_S65536x12_1_0_0_1_n_n.lhsIdx_val_of_single rfl i q
theorem rhsA_0 (i : S65536x12.Idx) (q : dot_S65536x3_S3x12_S65536x12_1_0_0_1_n_n.contr.Idx) :
    (dot_S65536x3_S3x12_S65536x12_1_0_0_1_n_n.rhsIdx i q 0).val = (q ⟨0, by decide⟩).val :=
  dot_S65536x3_S3x12_S65536x12_1_0_0_1_n_n.rhsIdx_val_of_single rfl i q
theorem rhsA_1 (i : S65536x12.Idx) (q : dot_S65536x3_S3x12_S65536x12_1_0_0_1_n_n.contr.Idx) :
    (dot_S65536x3_S3x12_S65536x12_1_0_0_1_n_n.rhsIdx i q 1).val = (i 1).val := by
  unfold DotDims.rhsIdx
  rw [dif_neg (show ¬(1 : Fin S3x12.rank) ∈ dot_S65536x3_S3x12_S65536x12_1_0_0_1_n_n.rhsBatch by decide),
    dif_pos (show (1 : Fin S3x12.rank) ∈ dot_S65536x3_S3x12_S65536x12_1_0_0_1_n_n.rhsNonContracting by decide)]
  rfl

/-- The first layer's product at `(p, j)`: the sum over the three inputs. -/
theorem mmA_apply (l : FVec Ideal S65536x3 .f32) (r : FVec Ideal S3x12 .f32) (p : Fin 65536) (j : Fin 12) :
    matmul dot_S65536x3_S3x12_S65536x12_1_0_0_1_n_n none l r (constant S65536x12 .f32 0x00000000#32) (ix2 p j)
      = ∑ k : Fin 3, l (ix2 p k) * r (ix2 k j) := by
  refine (Ideal.matmul_constant_zero_apply dot_S65536x3_S3x12_S65536x12_1_0_0_1_n_n none l r (ix2 p j)).trans ?_
  rw [← Equiv.sum_comp (contrEquiv1 dot_S65536x3_S3x12_S65536x12_1_0_0_1_n_n 3 rfl rfl).symm]
  refine Finset.sum_congr rfl fun k _ => ?_
  have hk := contrEquiv1_symm_val dot_S65536x3_S3x12_S65536x12_1_0_0_1_n_n 3 rfl rfl k
  have el : dot_S65536x3_S3x12_S65536x12_1_0_0_1_n_n.lhsIdx (ix2 p j) ((contrEquiv1 dot_S65536x3_S3x12_S65536x12_1_0_0_1_n_n 3 rfl rfl).symm k) = ix2 p k :=
    funext fun a => Fin.ext (by
      match a with
      | ⟨0, _⟩ => exact lhsA_0 _ _
      | ⟨1, _⟩ => exact (lhsA_1 _ _).trans hk)
  have er : dot_S65536x3_S3x12_S65536x12_1_0_0_1_n_n.rhsIdx (ix2 p j) ((contrEquiv1 dot_S65536x3_S3x12_S65536x12_1_0_0_1_n_n 3 rfl rfl).symm k) = ix2 k j :=
    funext fun a => Fin.ext (by
      match a with
      | ⟨0, _⟩ => exact (rhsA_0 _ _).trans hk
      | ⟨1, _⟩ => exact rhsA_1 _ _)
  rw [el, er]

theorem lhsB_0 (i : S65536x8.Idx) (q : dot_S65536x12_S12x8_S65536x8_1_0_0_1_n_n.contr.Idx) :
    (dot_S65536x12_S12x8_S65536x8_1_0_0_1_n_n.lhsIdx i q 0).val = (i 0).val := by
  unfold DotDims.lhsIdx
  rw [dif_neg (show ¬(0 : Fin S65536x12.rank) ∈ dot_S65536x12_S12x8_S65536x8_1_0_0_1_n_n.lhsBatch by decide),
    dif_pos (show (0 : Fin S65536x12.rank) ∈ dot_S65536x12_S12x8_S65536x8_1_0_0_1_n_n.lhsNonContracting by decide)]
  rfl
theorem lhsB_1 (i : S65536x8.Idx) (q : dot_S65536x12_S12x8_S65536x8_1_0_0_1_n_n.contr.Idx) :
    (dot_S65536x12_S12x8_S65536x8_1_0_0_1_n_n.lhsIdx i q 1).val = (q ⟨0, by decide⟩).val :=
  dot_S65536x12_S12x8_S65536x8_1_0_0_1_n_n.lhsIdx_val_of_single rfl i q
theorem rhsB_0 (i : S65536x8.Idx) (q : dot_S65536x12_S12x8_S65536x8_1_0_0_1_n_n.contr.Idx) :
    (dot_S65536x12_S12x8_S65536x8_1_0_0_1_n_n.rhsIdx i q 0).val = (q ⟨0, by decide⟩).val :=
  dot_S65536x12_S12x8_S65536x8_1_0_0_1_n_n.rhsIdx_val_of_single rfl i q
theorem rhsB_1 (i : S65536x8.Idx) (q : dot_S65536x12_S12x8_S65536x8_1_0_0_1_n_n.contr.Idx) :
    (dot_S65536x12_S12x8_S65536x8_1_0_0_1_n_n.rhsIdx i q 1).val = (i 1).val := by
  unfold DotDims.rhsIdx
  rw [dif_neg (show ¬(1 : Fin S12x8.rank) ∈ dot_S65536x12_S12x8_S65536x8_1_0_0_1_n_n.rhsBatch by decide),
    dif_pos (show (1 : Fin S12x8.rank) ∈ dot_S65536x12_S12x8_S65536x8_1_0_0_1_n_n.rhsNonContracting by decide)]
  rfl

/-- The second layer's product at `(p, j)`: the sum over the twelve hidden units. -/
theorem mmB_apply (l : FVec Ideal S65536x12 .f32) (r : FVec Ideal S12x8 .f32) (p : Fin 65536) (j : Fin 8) :
    matmul dot_S65536x12_S12x8_S65536x8_1_0_0_1_n_n none l r (constant S65536x8 .f32 0x00000000#32) (ix2 p j)
      = ∑ k : Fin 12, l (ix2 p k) * r (ix2 k j) := by
  refine (Ideal.matmul_constant_zero_apply dot_S65536x12_S12x8_S65536x8_1_0_0_1_n_n none l r (ix2 p j)).trans ?_
  rw [← Equiv.sum_comp (contrEquiv1 dot_S65536x12_S12x8_S65536x8_1_0_0_1_n_n 12 rfl rfl).symm]
  refine Finset.sum_congr rfl fun k _ => ?_
  have hk := contrEquiv1_symm_val dot_S65536x12_S12x8_S65536x8_1_0_0_1_n_n 12 rfl rfl k
  have el : dot_S65536x12_S12x8_S65536x8_1_0_0_1_n_n.lhsIdx (ix2 p j) ((contrEquiv1 dot_S65536x12_S12x8_S65536x8_1_0_0_1_n_n 12 rfl rfl).symm k) = ix2 p k :=
    funext fun a => Fin.ext (by
      match a with
      | ⟨0, _⟩ => exact lhsB_0 _ _
      | ⟨1, _⟩ => exact (lhsB_1 _ _).trans hk)
  have er : dot_S65536x12_S12x8_S65536x8_1_0_0_1_n_n.rhsIdx (ix2 p j) ((contrEquiv1 dot_S65536x12_S12x8_S65536x8_1_0_0_1_n_n 12 rfl rfl).symm k) = ix2 k j :=
    funext fun a => Fin.ext (by
      match a with
      | ⟨0, _⟩ => exact (rhsB_0 _ _).trans hk
      | ⟨1, _⟩ => exact rhsB_1 _ _)
  rw [el, er]

theorem lhsC_0 (i : S65536x2.Idx) (q : dot_S65536x8_S8x2_S65536x2_1_0_0_1_n_n.contr.Idx) :
    (dot_S65536x8_S8x2_S65536x2_1_0_0_1_n_n.lhsIdx i q 0).val = (i 0).val := by
  unfold DotDims.lhsIdx
  rw [dif_neg (show ¬(0 : Fin S65536x8.rank) ∈ dot_S65536x8_S8x2_S65536x2_1_0_0_1_n_n.lhsBatch by decide),
    dif_pos (show (0 : Fin S65536x8.rank) ∈ dot_S65536x8_S8x2_S65536x2_1_0_0_1_n_n.lhsNonContracting by decide)]
  rfl
theorem lhsC_1 (i : S65536x2.Idx) (q : dot_S65536x8_S8x2_S65536x2_1_0_0_1_n_n.contr.Idx) :
    (dot_S65536x8_S8x2_S65536x2_1_0_0_1_n_n.lhsIdx i q 1).val = (q ⟨0, by decide⟩).val :=
  dot_S65536x8_S8x2_S65536x2_1_0_0_1_n_n.lhsIdx_val_of_single rfl i q
theorem rhsC_0 (i : S65536x2.Idx) (q : dot_S65536x8_S8x2_S65536x2_1_0_0_1_n_n.contr.Idx) :
    (dot_S65536x8_S8x2_S65536x2_1_0_0_1_n_n.rhsIdx i q 0).val = (q ⟨0, by decide⟩).val :=
  dot_S65536x8_S8x2_S65536x2_1_0_0_1_n_n.rhsIdx_val_of_single rfl i q
theorem rhsC_1 (i : S65536x2.Idx) (q : dot_S65536x8_S8x2_S65536x2_1_0_0_1_n_n.contr.Idx) :
    (dot_S65536x8_S8x2_S65536x2_1_0_0_1_n_n.rhsIdx i q 1).val = (i 1).val := by
  unfold DotDims.rhsIdx
  rw [dif_neg (show ¬(1 : Fin S8x2.rank) ∈ dot_S65536x8_S8x2_S65536x2_1_0_0_1_n_n.rhsBatch by decide),
    dif_pos (show (1 : Fin S8x2.rank) ∈ dot_S65536x8_S8x2_S65536x2_1_0_0_1_n_n.rhsNonContracting by decide)]
  rfl

/-- The last layer's product at `(p, j)`: the sum over the eight hidden units. -/
theorem mmC_apply (l : FVec Ideal S65536x8 .f32) (r : FVec Ideal S8x2 .f32) (p : Fin 65536) (j : Fin 2) :
    matmul dot_S65536x8_S8x2_S65536x2_1_0_0_1_n_n none l r (constant S65536x2 .f32 0x00000000#32) (ix2 p j)
      = ∑ k : Fin 8, l (ix2 p k) * r (ix2 k j) := by
  refine (Ideal.matmul_constant_zero_apply dot_S65536x8_S8x2_S65536x2_1_0_0_1_n_n none l r (ix2 p j)).trans ?_
  rw [← Equiv.sum_comp (contrEquiv1 dot_S65536x8_S8x2_S65536x2_1_0_0_1_n_n 8 rfl rfl).symm]
  refine Finset.sum_congr rfl fun k _ => ?_
  have hk := contrEquiv1_symm_val dot_S65536x8_S8x2_S65536x2_1_0_0_1_n_n 8 rfl rfl k
  have el : dot_S65536x8_S8x2_S65536x2_1_0_0_1_n_n.lhsIdx (ix2 p j) ((contrEquiv1 dot_S65536x8_S8x2_S65536x2_1_0_0_1_n_n 8 rfl rfl).symm k) = ix2 p k :=
    funext fun a => Fin.ext (by
      match a with
      | ⟨0, _⟩ => exact lhsC_0 _ _
      | ⟨1, _⟩ => exact (lhsC_1 _ _).trans hk)
  have er : dot_S65536x8_S8x2_S65536x2_1_0_0_1_n_n.rhsIdx (ix2 p j) ((contrEquiv1 dot_S65536x8_S8x2_S65536x2_1_0_0_1_n_n 8 rfl rfl).symm k) = ix2 k j :=
    funext fun a => Fin.ext (by
      match a with
      | ⟨0, _⟩ => exact (rhsC_0 _ _).trans hk
      | ⟨1, _⟩ => exact rhsC_1 _ _)
  rw [el, er]

/-! ## Columns laid side by side -/

/-- Three columns side by side, at row `p` and column `k`: the `k`-th column at row `p`. -/
theorem cat3_apply (a b c : FVec Ideal S65536x1 .f32)
    (h : Shape.Concatenates [S65536x1, S65536x1, S65536x1] S65536x3 1) (p : Fin 65536) (k : Fin 3) :
    concatenate S65536x3 1 [⟨S65536x1, a⟩, ⟨S65536x1, b⟩, ⟨S65536x1, c⟩] h (ix2 p k)
      = (![a (ix2 p (0 : Fin 1)), b (ix2 p (0 : Fin 1)), c (ix2 p (0 : Fin 1))] : Fin 3 → EReal) k := by
  match k with
  | ⟨0, _⟩ =>
    exact concatenate_apply_piece (t := S65536x3) 1 [⟨S65536x1, a⟩, ⟨S65536x1, b⟩, ⟨S65536x1, c⟩] h _ 0 (by simp)
      S65536x1 a rfl rfl 0 rfl (ix2 p (0 : Fin 1))
      (fun b hb => by match b with | ⟨0, _⟩ => rfl | ⟨1, _⟩ => exact absurd rfl hb) rfl
  | ⟨1, _⟩ =>
    exact concatenate_apply_piece (t := S65536x3) 1 [⟨S65536x1, a⟩, ⟨S65536x1, b⟩, ⟨S65536x1, c⟩] h _ 1 (by simp)
      S65536x1 b rfl rfl 1 rfl (ix2 p (0 : Fin 1))
      (fun b hb => by match b with | ⟨0, _⟩ => rfl | ⟨1, _⟩ => exact absurd rfl hb) rfl
  | ⟨2, _⟩ =>
    exact concatenate_apply_piece (t := S65536x3) 1 [⟨S65536x1, a⟩, ⟨S65536x1, b⟩, ⟨S65536x1, c⟩] h _ 2 (by simp)
      S65536x1 c rfl rfl 2 rfl (ix2 p (0 : Fin 1))
      (fun b hb => by match b with | ⟨0, _⟩ => rfl | ⟨1, _⟩ => exact absurd rfl hb) rfl

/-- Two columns side by side, at row `p` and column `k`. -/
theorem cat2_apply (a b : FVec Ideal S65536x1 .f32)
    (h : Shape.Concatenates [S65536x1, S65536x1] S65536x2 1) (p : Fin 65536) (k : Fin 2) :
    concatenate S65536x2 1 [⟨S65536x1, a⟩, ⟨S65536x1, b⟩] h (ix2 p k)
      = (![a (ix2 p (0 : Fin 1)), b (ix2 p (0 : Fin 1))] : Fin 2 → EReal) k := by
  match k with
  | ⟨0, _⟩ =>
    exact concatenate_apply_piece (t := S65536x2) 1 [⟨S65536x1, a⟩, ⟨S65536x1, b⟩] h _ 0 (by simp)
      S65536x1 a rfl rfl 0 rfl (ix2 p (0 : Fin 1))
      (fun b hb => by match b with | ⟨0, _⟩ => rfl | ⟨1, _⟩ => exact absurd rfl hb) rfl
  | ⟨1, _⟩ =>
    exact concatenate_apply_piece (t := S65536x2) 1 [⟨S65536x1, a⟩, ⟨S65536x1, b⟩] h _ 1 (by simp)
      S65536x1 b rfl rfl 1 rfl (ix2 p (0 : Fin 1))
      (fun b hb => by match b with | ⟨0, _⟩ => rfl | ⟨1, _⟩ => exact absurd rfl hb) rfl

/-! ## Columns cut out of a block, and the pointwise functions -/

/-- Column `0` of the five-column block. -/
theorem col5_0 (x : FVec Ideal S65536x5 .f32) (h : S65536x5.Slices ![0, 0] S65536x1) (p : Fin 65536) :
    extractStridedSlice S65536x1 ![0, 0] x h (ix2 p (0 : Fin 1)) = x (ix2 p (0 : Fin 5)) :=
  slice2_axis1_apply 0 x h p 0 0 rfl
/-- Column `1` of the five-column block. -/
theorem col5_1 (x : FVec Ideal S65536x5 .f32) (h : S65536x5.Slices ![0, 1] S65536x1) (p : Fin 65536) :
    extractStridedSlice S65536x1 ![0, 1] x h (ix2 p (0 : Fin 1)) = x (ix2 p (1 : Fin 5)) :=
  slice2_axis1_apply 1 x h p 0 1 rfl
/-- Column `2` of the five-column block. -/
theorem col5_2 (x : FVec Ideal S65536x5 .f32) (h : S65536x5.Slices ![0, 2] S65536x1) (p : Fin 65536) :
    extractStridedSlice S65536x1 ![0, 2] x h (ix2 p (0 : Fin 1)) = x (ix2 p (2 : Fin 5)) :=
  slice2_axis1_apply 2 x h p 0 2 rfl
/-- The first two columns of the five-column block, at column `0` … -/
theorem col5w_0 (x : FVec Ideal S65536x5 .f32) (h : S65536x5.Slices ![0, 0] S65536x2) (p : Fin 65536) :
    extractStridedSlice S65536x2 ![0, 0] x h (ix2 p (0 : Fin 2)) = x (ix2 p (0 : Fin 5)) :=
  slice2_axis1_apply 0 x h p 0 0 rfl
/-- … and at column `1`. -/
theorem col5w_1 (x : FVec Ideal S65536x5 .f32) (h : S65536x5.Slices ![0, 0] S65536x2) (p : Fin 65536) :
    extractStridedSlice S65536x2 ![0, 0] x h (ix2 p (1 : Fin 2)) = x (ix2 p (1 : Fin 5)) :=
  slice2_axis1_apply 0 x h p 1 1 rfl
/-- Column `0` of a two-column block. -/
theorem col2_0 (x : FVec Ideal S65536x2 .f32) (h : S65536x2.Slices ![0, 0] S65536x1) (p : Fin 65536) :
    extractStridedSlice S65536x1 ![0, 0] x h (ix2 p (0 : Fin 1)) = x (ix2 p (0 : Fin 2)) :=
  slice2_axis1_apply 0 x h p 0 0 rfl
/-- Column `1` of a two-column block. -/
theorem col2_1 (x : FVec Ideal S65536x2 .f32) (h : S65536x2.Slices ![0, 1] S65536x1) (p : Fin 65536) :
    extractStridedSlice S65536x1 ![0, 1] x h (ix2 p (0 : Fin 1)) = x (ix2 p (1 : Fin 2)) :=
  slice2_axis1_apply 1 x h p 0 1 rfl

/-- The hyperbolic tangent of a block, entry by entry. -/
theorem tanh_at {s : Shape} (x : FVec Ideal s .f32) (i : s.Idx) : tanh x i = Ideal.tanh (x i) := rfl
/-- The square root of a block, entry by entry. -/
theorem sqrt_at {s : Shape} (x : FVec Ideal s .f32) (i : s.Idx) : sqrt x i = Ideal.sqrt (x i) := rfl

/-- The zero word is the number zero. -/
theorem zero_word : FloatOps.ofBits (F := Ideal) .f32 0x00000000#32 = 0 := Ideal.ofBits_zero_f32

/-! ## The forward pass on row `p` -/

section Row
variable (x0 : Vec Ideal S65536x5 .f32) (x1 : Vec Ideal S3x12 .f32) (x2 : Vec Ideal S1x12 .f32)
  (x3 : Vec Ideal S12x8 .f32) (x4 : Vec Ideal S1x8 .f32) (x5 : Vec Ideal S8x2 .f32) (x6 : Vec Ideal S1x2 .f32)
  (p : Fin 65536)

theorem pay2_apply : k0_pay2 (F := Ideal) x0 (ix2 p (0 : Fin 1)) = x0 (ix2 p (0 : Fin 5)) := by
  unfold k0_pay2
  exact col5_0 x0 _ p

theorem pay3_apply : k0_pay3 (F := Ideal) x0 (ix2 p (0 : Fin 1)) = x0 (ix2 p (1 : Fin 5)) := by
  unfold k0_pay3
  exact col5_1 x0 _ p

/-- The norm of the row's first two entries. -/
theorem pay4_apply :
    k0_pay4 (F := Ideal) x0 (ix2 p (0 : Fin 1)) = Cert.Spec.nrm (x0 (ix2 p (0 : Fin 5))) (x0 (ix2 p (1 : Fin 5))) := by
  unfold k0_pay4
  simp only [sqrt_at, addf_apply, mulf_apply, pay2_apply, pay3_apply]
  rfl

/-- The first hidden layer. -/
theorem pay5_apply (j : Fin 12) :
    k0_pay5 (F := Ideal) x0 x1 x2 (ix2 p j)
      = Cert.Spec.h1 (netBlk x1 x2 x3 x4 x5 x6) (x0 (ix2 p (0 : Fin 5))) (x0 (ix2 p (1 : Fin 5))) j := by
  unfold k0_pay5
  simp only [tanh_at, addf_apply, mmA_apply, cat3_apply, pay2_apply, pay3_apply, pay4_apply, shapeCast_self,
    broadcastTo_1b_ab_apply]
  rfl

/-- The second hidden layer. -/
theorem pay6_apply (j : Fin 8) :
    k0_pay6 (F := Ideal) x0 x1 x2 x3 x4 (ix2 p j)
      = Cert.Spec.h2 (netBlk x1 x2 x3 x4 x5 x6) (x0 (ix2 p (0 : Fin 5))) (x0 (ix2 p (1 : Fin 5))) j := by
  unfold k0_pay6
  simp only [tanh_at, addf_apply, mmB_apply, pay5_apply x0 x1 x2 x3 x4 x5 x6, shapeCast_self, broadcastTo_1b_ab_apply]
  rfl

/-- The network's output. -/
theorem pay7_apply (j : Fin 2) :
    k0_pay7 (F := Ideal) x0 x1 x2 x3 x4 x5 x6 (ix2 p j)
      = Cert.Spec.psi (netBlk x1 x2 x3 x4 x5 x6) (x0 (ix2 p (0 : Fin 5))) (x0 (ix2 p (1 : Fin 5))) j := by
  unfold k0_pay7
  simp only [addf_apply, mmC_apply, pay6_apply x0 x1 x2 x3 x4 x5 x6, shapeCast_self, broadcastTo_1b_ab_apply]
  rfl

/-- The first layer's derivative factor `1 - h·h`. -/
theorem pay8_apply (j : Fin 12) :
    k0_pay8 (F := Ideal) x0 x1 x2 (ix2 p j)
      = Cert.Spec.c1 - Cert.Spec.h1 (netBlk x1 x2 x3 x4 x5 x6) (x0 (ix2 p (0 : Fin 5))) (x0 (ix2 p (1 : Fin 5))) j
          * Cert.Spec.h1 (netBlk x1 x2 x3 x4 x5 x6) (x0 (ix2 p (0 : Fin 5))) (x0 (ix2 p (1 : Fin 5))) j := by
  unfold k0_pay8
  simp only [subf_apply, mulf_apply, broadcast_apply, pay5_apply x0 x1 x2 x3 x4 x5 x6]
  rfl

/-- The second layer's derivative factor. -/
theorem pay9_apply (j : Fin 8) :
    k0_pay9 (F := Ideal) x0 x1 x2 x3 x4 (ix2 p j)
      = Cert.Spec.c1 - Cert.Spec.h2 (netBlk x1 x2 x3 x4 x5 x6) (x0 (ix2 p (0 : Fin 5))) (x0 (ix2 p (1 : Fin 5))) j
          * Cert.Spec.h2 (netBlk x1 x2 x3 x4 x5 x6) (x0 (ix2 p (0 : Fin 5))) (x0 (ix2 p (1 : Fin 5))) j := by
  unfold k0_pay9
  simp only [subf_apply, mulf_apply, broadcast_apply, pay6_apply x0 x1 x2 x3 x4 x5 x6]
  rfl

/-- One over the norm. -/
theorem pay10_apply :
    k0_pay10 (F := Ideal) x0 (ix2 p (0 : Fin 1))
      = Ideal.div Cert.Spec.c1 (Cert.Spec.nrm (x0 (ix2 p (0 : Fin 5))) (x0 (ix2 p (1 : Fin 5)))) := by
  unfold k0_pay10
  simp only [divf_apply, broadcast_apply, pay4_apply]
  rfl

/-- The zero column. -/
theorem pay11_apply : k0_pay11 (F := Ideal) (ix2 p (0 : Fin 1)) = 0 := by
  unfold k0_pay11
  exact Ideal.ofBits_zero_f32

end Row

/-! ## A tangent pushed through the three layers, over any blocks -/

section Push
variable (v0 : Vec Ideal S65536x5 .f32) (v1 v2 : FVec Ideal S65536x1 .f32) (v8 : Vec Ideal S3x12 .f32)
  (v11 : Vec Ideal S12x8 .f32) (v14 : Vec Ideal S8x2 .f32) (v27 : FVec Ideal S65536x2 .f32)
  (v30 : FVec Ideal S65536x12 .f32) (v33 : FVec Ideal S65536x8 .f32) (v35 v36 : FVec Ideal S65536x1 .f32)
  (c : Ideal .f32) (p : Fin 65536)

/-- The tangent `[c, v36, v1·v35]` pushed through: three nested sums, each layer's derivative factor applied to the
    sum before it. -/
theorem pay13_apply (j : Fin 2) :
    k0_pay13 v1 v8 v11 v14 v30 v33 v35 v36 c (ix2 p j)
      = ∑ k8 : Fin 8, ((∑ k12 : Fin 12, ((∑ k3 : Fin 3,
          (![c, v36 (ix2 p (0 : Fin 1)), v1 (ix2 p (0 : Fin 1)) * v35 (ix2 p (0 : Fin 1))] : Fin 3 → EReal) k3
            * v8 (ix2 k3 k12)) * v30 (ix2 p k12)) * v11 (ix2 k12 k8)) * v33 (ix2 p k8)) * v14 (ix2 k8 j) := by
  unfold k0_pay13 k0_pay12
  simp only [mmC_apply, mmB_apply, mmA_apply, mulf_apply, cat3_apply, broadcast_apply]

/-- The tangent `[v36, c, v2·v35]` pushed through. -/
theorem pay14_apply (j : Fin 2) :
    k0_pay14 v2 v8 v11 v14 v30 v33 v35 v36 c (ix2 p j)
      = ∑ k8 : Fin 8, ((∑ k12 : Fin 12, ((∑ k3 : Fin 3,
          (![v36 (ix2 p (0 : Fin 1)), c, v2 (ix2 p (0 : Fin 1)) * v35 (ix2 p (0 : Fin 1))] : Fin 3 → EReal) k3
            * v8 (ix2 k3 k12)) * v30 (ix2 p k12)) * v11 (ix2 k12 k8)) * v33 (ix2 p k8)) * v14 (ix2 k8 j) := by
  unfold k0_pay14 k0_pay12
  simp only [mmC_apply, mmB_apply, mmA_apply, mulf_apply, cat3_apply, broadcast_apply]

/-- The two columns of each pushed tangent. -/
theorem pay15_apply :
    k0_pay15 v1 v8 v11 v14 v30 v33 v35 v36 c (ix2 p (0 : Fin 1))
      = k0_pay13 v1 v8 v11 v14 v30 v33 v35 v36 c (ix2 p (0 : Fin 2)) := by
  unfold k0_pay15
  exact col2_0 _ _ p
theorem pay16_apply :
    k0_pay16 v1 v8 v11 v14 v30 v33 v35 v36 c (ix2 p (0 : Fin 1))
      = k0_pay13 v1 v8 v11 v14 v30 v33 v35 v36 c (ix2 p (1 : Fin 2)) := by
  unfold k0_pay16
  exact col2_1 _ _ p
theorem pay17_apply :
    k0_pay17 v2 v8 v11 v14 v30 v33 v35 v36 c (ix2 p (0 : Fin 1))
      = k0_pay14 v2 v8 v11 v14 v30 v33 v35 v36 c (ix2 p (0 : Fin 2)) := by
  unfold k0_pay17
  exact col2_0 _ _ p
theorem pay18_apply :
    k0_pay18 v2 v8 v11 v14 v30 v33 v35 v36 c (ix2 p (0 : Fin 1))
      = k0_pay14 v2 v8 v11 v14 v30 v33 v35 v36 c (ix2 p (1 : Fin 2)) := by
  unfold k0_pay18
  exact col2_1 _ _ p

/-- One over the determinant of the two pushed tangents' columns. -/
theorem pay19_apply :
    k0_pay19 v1 v2 v8 v11 v14 v30 v33 v35 v36 c (ix2 p (0 : Fin 1))
      = Ideal.div Cert.Spec.c1
          (k0_pay13 v1 v8 v11 v14 v30 v33 v35 v36 c (ix2 p (0 : Fin 2))
              * k0_pay14 v2 v8 v11 v14 v30 v33 v35 v36 c (ix2 p (1 : Fin 2))
            - k0_pay14 v2 v8 v11 v14 v30 v33 v35 v36 c (ix2 p (0 : Fin 2))
              * k0_pay13 v1 v8 v11 v14 v30 v33 v35 v36 c (ix2 p (1 : Fin 2))) := by
  unfold k0_pay19
  simp only [divf_apply, subf_apply, mulf_apply, broadcast_apply, pay15_apply, pay16_apply, pay17_apply, pay18_apply]
  rfl

/-- The resistance term shared by the two rows of the right-hand side. -/
theorem pay20_apply :
    k0_pay20 (F := Ideal) v0 (ix2 p (0 : Fin 1))
      = Cert.Spec.cR * (v0 (ix2 p (0 : Fin 5)) + v0 (ix2 p (1 : Fin 5))) := by
  unfold k0_pay20
  simp only [mulf_apply, addf_apply, broadcast_apply, col5_0, col5_1]
  rfl

/-- The right-hand side's first row, over any two-column block `v27` in place of the network's output. -/
theorem pay21_apply :
    k0_pay21 (F := Ideal) v0 v27 (ix2 p (0 : Fin 1))
      = Cert.Spec.cR * (v0 (ix2 p (0 : Fin 5)) + v0 (ix2 p (1 : Fin 5))) + v27 (ix2 p (1 : Fin 2)) * Cert.Spec.cW := by
  unfold k0_pay21
  simp only [mulf_apply, addf_apply, broadcast_apply, col2_1, pay20_apply]
  rfl

/-- The right-hand side's second row. -/
theorem pay22_apply :
    k0_pay22 (F := Ideal) v0 v27 (ix2 p (0 : Fin 1))
      = (Cert.Spec.cR * (v0 (ix2 p (0 : Fin 5)) + v0 (ix2 p (1 : Fin 5))) + Cert.Spec.cS * v0 (ix2 p (2 : Fin 5)))
          + (0 - v27 (ix2 p (0 : Fin 2))) * Cert.Spec.cW := by
  unfold k0_pay22
  simp only [mulf_apply, addf_apply, subf_apply, broadcast_apply, col2_0, col5_2, pay20_apply, zero_word]
  rfl

/-- The first result before the time step: the adjugate's first row against the right-hand side, times one over the
    determinant. -/
theorem pay23_apply :
    k0_pay23 v0 v1 v2 v8 v11 v14 v27 v30 v33 v35 v36 c (ix2 p (0 : Fin 1))
      = (k0_pay14 v2 v8 v11 v14 v30 v33 v35 v36 c (ix2 p (1 : Fin 2)) * k0_pay21 v0 v27 (ix2 p (0 : Fin 1))
          - k0_pay14 v2 v8 v11 v14 v30 v33 v35 v36 c (ix2 p (0 : Fin 2)) * k0_pay22 v0 v27 (ix2 p (0 : Fin 1)))
        * k0_pay19 v1 v2 v8 v11 v14 v30 v33 v35 v36 c (ix2 p (0 : Fin 1)) := by
  unfold k0_pay23
  simp only [mulf_apply, subf_apply, pay17_apply, pay18_apply]

end Push

/-! ## The stored block over any columns -/

section Store
variable (v0 : Vec Ideal S65536x5 .f32) (v52 v53 v60 v70 v79 v83 : FVec Ideal S65536x1 .f32) (c : Ideal .f32) (p : Fin 65536)

/-- Column `0` of what is stored. -/
theorem pay1_apply_0 :
    k0_pay1 v0 v52 v53 v60 v70 v79 v83 c (ix2 p (0 : Fin 2))
      = v83 (ix2 p (0 : Fin 1)) * Cert.Spec.cT + v0 (ix2 p (0 : Fin 5)) := by
  unfold k0_pay1
  simp only [addf_apply, mulf_apply, subf_apply, broadcast_apply, cat2_apply, col5w_0]
  rfl

/-- Column `1` of what is stored. -/
theorem pay1_apply_1 :
    k0_pay1 v0 v52 v53 v60 v70 v79 v83 c (ix2 p (1 : Fin 2))
      = (((c - v53 (ix2 p (0 : Fin 1))) * v70 (ix2 p (0 : Fin 1)) + v52 (ix2 p (0 : Fin 1)) * v79 (ix2 p (0 : Fin 1)))
          * v60 (ix2 p (0 : Fin 1))) * Cert.Spec.cT + v0 (ix2 p (1 : Fin 5)) := by
  unfold k0_pay1
  simp only [addf_apply, mulf_apply, subf_apply, broadcast_apply, cat2_apply, col5w_1]
  rfl

end Store

/-! ## The stored block on the loaded blocks -/

section Assemble
variable (x0 : Vec Ideal S65536x5 .f32) (x1 : Vec Ideal S3x12 .f32) (x2 : Vec Ideal S1x12 .f32)
  (x3 : Vec Ideal S12x8 .f32) (x4 : Vec Ideal S1x8 .f32) (x5 : Vec Ideal S8x2 .f32) (x6 : Vec Ideal S1x2 .f32)
  (p : Fin 65536)

/-- The first coordinate's tangent pushed to the output: a column of the Jacobian. -/
theorem push1_apply (j : Fin 2) :
    k0_pay13 (k0_pay2 x0) x1 x3 x5 (k0_pay8 x0 x1 x2) (k0_pay9 x0 x1 x2 x3 x4) (k0_pay10 x0) (k0_pay11 (F := Ideal))
        (Scalar.ofBits .f32 0x3F800000#32) (ix2 p j)
      = Cert.Spec.dK (netBlk x1 x2 x3 x4 x5 x6) (x0 (ix2 p (0 : Fin 5))) (x0 (ix2 p (1 : Fin 5)))
          (Cert.Spec.t1K (x0 (ix2 p (0 : Fin 5))) (x0 (ix2 p (1 : Fin 5)))) j := by
  rw [pay13_apply]
  simp only [pay2_apply, pay8_apply x0 x1 x2 x3 x4 x5 x6, pay9_apply x0 x1 x2 x3 x4 x5 x6, pay10_apply, pay11_apply]
  rfl

/-- The second coordinate's tangent pushed to the output: the other column. -/
theorem push2_apply (j : Fin 2) :
    k0_pay14 (k0_pay3 x0) x1 x3 x5 (k0_pay8 x0 x1 x2) (k0_pay9 x0 x1 x2 x3 x4) (k0_pay10 x0) (k0_pay11 (F := Ideal))
        (Scalar.ofBits .f32 0x3F800000#32) (ix2 p j)
      = Cert.Spec.dK (netBlk x1 x2 x3 x4 x5 x6) (x0 (ix2 p (0 : Fin 5))) (x0 (ix2 p (1 : Fin 5)))
          (Cert.Spec.t2K (x0 (ix2 p (0 : Fin 5))) (x0 (ix2 p (1 : Fin 5)))) j := by
  rw [pay14_apply]
  simp only [pay3_apply, pay8_apply x0 x1 x2 x3 x4 x5 x6, pay9_apply x0 x1 x2 x3 x4 x5 x6, pay10_apply, pay11_apply]
  rfl

end Assemble

/-- Both offsets of a whole-block access are zero. -/
theorem off_zero : (![0, 0] : Fin 2 → Nat) = fun _ => 0 :=
  funext fun a => by match a with | ⟨0, _⟩ => rfl | ⟨1, _⟩ => rfl

/-- The stored block at `(p, q)`. -/
theorem out0_7_apply (x0 : Vec Ideal S65536x5 .f32) (x1 : Vec Ideal S3x12 .f32) (x2 : Vec Ideal S1x12 .f32)
    (x3 : Vec Ideal S12x8 .f32) (x4 : Vec Ideal S1x8 .f32) (x5 : Vec Ideal S8x2 .f32) (x6 : Vec Ideal S1x2 .f32)
    (p : Fin 65536) (q : Fin 2) :
    out0_7 (F := Ideal) x0 x1 x2 x3 x4 x5 x6 (ix2 p q)
      = Cert.Spec.outK (netBlk x1 x2 x3 x4 x5 x6) (x0 (ix2 p (0 : Fin 5))) (x0 (ix2 p (1 : Fin 5))) (x0 (ix2 p (2 : Fin 5))) q := by
  unfold out0_7
  rw [View.canon_unit_zero off_zero]
  simp only [View.ld_unit_zero (S := S65536x5) off_zero, View.ld_unit_zero (S := S3x12) off_zero,
    View.ld_unit_zero (S := S1x12) off_zero, View.ld_unit_zero (S := S12x8) off_zero,
    View.ld_unit_zero (S := S1x8) off_zero, View.ld_unit_zero (S := S8x2) off_zero,
    View.ld_unit_zero (S := S1x2) off_zero]
  match q with
  | ⟨0, _⟩ =>
    refine (pay1_apply_0 _ _ _ _ _ _ _ _ p).trans ?_
    rw [pay23_apply, pay19_apply, pay21_apply, pay22_apply]
    simp only [push1_apply x0 x1 x2 x3 x4 x5 x6, push2_apply x0 x1 x2 x3 x4 x5 x6, pay7_apply x0 x1 x2 x3 x4 x5 x6]
    rfl
  | ⟨1, _⟩ =>
    refine (pay1_apply_1 _ _ _ _ _ _ _ _ p).trans ?_
    rw [pay15_apply, pay16_apply, pay19_apply, pay21_apply, pay22_apply]
    simp only [push1_apply x0 x1 x2 x3 x4 x5 x6, push2_apply x0 x1 x2 x3 x4 x5 x6, pay7_apply x0 x1 x2 x3 x4 x5 x6,
      zero_word]
    rfl

end Cert.KernelIdeal.Payload

end
-- ==== Proof.KernelValue.lean ====
import proofs.«114032_j50405736186087_1_alg».proof.Proof.Gen.KernelIdeal.Value
import proofs.«114032_j50405736186087_1_alg».proof.Proof.KernelPayload

/-!
# The idealized kernel's result array, entry by entry

Grid point `t` stores rows `65536·t … 65536·t + 65535`; the 64 blocks tile the array, and every entry is the first
arrangement of its row's arithmetic on the argument arrays.
-/

noncomputable section

namespace Cert.KernelIdeal.RowValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the argument arrays. -/
abbrev G (c : Dev nD) : S4194304x2.Idx → EReal :=
  Cert.Spec.GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Which block each grid point touches -/

/-- At grid point `t` the input rows and the result rows are block `(t, 0)`; each of the six parameter arrays is its
    one block `(0, 0)`. -/
theorem block_index : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The three biases as `1 × n` rows

Each bias vector `[n]` is re-laid as a `1 × n` row before the grid runs; entry `(0, j)` of the row is entry `j` of the
vector. -/

theorem bias1_row_apply (c : Dev nD) (j : Fin 12) :
    (V m c main_v0 : S1x12.Idx → EReal) (ix2 (0 : Fin 1) j)
      = (m ((c : Thread nD τ).loc main_arg2) : S12.Idx → EReal) (ix1 j) := by
  have e : (V m c main_v0 : S1x12.Idx → EReal)
      = shapeCast S1x12 (m ((c : Thread nD τ).loc main_arg2) : S12.Idx → EReal) shapeCasts_S12_S1x12 := by
    dsimp only [Gen.V, Gen.hostOps0]; after_results; rfl
  rw [e]; exact shapeCast_a_1a_apply _ _ 0 j

theorem bias2_row_apply (c : Dev nD) (j : Fin 8) :
    (V m c main_v1 : S1x8.Idx → EReal) (ix2 (0 : Fin 1) j)
      = (m ((c : Thread nD τ).loc main_arg4) : S8.Idx → EReal) (ix1 j) := by
  have e : (V m c main_v1 : S1x8.Idx → EReal)
      = shapeCast S1x8 (m ((c : Thread nD τ).loc main_arg4) : S8.Idx → EReal) shapeCasts_S8_S1x8 := by
    dsimp only [Gen.V, Gen.hostOps0]; after_results; rfl
  rw [e]; exact shapeCast_a_1a_apply _ _ 0 j

theorem bias3_row_apply (c : Dev nD) (j : Fin 2) :
    (V m c main_v2 : S1x2.Idx → EReal) (ix2 (0 : Fin 1) j)
      = (m ((c : Thread nD τ).loc main_arg6) : S2.Idx → EReal) (ix1 j) := by
  have e : (V m c main_v2 : S1x2.Idx → EReal)
      = shapeCast S1x2 (m ((c : Thread nD τ).loc main_arg6) : S2.Idx → EReal) shapeCasts_S2_S1x2 := by
    dsimp only [Gen.V, Gen.hostOps0]; after_results; rfl
  rw [e]; exact shapeCast_a_1a_apply _ _ 0 j

/-! ## The blocks a grid point reads, entry by entry -/

/-- Row `p` of the input block at point `t` is row `65536·t + p` of the input array. -/
theorem rows_apply (c : Dev nD) (t : Fin cfg0.N) (p : Fin 65536) (k : Fin 5) (r : Fin 4194304)
    (hr : r.val = t.val * 65536 + p.val) :
    (iblk m c 0 t : Vec Ideal S65536x5 .f32) (ix2 p k)
      = (m ((c : Thread nD τ).loc main_arg0) : S4194304x5.Idx → EReal) (ix2 r k) := by
  obtain ⟨e0, e1, -⟩ := block_index t
  unfold iblk
  rw [View.read_apply]
  show V m c main_arg0 _ = _
  rw [V_main_arg0]
  congr 1
  funext a
  apply Fin.ext
  match a with
  | ⟨0, _⟩ => show win0_0.index t (0 : Fin 2) * 65536 + 1 * p.val = r.val; omega
  | ⟨1, _⟩ => show win0_0.index t (1 : Fin 2) * 5 + 1 * k.val = k.val; omega

/-- The first layer's weights, whole at every point. -/
theorem W1_blk_apply (c : Dev nD) (t : Fin cfg0.N) (k : Fin 3) (j : Fin 12) :
    (iblk m c 1 t : Vec Ideal S3x12 .f32) (ix2 k j)
      = (m ((c : Thread nD τ).loc main_arg1) : S3x12.Idx → EReal) (ix2 k j) := by
  obtain ⟨-, -, -, -, e0, e1, -⟩ := block_index t
  unfold iblk
  rw [View.read_apply]
  show V m c main_arg1 _ = _
  rw [V_main_arg1]
  congr 1
  funext a
  apply Fin.ext
  match a with
  | ⟨0, _⟩ => show win0_1.index t (0 : Fin 2) * 3 + 1 * k.val = k.val; omega
  | ⟨1, _⟩ => show win0_1.index t (1 : Fin 2) * 12 + 1 * j.val = j.val; omega

/-- The first layer's bias row, whole at every point. -/
theorem b1_blk_apply (c : Dev nD) (t : Fin cfg0.N) (j : Fin 12) :
    (iblk m c 2 t : Vec Ideal S1x12 .f32) (ix2 (0 : Fin 1) j)
      = (m ((c : Thread nD τ).loc main_arg2) : S12.Idx → EReal) (ix1 j) := by
  obtain ⟨-, -, -, -, -, -, e0, e1, -⟩ := block_index t
  unfold iblk
  rw [View.read_apply]
  show V m c main_v0 _ = _
  refine Eq.trans ?_ (bias1_row_apply m c j)
  congr 1
  funext a
  apply Fin.ext
  match a with
  | ⟨0, _⟩ => show win0_2.index t (0 : Fin 2) * 1 + 1 * 0 = 0; omega
  | ⟨1, _⟩ => show win0_2.index t (1 : Fin 2) * 12 + 1 * j.val = j.val; omega

/-- The second layer's weights, whole at every point. -/
theorem W2_blk_apply (c : Dev nD) (t : Fin cfg0.N) (k : Fin 12) (j : Fin 8) :
    (iblk m c 3 t : Vec Ideal S12x8 .f32) (ix2 k j)
      = (m ((c : Thread nD τ).loc main_arg3) : S12x8.Idx → EReal) (ix2 k j) := by
  obtain ⟨-, -, -, -, -, -, -, -, e0, e1, -⟩ := block_index t
  unfold iblk
  rw [View.read_apply]
  show V m c main_arg3 _ = _
  rw [V_main_arg3]
  congr 1
  funext a
  apply Fin.ext
  match a with
  | ⟨0, _⟩ => show win0_3.index t (0 : Fin 2) * 12 + 1 * k.val = k.val; omega
  | ⟨1, _⟩ => show win0_3.index t (1 : Fin 2) * 8 + 1 * j.val = j.val; omega

/-- The second layer's bias row, whole at every point. -/
theorem b2_blk_apply (c : Dev nD) (t : Fin cfg0.N) (j : Fin 8) :
    (iblk m c 4 t : Vec Ideal S1x8 .f32) (ix2 (0 : Fin 1) j)
      = (m ((c : Thread nD τ).loc main_arg4) : S8.Idx → EReal) (ix1 j) := by
  obtain ⟨-, -, -, -, -, -, -, -, -, -, e0, e1, -⟩ := block_index t
  unfold iblk
  rw [View.read_apply]
  show V m c main_v1 _ = _
  refine Eq.trans ?_ (bias2_row_apply m c j)
  congr 1
  funext a
  apply Fin.ext
  match a with
  | ⟨0, _⟩ => show win0_4.index t (0 : Fin 2) * 1 + 1 * 0 = 0; omega
  | ⟨1, _⟩ => show win0_4.index t (1 : Fin 2) * 8 + 1 * j.val = j.val; omega

/-- The output layer's weights, whole at every point. -/
theorem W3_blk_apply (c : Dev nD) (t : Fin cfg0.N) (k : Fin 8) (j : Fin 2) :
    (iblk m c 5 t : Vec Ideal S8x2 .f32) (ix2 k j)
      = (m ((c : Thread nD τ).loc main_arg5) : S8x2.Idx → EReal) (ix2 k j) := by
  obtain ⟨-, -, -, -, -, -, -, -, -, -, -, -, e0, e1, -⟩ := block_index t
  unfold iblk
  rw [View.read_apply]
  show V m c main_arg5 _ = _
  rw [V_main_arg5]
  congr 1
  funext a
  apply Fin.ext
  match a with
  | ⟨0, _⟩ => show win0_5.index t (0 : Fin 2) * 8 + 1 * k.val = k.val; omega
  | ⟨1, _⟩ => show win0_5.index t (1 : Fin 2) * 2 + 1 * j.val = j.val; omega

/-- The output layer's bias row, whole at every point. -/
theorem b3_blk_apply (c : Dev nD) (t : Fin cfg0.N) (j : Fin 2) :
    (iblk m c 6 t : Vec Ideal S1x2 .f32) (ix2 (0 : Fin 1) j)
      = (m ((c : Thread nD τ).loc main_arg6) : S2.Idx → EReal) (ix1 j) := by
  obtain ⟨-, -, -, -, -, -, -, -, -, -, -, -, -, -, e0, e1⟩ := block_index t
  unfold iblk
  rw [View.read_apply]
  show V m c main_v2 _ = _
  refine Eq.trans ?_ (bias3_row_apply m c j)
  congr 1
  funext a
  apply Fin.ext
  match a with
  | ⟨0, _⟩ => show win0_6.index t (0 : Fin 2) * 1 + 1 * 0 = 0; omega
  | ⟨1, _⟩ => show win0_6.index t (1 : Fin 2) * 2 + 1 * j.val = j.val; omega

/-- So at every point the network the body sees is the network of the argument arrays. -/
theorem net_blk_eq (c : Dev nD) (t : Fin cfg0.N) :
    Payload.netBlk (iblk m c 1 t) (iblk m c 2 t) (iblk m c 3 t) (iblk m c 4 t) (iblk m c 5 t) (iblk m c 6 t)
      = Cert.Spec.netOf (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  unfold Payload.netBlk Cert.Spec.netOf
  congr 1
  · funext k j; exact W1_blk_apply m c t k j
  · funext j; exact b1_blk_apply m c t j
  · funext k j; exact W2_blk_apply m c t k j
  · funext j; exact b2_blk_apply m c t j
  · funext k j; exact W3_blk_apply m c t k j
  · funext j; exact b3_blk_apply m c t j

/-! ## What a grid point stores is its block of `G` -/

/-- Entry `(p, q)` of what point `t` stores is entry `(65536·t + p, q)` of `G`. -/
theorem stored_entry (c : Dev nD) (t : Fin cfg0.N) (p : Fin 65536) (q : Fin 2) (r : Fin 4194304)
    (hr : r.val = t.val * 65536 + p.val) :
    out0_7 (F := Ideal) (iblk m c 0 t) (iblk m c 1 t) (iblk m c 2 t) (iblk m c 3 t) (iblk m c 4 t) (iblk m c 5 t)
        (iblk m c 6 t) (ix2 p q)
      = G m c (ix2 r q) := by
  rw [Payload.out0_7_apply, net_blk_eq, rows_apply m c t p 0 r hr, rows_apply m c t p 1 r hr, rows_apply m c t p 2 r hr]
  rfl

/-- The rows of the result array that point `t`'s block holds. -/
theorem mem_rows (t : Fin cfg0.N) (i : S4194304x2.Idx) :
    i ∈ ((cfg0.win 7).blk t).view.set
      ↔ ∀ a : Fin 2, win0_7.index t a * S65536x2.size a ≤ (i a).val
          ∧ (i a).val < win0_7.index t a * S65536x2.size a + S65536x2.size a := by
  show i ∈ ((View.whole main_v3).slice (win0_7.rect t)).set ↔ _
  rw [View.set_slice_whole, Rect.mem_set_unit]
  exact Iff.rfl

/-- Point `t` writes back block `t` of `G`. -/
theorem flushed_eq (c : Dev nD) (t : Fin cfg0.N) :
    (dats (F := Ideal) m 0 c).flushed 7 t = ((cfg0.win 7).blk t).view.read (Elt Ideal) (G m c) := by
  rw [Value.flushed7]
  funext y
  obtain ⟨-, -, e0, e1, -⟩ := block_index t
  have hy0 : (y 0).val < 65536 := (y 0).isLt
  have hy1 : (y 1).val < 2 := (y 1).isLt
  have ht : t.val < 64 := by have h1 := t.isLt; have hN : cfg0.N = 64 := N_0; omega
  have key := stored_entry m c t ⟨(y 0).val, hy0⟩ ⟨(y 1).val, hy1⟩ ⟨t.val * 65536 + (y 0).val, by omega⟩ rfl
  have hy : (y : S65536x2.Idx) = ix2 (⟨(y 0).val, hy0⟩ : Fin 65536) (⟨(y 1).val, hy1⟩ : Fin 2) := by
    funext a
    match a with
    | ⟨0, _⟩ => rfl
    | ⟨1, _⟩ => rfl
  have lhs : (cfg0.win 7).cut (grid0.coords t) (out0_7 (F := Ideal) (iblk m c 0 t) (iblk m c 1 t) (iblk m c 2 t)
        (iblk m c 3 t) (iblk m c 4 t) (iblk m c 5 t) (iblk m c 6 t)) y
      = out0_7 (F := Ideal) (iblk m c 0 t) (iblk m c 1 t) (iblk m c 2 t) (iblk m c 3 t) (iblk m c 4 t) (iblk m c 5 t)
        (iblk m c 6 t) (y : S65536x2.Idx) := rfl
  refine (lhs.trans ((congrArg _ hy).trans key)).trans ?_
  rw [View.read_apply]
  show G m c _ = G m c (((cfg0.win 7).blk t).view.emb y)
  refine congrArg (G m c) ?_
  funext a
  apply Fin.ext
  match a with
  | ⟨0, _⟩ => show t.val * 65536 + (y 0).val = win0_7.index t (0 : Fin 2) * 65536 + 1 * (y 0).val; omega
  | ⟨1, _⟩ => show (y 1).val = win0_7.index t (1 : Fin 2) * 2 + 1 * (y 1).val; omega

/-- Row `r` of the result array lies in the block of point `r / 65536`: the 64 blocks cover the array. -/
theorem rows_cover (i : S4194304x2.Idx) :
    ∃ t : Fin cfg0.N, (cfg0.win 7).flush t = true ∧ i ∈ ((cfg0.win 7).blk t).view.set := by
  have hi0 : (i 0).val < 4194304 := (i 0).isLt
  have hi1 : (i 1).val < 2 := (i 1).isLt
  have hN : cfg0.N = 64 := N_0
  have hq : (i 0).val / 65536 < cfg0.N := by rw [hN]; omega
  refine ⟨⟨(i 0).val / 65536, hq⟩, flush0_7 _, ?_⟩
  rw [mem_rows]
  obtain ⟨-, -, e0, e1, -⟩ := block_index ⟨(i 0).val / 65536, hq⟩
  intro a
  match a with
  | ⟨0, _⟩ =>
    show win0_7.index ⟨(i 0).val / 65536, hq⟩ (0 : Fin 2) * 65536 ≤ (i 0).val
      ∧ (i 0).val < win0_7.index ⟨(i 0).val / 65536, hq⟩ (0 : Fin 2) * 65536 + 65536
    rw [e0]; show (i 0).val / 65536 * 65536 ≤ (i 0).val ∧ (i 0).val < (i 0).val / 65536 * 65536 + 65536
    omega
  | ⟨1, _⟩ =>
    show win0_7.index ⟨(i 0).val / 65536, hq⟩ (1 : Fin 2) * 2 ≤ (i 1).val
      ∧ (i 1).val < win0_7.index ⟨(i 0).val / 65536, hq⟩ (1 : Fin 2) * 2 + 2
    rw [e1]; omega

/-- After the last grid point the output array is `G`. -/
theorem final7 (c : Dev nD) : (dats (F := Ideal) m 0 c).arrAt 7 cfg0.N = G m c :=
  (dats (F := Ideal) m 0 c).arrAt_eq_of_cover 7 (G m c) (fun t _ => flushed_eq m c t) rows_cover

/-- The run, with the result array named. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Cert.KernelIdeal.Value.run_blocks m ρ)

end Cert.KernelIdeal.RowValue

end
-- ==== Proof.RefRun.lean ====
import proofs.«114032_j50405736186087_1_alg».proof.ReferenceIdeal
import proofs.«114032_j50405736186087_1_alg».proof.Proof.Gen.ReferenceIdeal
import Idealize.ShloMosaic.Lib.StableHlo.Run

/-!
# The reference's run

The reference is a straight line of whole-array operations (the norm's function written out at its two calls).
Every weakly fair execution runs them in order and ends with each buffer at the operations' fold over the
launch contents.
-/

noncomputable section

namespace Cert.ReferenceIdeal.RefRun

open Cert.ReferenceIdeal Idealize.ShloMosaic Idealize.ShloMosaic.TcCoe Idealize.ShloMosaic.StableHlo Idealize.SL.Sem

variable {F : FTy → Type} [FloatOps F]
variable [Facts]
open Facts₀ Facts

/-- @main's operations in order, the norm's fifteen written out over each call's own buffers. -/
abbrev ops : List (HloOp τ sig (Elt F)) :=
  [ StableHlo.nullary main_cst (fun i => FloatOps.ofBits .f32 (lit0 (S2.rowMajor i))),
    StableHlo.nullary main_cst_0 (fun i => FloatOps.ofBits .f32 (lit1 (S2.rowMajor i))),
    StableHlo.nullary main_cst_1 (fun i => FloatOps.ofBits .f32 (lit2 (S2x1.rowMajor i))),
    StableHlo.unary main_cst_1 main_v0 (broadcastInDim S1x2x1 ![1, 2] bcast_S2x1_S1x2x1_1_2 : (⟨S2x1, .f32⟩ : BufTy).Contents (Elt F) → (⟨S1x2x1, .f32⟩ : BufTy).Contents (Elt F)),
    StableHlo.unary main_arg0 main_v1 ((extractStridedSlice S4194304x2 ![0, 0] · slices_S4194304x5_S4194304x2_0_0) : (⟨S4194304x5, .f32⟩ : BufTy).Contents (Elt F) → (⟨S4194304x2, .f32⟩ : BufTy).Contents (Elt F)),
    StableHlo.unary main_cst main_v2 (broadcastInDim S4194304x2 ![1] bcast_S2_S4194304x2_1 : (⟨S2, .f32⟩ : BufTy).Contents (Elt F) → (⟨S4194304x2, .f32⟩ : BufTy).Contents (Elt F)),
    StableHlo.unary main_cst_0 main_v3 (broadcastInDim S4194304x2 ![1] bcast_S2_S4194304x2_1 : (⟨S2, .f32⟩ : BufTy).Contents (Elt F) → (⟨S4194304x2, .f32⟩ : BufTy).Contents (Elt F)),
    StableHlo.TRef.binary (.of main_v1 : StableHlo.TRef sig ⟨S4194304x2, .f32⟩) (.of main_v1 : StableHlo.TRef sig ⟨S4194304x2, .f32⟩) main_call0.v0 mulf,
    StableHlo.TRef.binary (.of main_v2 : StableHlo.TRef sig ⟨S4194304x2, .f32⟩) (.of main_v1 : StableHlo.TRef sig ⟨S4194304x2, .f32⟩) main_call0.v1 mulf,
    StableHlo.TRef.binary (.of main_v1 : StableHlo.TRef sig ⟨S4194304x2, .f32⟩) (.of main_v2 : StableHlo.TRef sig ⟨S4194304x2, .f32⟩) main_call0.v2 mulf,
    StableHlo.TRef.binary main_call0.v1 main_call0.v2 main_call0.v3 addf,
    StableHlo.TRef.nullary main_call0.cst (constant S_ .f32 0x00000000#32),
    StableHlo.TRef.binary main_call0.v0 main_call0.cst main_call0.v4 (fun x v => Host.reduceAdd x v reducesTo_S4194304x2_S4194304_d1 h_S_),
    StableHlo.TRef.nullary main_call0.cst_0 (constant S_ .f32 0x00000000#32),
    StableHlo.TRef.binary main_call0.v3 main_call0.cst_0 main_call0.v5 (fun x v => Host.reduceAdd x v reducesTo_S4194304x2_S4194304_d1 h_S_),
    StableHlo.TRef.unary main_call0.v4 main_call0.v6 (broadcastInDim S4194304x1 ![0] bcast_S4194304_S4194304x1_0),
    StableHlo.TRef.unary main_call0.v5 main_call0.v7 (broadcastInDim S4194304x1 ![0] bcast_S4194304_S4194304x1_0),
    StableHlo.TRef.unary main_call0.v6 main_call0.v8 Host.sqrt,
    StableHlo.TRef.nullary main_call0.cst_1 (constant S_ .f32 0x3F000000#32),
    StableHlo.TRef.unary main_call0.cst_1 main_call0.v9 (broadcastInDim S4194304x1 ![] bcast_S_S4194304x1),
    StableHlo.TRef.binary main_call0.v9 main_call0.v8 main_call0.v10 Host.divf,
    StableHlo.TRef.binary main_call0.v7 main_call0.v10 main_call0.v11 mulf,
    StableHlo.binary main_v1 main_v4_0 main_v5 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v2 main_v4_1 main_v6 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v5 main_arg1 main_v7 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.binary main_v6 main_arg1 main_v8 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.unary main_arg2 main_v9 (broadcastInDim S1x12 ![1] bcast_S12_S1x12_1 : (⟨S12, .f32⟩ : BufTy).Contents (Elt F) → (⟨S1x12, .f32⟩ : BufTy).Contents (Elt F)),
    StableHlo.unary main_v9 main_v10 (broadcastInDim S4194304x12 ![0, 1] bcast_S1x12_S4194304x12_0_1 : (⟨S1x12, .f32⟩ : BufTy).Contents (Elt F) → (⟨S4194304x12, .f32⟩ : BufTy).Contents (Elt F)),
    StableHlo.binary main_v7 main_v10 main_v11 (addf : (⟨S4194304x12, .f32⟩ : BufTy).Contents (Elt F) → (⟨S4194304x12, .f32⟩ : BufTy).Contents (Elt F) → (⟨S4194304x12, .f32⟩ : BufTy).Contents (Elt F)),
    StableHlo.unary main_v11 main_v12 (Host.tanh : (⟨S4194304x12, .f32⟩ : BufTy).Contents (Elt F) → (⟨S4194304x12, .f32⟩ : BufTy).Contents (Elt F)),
    StableHlo.binary main_v8 main_v12 main_v13 (mulf : (⟨S4194304x12, .f32⟩ : BufTy).Contents (Elt F) → (⟨S4194304x12, .f32⟩ : BufTy).Contents (Elt F) → (⟨S4194304x12, .f32⟩ : BufTy).Contents (Elt F)),
    StableHlo.binary main_v8 main_v13 main_v14 (addf : (⟨S4194304x12, .f32⟩ : BufTy).Contents (Elt F) → (⟨S4194304x12, .f32⟩ : BufTy).Contents (Elt F) → (⟨S4194304x12, .f32⟩ : BufTy).Contents (Elt F)),
    StableHlo.nullary main_cst_2 (constant S_ .f32 0x3F800000#32),
    StableHlo.unary main_cst_2 main_v15 (broadcastInDim S4194304x12 ![] bcast_S_S4194304x12 : (⟨S_, .f32⟩ : BufTy).Contents (Elt F) → (⟨S4194304x12, .f32⟩ : BufTy).Contents (Elt F)),
    StableHlo.binary main_v15 main_v12 main_v16 (subf : (⟨S4194304x12, .f32⟩ : BufTy).Contents (Elt F) → (⟨S4194304x12, .f32⟩ : BufTy).Contents (Elt F) → (⟨S4194304x12, .f32⟩ : BufTy).Contents (Elt F)),
    StableHlo.binary main_v14 main_v16 main_v17 (mulf : (⟨S4194304x12, .f32⟩ : BufTy).Contents (Elt F) → (⟨S4194304x12, .f32⟩ : BufTy).Contents (Elt F) → (⟨S4194304x12, .f32⟩ : BufTy).Contents (Elt F)),
    StableHlo.binary main_v12 main_arg3 main_v18 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.binary main_v17 main_arg3 main_v19 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.unary main_arg4 main_v20 (broadcastInDim S1x8 ![1] bcast_S8_S1x8_1 : (⟨S8, .f32⟩ : BufTy).Contents (Elt F) → (⟨S1x8, .f32⟩ : BufTy).Contents (Elt F)),
    StableHlo.unary main_v20 main_v21 (broadcastInDim S4194304x8 ![0, 1] bcast_S1x8_S4194304x8_0_1 : (⟨S1x8, .f32⟩ : BufTy).Contents (Elt F) → (⟨S4194304x8, .f32⟩ : BufTy).Contents (Elt F)),
    StableHlo.binary main_v18 main_v21 main_v22 (addf : (⟨S4194304x8, .f32⟩ : BufTy).Contents (Elt F) → (⟨S4194304x8, .f32⟩ : BufTy).Contents (Elt F) → (⟨S4194304x8, .f32⟩ : BufTy).Contents (Elt F)),
    StableHlo.unary main_v22 main_v23 (Host.tanh : (⟨S4194304x8, .f32⟩ : BufTy).Contents (Elt F) → (⟨S4194304x8, .f32⟩ : BufTy).Contents (Elt F)),
    StableHlo.binary main_v19 main_v23 main_v24 (mulf : (⟨S4194304x8, .f32⟩ : BufTy).Contents (Elt F) → (⟨S4194304x8, .f32⟩ : BufTy).Contents (Elt F) → (⟨S4194304x8, .f32⟩ : BufTy).Contents (Elt F)),
    StableHlo.binary main_v19 main_v24 main_v25 (addf : (⟨S4194304x8, .f32⟩ : BufTy).Contents (Elt F) → (⟨S4194304x8, .f32⟩ : BufTy).Contents (Elt F) → (⟨S4194304x8, .f32⟩ : BufTy).Contents (Elt F)),
    StableHlo.nullary main_cst_3 (constant S_ .f32 0x3F800000#32),
    StableHlo.unary main_cst_3 main_v26 (broadcastInDim S4194304x8 ![] bcast_S_S4194304x8 : (⟨S_, .f32⟩ : BufTy).Contents (Elt F) → (⟨S4194304x8, .f32⟩ : BufTy).Contents (Elt F)),
    StableHlo.binary main_v26 main_v23 main_v27 (subf : (⟨S4194304x8, .f32⟩ : BufTy).Contents (Elt F) → (⟨S4194304x8, .f32⟩ : BufTy).Contents (Elt F) → (⟨S4194304x8, .f32⟩ : BufTy).Contents (Elt F)),
    StableHlo.binary main_v25 main_v27 main_v28 (mulf : (⟨S4194304x8, .f32⟩ : BufTy).Contents (Elt F) → (⟨S4194304x8, .f32⟩ : BufTy).Contents (Elt F) → (⟨S4194304x8, .f32⟩ : BufTy).Contents (Elt F)),
    StableHlo.binary main_v23 main_arg5 main_v29 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.binary main_v28 main_arg5 main_v30 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.unary main_arg6 main_v31 (broadcastInDim S1x2 ![1] bcast_S2_S1x2_1 : (⟨S2, .f32⟩ : BufTy).Contents (Elt F) → (⟨S1x2, .f32⟩ : BufTy).Contents (Elt F)),
    StableHlo.unary main_v31 main_v32 (broadcastInDim S4194304x2 ![0, 1] bcast_S1x2_S4194304x2_0_1 : (⟨S1x2, .f32⟩ : BufTy).Contents (Elt F) → (⟨S4194304x2, .f32⟩ : BufTy).Contents (Elt F)),
    StableHlo.binary main_v29 main_v32 main_v33 (addf : (⟨S4194304x2, .f32⟩ : BufTy).Contents (Elt F) → (⟨S4194304x2, .f32⟩ : BufTy).Contents (Elt F) → (⟨S4194304x2, .f32⟩ : BufTy).Contents (Elt F)),
    StableHlo.TRef.binary (.of main_v1 : StableHlo.TRef sig ⟨S4194304x2, .f32⟩) (.of main_v1 : StableHlo.TRef sig ⟨S4194304x2, .f32⟩) main_call1.v0 mulf,
    StableHlo.TRef.binary (.of main_v3 : StableHlo.TRef sig ⟨S4194304x2, .f32⟩) (.of main_v1 : StableHlo.TRef sig ⟨S4194304x2, .f32⟩) main_call1.v1 mulf,
    StableHlo.TRef.binary (.of main_v1 : StableHlo.TRef sig ⟨S4194304x2, .f32⟩) (.of main_v3 : StableHlo.TRef sig ⟨S4194304x2, .f32⟩) main_call1.v2 mulf,
    StableHlo.TRef.binary main_call1.v1 main_call1.v2 main_call1.v3 addf,
    StableHlo.TRef.nullary main_call1.cst (constant S_ .f32 0x00000000#32),
    StableHlo.TRef.binary main_call1.v0 main_call1.cst main_call1.v4 (fun x v => Host.reduceAdd x v reducesTo_S4194304x2_S4194304_d1 h_S_),
    StableHlo.TRef.nullary main_call1.cst_0 (constant S_ .f32 0x00000000#32),
    StableHlo.TRef.binary main_call1.v3 main_call1.cst_0 main_call1.v5 (fun x v => Host.reduceAdd x v reducesTo_S4194304x2_S4194304_d1 h_S_),
    StableHlo.TRef.unary main_call1.v4 main_call1.v6 (broadcastInDim S4194304x1 ![0] bcast_S4194304_S4194304x1_0),
    StableHlo.TRef.unary main_call1.v5 main_call1.v7 (broadcastInDim S4194304x1 ![0] bcast_S4194304_S4194304x1_0),
    StableHlo.TRef.unary main_call1.v6 main_call1.v8 Host.sqrt,
    StableHlo.TRef.nullary main_call1.cst_1 (constant S_ .f32 0x3F000000#32),
    StableHlo.TRef.unary main_call1.cst_1 main_call1.v9 (broadcastInDim S4194304x1 ![] bcast_S_S4194304x1),
    StableHlo.TRef.binary main_call1.v9 main_call1.v8 main_call1.v10 Host.divf,
    StableHlo.TRef.binary main_call1.v7 main_call1.v10 main_call1.v11 mulf,
    StableHlo.binary main_v1 main_v34_0 main_v35 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v3 main_v34_1 main_v36 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v35 main_arg1 main_v37 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.binary main_v36 main_arg1 main_v38 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.unary main_arg2 main_v39 (broadcastInDim S1x12 ![1] bcast_S12_S1x12_1 : (⟨S12, .f32⟩ : BufTy).Contents (Elt F) → (⟨S1x12, .f32⟩ : BufTy).Contents (Elt F)),
    StableHlo.unary main_v39 main_v40 (broadcastInDim S4194304x12 ![0, 1] bcast_S1x12_S4194304x12_0_1 : (⟨S1x12, .f32⟩ : BufTy).Contents (Elt F) → (⟨S4194304x12, .f32⟩ : BufTy).Contents (Elt F)),
    StableHlo.binary main_v37 main_v40 main_v41 (addf : (⟨S4194304x12, .f32⟩ : BufTy).Contents (Elt F) → (⟨S4194304x12, .f32⟩ : BufTy).Contents (Elt F) → (⟨S4194304x12, .f32⟩ : BufTy).Contents (Elt F)),
    StableHlo.unary main_v41 main_v42 (Host.tanh : (⟨S4194304x12, .f32⟩ : BufTy).Contents (Elt F) → (⟨S4194304x12, .f32⟩ : BufTy).Contents (Elt F)),
    StableHlo.binary main_v38 main_v42 main_v43 (mulf : (⟨S4194304x12, .f32⟩ : BufTy).Contents (Elt F) → (⟨S4194304x12, .f32⟩ : BufTy).Contents (Elt F) → (⟨S4194304x12, .f32⟩ : BufTy).Contents (Elt F)),
    StableHlo.binary main_v38 main_v43 main_v44 (addf : (⟨S4194304x12, .f32⟩ : BufTy).Contents (Elt F) → (⟨S4194304x12, .f32⟩ : BufTy).Contents (Elt F) → (⟨S4194304x12, .f32⟩ : BufTy).Contents (Elt F)),
    StableHlo.nullary main_cst_4 (constant S_ .f32 0x3F800000#32),
    StableHlo.unary main_cst_4 main_v45 (broadcastInDim S4194304x12 ![] bcast_S_S4194304x12 : (⟨S_, .f32⟩ : BufTy).Contents (Elt F) → (⟨S4194304x12, .f32⟩ : BufTy).Contents (Elt F)),
    StableHlo.binary main_v45 main_v42 main_v46 (subf : (⟨S4194304x12, .f32⟩ : BufTy).Contents (Elt F) → (⟨S4194304x12, .f32⟩ : BufTy).Contents (Elt F) → (⟨S4194304x12, .f32⟩ : BufTy).Contents (Elt F)),
    StableHlo.binary main_v44 main_v46 main_v47 (mulf : (⟨S4194304x12, .f32⟩ : BufTy).Contents (Elt F) → (⟨S4194304x12, .f32⟩ : BufTy).Contents (Elt F) → (⟨S4194304x12, .f32⟩ : BufTy).Contents (Elt F)),
    StableHlo.binary main_v42 main_arg3 main_v48 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.binary main_v47 main_arg3 main_v49 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.unary main_arg4 main_v50 (broadcastInDim S1x8 ![1] bcast_S8_S1x8_1 : (⟨S8, .f32⟩ : BufTy).Contents (Elt F) → (⟨S1x8, .f32⟩ : BufTy).Contents (Elt F)),
    StableHlo.unary main_v50 main_v51 (broadcastInDim S4194304x8 ![0, 1] bcast_S1x8_S4194304x8_0_1 : (⟨S1x8, .f32⟩ : BufTy).Contents (Elt F) → (⟨S4194304x8, .f32⟩ : BufTy).Contents (Elt F)),
    StableHlo.binary main_v48 main_v51 main_v52 (addf : (⟨S4194304x8, .f32⟩ : BufTy).Contents (Elt F) → (⟨S4194304x8, .f32⟩ : BufTy).Contents (Elt F) → (⟨S4194304x8, .f32⟩ : BufTy).Contents (Elt F)),
    StableHlo.unary main_v52 main_v53 (Host.tanh : (⟨S4194304x8, .f32⟩ : BufTy).Contents (Elt F) → (⟨S4194304x8, .f32⟩ : BufTy).Contents (Elt F)),
    StableHlo.binary main_v49 main_v53 main_v54 (mulf : (⟨S4194304x8, .f32⟩ : BufTy).Contents (Elt F) → (⟨S4194304x8, .f32⟩ : BufTy).Contents (Elt F) → (⟨S4194304x8, .f32⟩ : BufTy).Contents (Elt F)),
    StableHlo.binary main_v49 main_v54 main_v55 (addf : (⟨S4194304x8, .f32⟩ : BufTy).Contents (Elt F) → (⟨S4194304x8, .f32⟩ : BufTy).Contents (Elt F) → (⟨S4194304x8, .f32⟩ : BufTy).Contents (Elt F)),
    StableHlo.nullary main_cst_5 (constant S_ .f32 0x3F800000#32),
    StableHlo.unary main_cst_5 main_v56 (broadcastInDim S4194304x8 ![] bcast_S_S4194304x8 : (⟨S_, .f32⟩ : BufTy).Contents (Elt F) → (⟨S4194304x8, .f32⟩ : BufTy).Contents (Elt F)),
    StableHlo.binary main_v56 main_v53 main_v57 (subf : (⟨S4194304x8, .f32⟩ : BufTy).Contents (Elt F) → (⟨S4194304x8, .f32⟩ : BufTy).Contents (Elt F) → (⟨S4194304x8, .f32⟩ : BufTy).Contents (Elt F)),
    StableHlo.binary main_v55 main_v57 main_v58 (mulf : (⟨S4194304x8, .f32⟩ : BufTy).Contents (Elt F) → (⟨S4194304x8, .f32⟩ : BufTy).Contents (Elt F) → (⟨S4194304x8, .f32⟩ : BufTy).Contents (Elt F)),
    StableHlo.binary main_v53 main_arg5 main_v59 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.binary main_v58 main_arg5 main_v60 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.unary main_arg6 main_v61 (broadcastInDim S1x2 ![1] bcast_S2_S1x2_1 : (⟨S2, .f32⟩ : BufTy).Contents (Elt F) → (⟨S1x2, .f32⟩ : BufTy).Contents (Elt F)),
    StableHlo.unary main_v61 main_v62 (broadcastInDim S4194304x2 ![0, 1] bcast_S1x2_S4194304x2_0_1 : (⟨S1x2, .f32⟩ : BufTy).Contents (Elt F) → (⟨S4194304x2, .f32⟩ : BufTy).Contents (Elt F)),
    StableHlo.binary main_v59 main_v62 main_v63 (addf : (⟨S4194304x2, .f32⟩ : BufTy).Contents (Elt F) → (⟨S4194304x2, .f32⟩ : BufTy).Contents (Elt F) → (⟨S4194304x2, .f32⟩ : BufTy).Contents (Elt F)),
    StableHlo.unary main_v30 main_v64 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.unary main_v60 main_v65 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.binary main_v64 main_v65 main_v66 ((fun a b => concatenate S4194304x2x2 2 [⟨S4194304x2x1, a⟩, ⟨S4194304x2x1, b⟩] concatenates_S4194304x2x1_S4194304x2x1_S4194304x2x2_d2) : (⟨S4194304x2x1, .f32⟩ : BufTy).Contents (Elt F) → (⟨S4194304x2x1, .f32⟩ : BufTy).Contents (Elt F) → (⟨S4194304x2x2, .f32⟩ : BufTy).Contents (Elt F)),
    StableHlo.unary main_v66 main_v67 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    StableHlo.reshape main_v67 main_v68 rfl shapeCasts_S4194304x1x1_S4194304,
    StableHlo.unary main_v66 main_v69 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    StableHlo.reshape main_v69 main_v70 rfl shapeCasts_S4194304x1x1_S4194304,
    StableHlo.unary main_v66 main_v71 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    StableHlo.reshape main_v71 main_v72 rfl shapeCasts_S4194304x1x1_S4194304,
    StableHlo.unary main_v66 main_v73 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    StableHlo.reshape main_v73 main_v74 rfl shapeCasts_S4194304x1x1_S4194304,
    StableHlo.binary main_v68 main_v74 main_v75 (mulf : (⟨S4194304, .f32⟩ : BufTy).Contents (Elt F) → (⟨S4194304, .f32⟩ : BufTy).Contents (Elt F) → (⟨S4194304, .f32⟩ : BufTy).Contents (Elt F)),
    StableHlo.binary main_v70 main_v72 main_v76 (mulf : (⟨S4194304, .f32⟩ : BufTy).Contents (Elt F) → (⟨S4194304, .f32⟩ : BufTy).Contents (Elt F) → (⟨S4194304, .f32⟩ : BufTy).Contents (Elt F)),
    StableHlo.binary main_v75 main_v76 main_v77 (subf : (⟨S4194304, .f32⟩ : BufTy).Contents (Elt F) → (⟨S4194304, .f32⟩ : BufTy).Contents (Elt F) → (⟨S4194304, .f32⟩ : BufTy).Contents (Elt F)),
    StableHlo.unary main_v70 main_v78 (Host.negf : (⟨S4194304, .f32⟩ : BufTy).Contents (Elt F) → (⟨S4194304, .f32⟩ : BufTy).Contents (Elt F)),
    StableHlo.unary main_v74 main_v79 (broadcastInDim S4194304x1 ![0] bcast_S4194304_S4194304x1_0 : (⟨S4194304, .f32⟩ : BufTy).Contents (Elt F) → (⟨S4194304x1, .f32⟩ : BufTy).Contents (Elt F)),
    StableHlo.unary main_v78 main_v80 (broadcastInDim S4194304x1 ![0] bcast_S4194304_S4194304x1_0 : (⟨S4194304, .f32⟩ : BufTy).Contents (Elt F) → (⟨S4194304x1, .f32⟩ : BufTy).Contents (Elt F)),
    StableHlo.binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v72 main_v82 (Host.negf : (⟨S4194304, .f32⟩ : BufTy).Contents (Elt F) → (⟨S4194304, .f32⟩ : BufTy).Contents (Elt F)),
    StableHlo.unary main_v82 main_v83 (broadcastInDim S4194304x1 ![0] bcast_S4194304_S4194304x1_0 : (⟨S4194304, .f32⟩ : BufTy).Contents (Elt F) → (⟨S4194304x1, .f32⟩ : BufTy).Contents (Elt F)),
    StableHlo.unary main_v68 main_v84 (broadcastInDim S4194304x1 ![0] bcast_S4194304_S4194304x1_0 : (⟨S4194304, .f32⟩ : BufTy).Contents (Elt F) → (⟨S4194304x1, .f32⟩ : BufTy).Contents (Elt F)),
    StableHlo.binary main_v83 main_v84 main_v85 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v81 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    StableHlo.unary main_v85 main_v87 (broadcastInDim S4194304x1x2 ![0, 2] bcast_S4194304x2_S4194304x1x2_0_2 : (⟨S4194304x2, .f32⟩ : BufTy).Contents (Elt F) → (⟨S4194304x1x2, .f32⟩ : BufTy).Contents (Elt F)),
    StableHlo.binary main_v86 main_v87 main_v88 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    StableHlo.unary main_v77 main_v89 (broadcastInDim S4194304x1x1 ![0] bcast_S4194304_S4194304x1x1_0 : (⟨S4194304, .f32⟩ : BufTy).Contents (Elt F) → (⟨S4194304x1x1, .f32⟩ : BufTy).Contents (Elt F)),
    StableHlo.unary main_v89 main_v90 (broadcastInDim S4194304x2x2 ![0, 1, 2] bcast_S4194304x1x1_S4194304x2x2_0_1_2 : (⟨S4194304x1x1, .f32⟩ : BufTy).Contents (Elt F) → (⟨S4194304x2x2, .f32⟩ : BufTy).Contents (Elt F)),
    StableHlo.binary main_v88 main_v90 main_v91 (Host.divf : (⟨S4194304x2x2, .f32⟩ : BufTy).Contents (Elt F) → (⟨S4194304x2x2, .f32⟩ : BufTy).Contents (Elt F) → (⟨S4194304x2x2, .f32⟩ : BufTy).Contents (Elt F)),
    StableHlo.unary main_v33 main_v92 ((extractStridedSlice S4194304x1 ![0, 0] · slices_S4194304x2_S4194304x1_0_0) : (⟨S4194304x2, .f32⟩ : BufTy).Contents (Elt F) → (⟨S4194304x1, .f32⟩ : BufTy).Contents (Elt F)),
    StableHlo.unary main_v33 main_v93 ((extractStridedSlice S4194304x1 ![0, 1] · slices_S4194304x2_S4194304x1_0_1) : (⟨S4194304x2, .f32⟩ : BufTy).Contents (Elt F) → (⟨S4194304x1, .f32⟩ : BufTy).Contents (Elt F)),
    StableHlo.unary main_v92 main_v94 (Host.negf : (⟨S4194304x1, .f32⟩ : BufTy).Contents (Elt F) → (⟨S4194304x1, .f32⟩ : BufTy).Contents (Elt F)),
    StableHlo.binary main_v93 main_v94 main_v95 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v95 main_v96 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.nullary main_cst_6 (constant S_ .f32 0xBE3851EC#32),
    StableHlo.unary main_cst_6 main_v97 (broadcastInDim S4194304x2x2 ![] bcast_S_S4194304x2x2 : (⟨S_, .f32⟩ : BufTy).Contents (Elt F) → (⟨S4194304x2x2, .f32⟩ : BufTy).Contents (Elt F)),
    StableHlo.unary main_v0 main_v98 (broadcastInDim S4194304x2x1 ![0, 1, 2] bcast_S1x2x1_S4194304x2x1_0_1_2 : (⟨S1x2x1, .f32⟩ : BufTy).Contents (Elt F) → (⟨S4194304x2x1, .f32⟩ : BufTy).Contents (Elt F)),
    StableHlo.nullary main_cst_7 (constant S_ .f32 0x446B9E94#32),
    StableHlo.unary main_cst_7 main_v99 (broadcastInDim S4194304x2x1 ![] bcast_S_S4194304x2x1 : (⟨S_, .f32⟩ : BufTy).Contents (Elt F) → (⟨S4194304x2x1, .f32⟩ : BufTy).Contents (Elt F)),
    StableHlo.binary main_v96 main_v99 main_v100 (mulf : (⟨S4194304x2x1, .f32⟩ : BufTy).Contents (Elt F) → (⟨S4194304x2x1, .f32⟩ : BufTy).Contents (Elt F) → (⟨S4194304x2x1, .f32⟩ : BufTy).Contents (Elt F)),
    StableHlo.nary ![main_v97, main_v98, main_v100] main_v101 (fun u => concatenate S4194304x2x4 2 [⟨S4194304x2x2, u 0⟩, ⟨S4194304x2x1, u 1⟩, ⟨S4194304x2x1, u 2⟩] concatenates_S4194304x2x2_S4194304x2x1_S4194304x2x1_S4194304x2x4_d2),
    StableHlo.unary main_arg0 main_v102 ((extractStridedSlice S4194304x3 ![0, 0] · slices_S4194304x5_S4194304x3_0_0) : (⟨S4194304x5, .f32⟩ : BufTy).Contents (Elt F) → (⟨S4194304x3, .f32⟩ : BufTy).Contents (Elt F)),
    StableHlo.nullary main_cst_8 (constant S_ .f32 0x3F800000#32),
    StableHlo.unary main_cst_8 main_v103 (broadcastInDim S4194304x1 ![] bcast_S_S4194304x1 : (⟨S_, .f32⟩ : BufTy).Contents (Elt F) → (⟨S4194304x1, .f32⟩ : BufTy).Contents (Elt F)),
    StableHlo.binary main_v102 main_v103 main_v104 ((fun a b => concatenate S4194304x4 1 [⟨S4194304x3, a⟩, ⟨S4194304x1, b⟩] concatenates_S4194304x3_S4194304x1_S4194304x4_d1) : (⟨S4194304x3, .f32⟩ : BufTy).Contents (Elt F) → (⟨S4194304x1, .f32⟩ : BufTy).Contents (Elt F) → (⟨S4194304x4, .f32⟩ : BufTy).Contents (Elt F)),
    StableHlo.unary main_v104 main_v105 (broadcastInDim S4194304x4x1 ![0, 1] bcast_S4194304x4_S4194304x4x1_0_1 : (⟨S4194304x4, .f32⟩ : BufTy).Contents (Elt F) → (⟨S4194304x4x1, .f32⟩ : BufTy).Contents (Elt F)),
    StableHlo.binary main_v101 main_v105 main_v106 ((fun l r => Host.dotGeneral dot_S4194304x2x4_S4194304x4x1_S4194304x2x1_2_1_1_2_0_0 none l r) : (⟨S4194304x2x4, .f32⟩ : BufTy).Contents (Elt F) → (⟨S4194304x4x1, .f32⟩ : BufTy).Contents (Elt F) → (⟨S4194304x2x1, .f32⟩ : BufTy).Contents (Elt F)),
    StableHlo.binary main_v91 main_v106 main_v107 ((fun l r => Host.dotGeneral dot_S4194304x2x2_S4194304x2x1_S4194304x2x1_2_1_1_2_0_0 none l r) : (⟨S4194304x2x2, .f32⟩ : BufTy).Contents (Elt F) → (⟨S4194304x2x1, .f32⟩ : BufTy).Contents (Elt F) → (⟨S4194304x2x1, .f32⟩ : BufTy).Contents (Elt F)),
    StableHlo.reshape main_v107 main_v108 rfl shapeCasts_S4194304x2x1_S4194304x2,
    StableHlo.nullary main_cst_9 (constant S_ .f32 0x3851B717#32),
    StableHlo.unary main_cst_9 main_v109 (broadcastInDim S4194304x2 ![] bcast_S_S4194304x2 : (⟨S_, .f32⟩ : BufTy).Contents (Elt F) → (⟨S4194304x2, .f32⟩ : BufTy).Contents (Elt F)),
    StableHlo.binary main_v108 main_v109 main_v110 (mulf : (⟨S4194304x2, .f32⟩ : BufTy).Contents (Elt F) → (⟨S4194304x2, .f32⟩ : BufTy).Contents (Elt F) → (⟨S4194304x2, .f32⟩ : BufTy).Contents (Elt F)),
    StableHlo.binary main_v110 main_v1 main_v111 (addf : (⟨S4194304x2, .f32⟩ : BufTy).Contents (Elt F) → (⟨S4194304x2, .f32⟩ : BufTy).Contents (Elt F) → (⟨S4194304x2, .f32⟩ : BufTy).Contents (Elt F)) ]

set_option maxRecDepth 8192 in
set_option maxHeartbeats 4000000 in
/-- @main is that straight line: the three windows and the norm's body at its two calls unfold to one chain of
    steps, the same chain the list's sequencing unfolds to. -/
theorem main_eq (c : Dev nD) : main (F := F) c = seq ops := rfl

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨nullary_bufs_sub .., nullary_bufs_sub .., nullary_bufs_sub .., unary_bufs_sub .., unary_bufs_sub .., unary_bufs_sub ..,
    unary_bufs_sub .., binary_bufs_sub .., binary_bufs_sub .., binary_bufs_sub .., binary_bufs_sub .., nullary_bufs_sub ..,
    binary_bufs_sub .., nullary_bufs_sub .., binary_bufs_sub .., unary_bufs_sub .., unary_bufs_sub .., unary_bufs_sub ..,
    nullary_bufs_sub .., unary_bufs_sub .., binary_bufs_sub .., binary_bufs_sub .., binary_bufs_sub .., binary_bufs_sub ..,
    binary_bufs_sub .., binary_bufs_sub .., unary_bufs_sub .., unary_bufs_sub .., binary_bufs_sub .., unary_bufs_sub ..,
    binary_bufs_sub .., binary_bufs_sub .., nullary_bufs_sub .., unary_bufs_sub .., binary_bufs_sub .., binary_bufs_sub ..,
    binary_bufs_sub .., binary_bufs_sub .., unary_bufs_sub .., unary_bufs_sub .., binary_bufs_sub .., unary_bufs_sub ..,
    binary_bufs_sub .., binary_bufs_sub .., nullary_bufs_sub .., unary_bufs_sub .., binary_bufs_sub .., binary_bufs_sub ..,
    binary_bufs_sub .., binary_bufs_sub .., unary_bufs_sub .., unary_bufs_sub .., binary_bufs_sub .., binary_bufs_sub ..,
    binary_bufs_sub .., binary_bufs_sub .., binary_bufs_sub .., nullary_bufs_sub .., binary_bufs_sub .., nullary_bufs_sub ..,
    binary_bufs_sub .., unary_bufs_sub .., unary_bufs_sub .., unary_bufs_sub .., nullary_bufs_sub .., unary_bufs_sub ..,
    binary_bufs_sub .., binary_bufs_sub .., binary_bufs_sub .., binary_bufs_sub .., binary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., binary_bufs_sub .., binary_bufs_sub .., binary_bufs_sub ..,
    unary_bufs_sub .., unary_bufs_sub .., binary_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., binary_bufs_sub .., binary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., unary_bufs_sub .., binary_bufs_sub .., unary_bufs_sub ..,
    nullary_bufs_sub .., unary_bufs_sub .., unary_bufs_sub .., nullary_bufs_sub .., unary_bufs_sub .., binary_bufs_sub ..,
    nary_bufs_sub .., unary_bufs_sub .., nullary_bufs_sub .., unary_bufs_sub .., binary_bufs_sub .., unary_bufs_sub ..,
    binary_bufs_sub .., binary_bufs_sub .., reshape_bufs_sub .., nullary_bufs_sub .., unary_bufs_sub .., binary_bufs_sub ..,
    binary_bufs_sub ..⟩

set_option maxRecDepth 8192 in
set_option maxHeartbeats 4000000 in
/-- From any memory with zero counters, every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefChain.lean ====
import proofs.«114032_j50405736186087_1_alg».proof.ReferenceIdeal
import proofs.«114032_j50405736186087_1_alg».proof.Proof.Gen.ReferenceIdeal
import proofs.«114032_j50405736186087_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# One forward-mode push through the network, on whole arrays

`passP x t …` is the reference's chain of whole-array operations that takes the `4194304 × 2` array `x` of rows
`(x0, x1)` and a tangent array `t` to `ψ` and to the tangent of `ψ` along `t`: the norm and its tangent, the two
`tanh` layers with their tangents, the last product. Read at row `r`, column `q` it is the second arrangement's
`psi` and `dR` of that row.
-/

noncomputable section

namespace Cert.ReferenceIdeal.Chain

open Cert.ReferenceIdeal Idealize.ShloMosaic Idealize.ShloMosaic.ValueIdx

variable [Facts]
open Facts₀ Facts

/-- `ψ` and its tangent along `t`, as whole arrays. -/
def passP (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) :
    FVec Ideal S4194304x2 .f32 × FVec Ideal S4194304x2 .f32 :=
  -- the norm √(Σⱼ xⱼ²) and its tangent (Σⱼ tⱼ·xⱼ + xⱼ·tⱼ) · (½ / ‖x‖)
  let n0 : FVec Ideal S4194304x2 .f32 := mulf x x
  let n1 : FVec Ideal S4194304x2 .f32 := mulf t x
  let n2 : FVec Ideal S4194304x2 .f32 := mulf x t
  let n3 : FVec Ideal S4194304x2 .f32 := addf n1 n2
  let n4 : FVec Ideal S4194304 .f32 :=
    Host.reduceAdd n0 (constant (F := Ideal) S_ .f32 0x00000000#32) reducesTo_S4194304x2_S4194304_d1 h_S_
  let n5 : FVec Ideal S4194304 .f32 :=
    Host.reduceAdd n3 (constant (F := Ideal) S_ .f32 0x00000000#32) reducesTo_S4194304x2_S4194304_d1 h_S_
  let n6 : FVec Ideal S4194304x1 .f32 := broadcastInDim S4194304x1 ![0] bcast_S4194304_S4194304x1_0 n4
  let n7 : FVec Ideal S4194304x1 .f32 := broadcastInDim S4194304x1 ![0] bcast_S4194304_S4194304x1_0 n5
  let n8 : FVec Ideal S4194304x1 .f32 := Host.sqrt n6
  let n9 : FVec Ideal S4194304x1 .f32 :=
    broadcastInDim S4194304x1 ![] bcast_S_S4194304x1 (constant (F := Ideal) S_ .f32 0x3F000000#32)
  let n10 : FVec Ideal S4194304x1 .f32 := Host.divf n9 n8
  let n11 : FVec Ideal S4194304x1 .f32 := mulf n7 n10
  -- the network's input [x0, x1, ‖x‖] and its tangent
  let v5 : FVec Ideal S4194304x3 .f32 :=
    concatenate S4194304x3 1 [⟨S4194304x2, x⟩, ⟨S4194304x1, n8⟩] concatenates_S4194304x2_S4194304x1_S4194304x3_d1
  let v6 : FVec Ideal S4194304x3 .f32 :=
    concatenate S4194304x3 1 [⟨S4194304x2, t⟩, ⟨S4194304x1, n11⟩] concatenates_S4194304x2_S4194304x1_S4194304x3_d1
  -- first hidden layer
  let v7 : FVec Ideal S4194304x12 .f32 := Host.dotGeneral dot_S4194304x3_S3x12_S4194304x12_1_0_0_1_n_n none v5 W1
  let v8 : FVec Ideal S4194304x12 .f32 := Host.dotGeneral dot_S4194304x3_S3x12_S4194304x12_1_0_0_1_n_n none v6 W1
  let v9 : FVec Ideal S1x12 .f32 := broadcastInDim S1x12 ![1] bcast_S12_S1x12_1 b1
  let v10 : FVec Ideal S4194304x12 .f32 := broadcastInDim S4194304x12 ![0, 1] bcast_S1x12_S4194304x12_0_1 v9
  let v11 : FVec Ideal S4194304x12 .f32 := addf v7 v10
  let v12 : FVec Ideal S4194304x12 .f32 := Host.tanh v11
  let v13 : FVec Ideal S4194304x12 .f32 := mulf v8 v12
  let v14 : FVec Ideal S4194304x12 .f32 := addf v8 v13
  let v15 : FVec Ideal S4194304x12 .f32 :=
    broadcastInDim S4194304x12 ![] bcast_S_S4194304x12 (constant (F := Ideal) S_ .f32 0x3F800000#32)
  let v16 : FVec Ideal S4194304x12 .f32 := subf v15 v12
  let v17 : FVec Ideal S4194304x12 .f32 := mulf v14 v16
  -- second hidden layer
  let v18 : FVec Ideal S4194304x8 .f32 := Host.dotGeneral dot_S4194304x12_S12x8_S4194304x8_1_0_0_1_n_n none v12 W2
  let v19 : FVec Ideal S4194304x8 .f32 := Host.dotGeneral dot_S4194304x12_S12x8_S4194304x8_1_0_0_1_n_n none v17 W2
  let v20 : FVec Ideal S1x8 .f32 := broadcastInDim S1x8 ![1] bcast_S8_S1x8_1 b2
  let v21 : FVec Ideal S4194304x8 .f32 := broadcastInDim S4194304x8 ![0, 1] bcast_S1x8_S4194304x8_0_1 v20
  let v22 : FVec Ideal S4194304x8 .f32 := addf v18 v21
  let v23 : FVec Ideal S4194304x8 .f32 := Host.tanh v22
  let v24 : FVec Ideal S4194304x8 .f32 := mulf v19 v23
  let v25 : FVec Ideal S4194304x8 .f32 := addf v19 v24
  let v26 : FVec Ideal S4194304x8 .f32 :=
    broadcastInDim S4194304x8 ![] bcast_S_S4194304x8 (constant (F := Ideal) S_ .f32 0x3F800000#32)
  let v27 : FVec Ideal S4194304x8 .f32 := subf v26 v23
  let v28 : FVec Ideal S4194304x8 .f32 := mulf v25 v27
  -- the last product
  let v29 : FVec Ideal S4194304x2 .f32 := Host.dotGeneral dot_S4194304x8_S8x2_S4194304x2_1_0_0_1_n_n none v23 W3
  let v30 : FVec Ideal S4194304x2 .f32 := Host.dotGeneral dot_S4194304x8_S8x2_S4194304x2_1_0_0_1_n_n none v28 W3
  let v31 : FVec Ideal S1x2 .f32 := broadcastInDim S1x2 ![1] bcast_S2_S1x2_1 b3
  let v32 : FVec Ideal S4194304x2 .f32 := broadcastInDim S4194304x2 ![0, 1] bcast_S1x2_S4194304x2_0_1 v31
  let v33 : FVec Ideal S4194304x2 .f32 := addf v29 v32
  (v33, v30)

/-! ## The stages read at an index -/

/-- A sum over the two columns of a row. -/
theorem rowSum_apply (v : FVec Ideal S4194304x2 .f32) (r : Fin 4194304) :
    Host.reduceAdd v (constant (F := Ideal) S_ .f32 0x00000000#32) reducesTo_S4194304x2_S4194304_d1 h_S_ (ix1 r)
      = v (ix2 r (0 : Fin 2)) + v (ix2 r (1 : Fin 2)) := by
  have h : S4194304x2.Reduces [1] S4194304 := by decide
  unfold Host.reduceAdd
  simp only [Ideal.hostReduceAdd_def]
  rw [Ideal.hostReduceAdd_single reducesTo_S4194304x2_S4194304_d1 h, constant_apply, Ideal.ofBits_zero_f32, zero_add]
  refine (Fin.sum_univ_two (fun k : Fin 2 => v (h.lift (ix1 r) k))).trans ?_
  congr 1 <;> exact congrArg v (funext fun a => Fin.ext (by match a with | ⟨0, _⟩ => rfl | ⟨1, _⟩ => rfl))

/-- A column vector made from a vector. -/
theorem col_apply (v : FVec Ideal S4194304 .f32) (r : Fin 4194304) (c : Fin 1) :
    broadcastInDim S4194304x1 ![0] bcast_S4194304_S4194304x1_0 v (ix2 r c) = v (ix1 r) := by
  refine broadcastInDim_apply _ _ v _ (ix1 r) fun a => ?_
  match a with
  | ⟨0, _⟩ => rfl

/-- A scalar literal spread over an array. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := by
  refine (broadcastInDim_apply _ h _ j ix0 fun a => a.elim0).trans ?_
  rfl

/-- The square root, entry by entry. -/
theorem sqrt_apply {s : Shape} (v : FVec Ideal s .f32) (i : s.Idx) : Host.sqrt v i = Ideal.sqrt (v i) := rfl
/-- The hyperbolic tangent, entry by entry. -/
theorem tanh_apply {s : Shape} (v : FVec Ideal s .f32) (i : s.Idx) : Host.tanh v i = Ideal.tanh (v i) := rfl
/-- The quotient, entry by entry. -/
theorem hdiv_apply {s : Shape} (a b : FVec Ideal s .f32) (i : s.Idx) : Host.divf a b i = Ideal.div (a i) (b i) := rfl

/-- A row of the three-column array made of a two-column array and a column. -/
theorem cat_apply (a : FVec Ideal S4194304x2 .f32) (b : FVec Ideal S4194304x1 .f32) (r : Fin 4194304) (k : Fin 3) :
    concatenate S4194304x3 1 [⟨S4194304x2, a⟩, ⟨S4194304x1, b⟩] concatenates_S4194304x2_S4194304x1_S4194304x3_d1 (ix2 r k)
      = (![a (ix2 r (0 : Fin 2)), a (ix2 r (1 : Fin 2)), b (ix2 r (0 : Fin 1))] : Fin 3 → EReal) k := by
  match k with
  | ⟨0, _⟩ =>
    refine concatenate_pair_apply_left (1 : Fin S4194304x3.rank) a b _ _ rfl (ix2 r (0 : Fin 2)) fun c => ?_
    match c with
    | ⟨0, _⟩ => rfl
    | ⟨1, _⟩ => rfl
  | ⟨1, _⟩ =>
    refine concatenate_pair_apply_left (1 : Fin S4194304x3.rank) a b _ _ rfl (ix2 r (1 : Fin 2)) fun c => ?_
    match c with
    | ⟨0, _⟩ => rfl
    | ⟨1, _⟩ => rfl
  | ⟨2, _⟩ =>
    refine concatenate_pair_apply_right (1 : Fin S4194304x3.rank) a b _ _ rfl rfl (ix2 r (0 : Fin 1)) (fun c hc => ?_) rfl
    match c with
    | ⟨0, _⟩ => rfl
    | ⟨1, _⟩ => exact absurd rfl hc

/-- A bias vector laid along every row. -/
theorem bias_apply {n : Nat} (h1 : (⟨1, ![n]⟩ : Shape).BroadcastsInDim ⟨2, ![1, n]⟩ (![1] : Fin 1 → Fin 2))
    (h2 : (⟨2, ![1, n]⟩ : Shape).BroadcastsInDim ⟨2, ![4194304, n]⟩ (![0, 1] : Fin 2 → Fin 2))
    (b : FVec Ideal ⟨1, ![n]⟩ .f32) (r : Fin 4194304) (j : Fin n) :
    broadcastInDim (⟨2, ![4194304, n]⟩ : Shape) ![0, 1] h2 (broadcastInDim (⟨2, ![1, n]⟩ : Shape) ![1] h1 b) (ix2 r j) = b (ix1 j) := by
  have hj : j.val = if n = 1 then 0 else j.val := by
    split_ifs with hn
    · have := j.isLt; omega
    · rfl
  refine (broadcastInDim_apply _ h2 _ (ix2 r j) (ix2 (0 : Fin 1) j) fun a => ?_).trans
    (broadcastInDim_apply _ h1 b (ix2 (0 : Fin 1) j) (ix1 j) fun a => ?_)
  · match a with
    | ⟨0, _⟩ => rfl
    | ⟨1, _⟩ => exact hj
  · match a with
    | ⟨0, _⟩ => exact hj

theorem lhs_dotA_0 (i : S4194304x12.Idx) (q : dot_S4194304x3_S3x12_S4194304x12_1_0_0_1_n_n.contr.Idx) :
    (dot_S4194304x3_S3x12_S4194304x12_1_0_0_1_n_n.lhsIdx i q 0).val = (i 0).val := by
  unfold DotDims.lhsIdx
  rw [dif_neg (show ¬(0 : Fin S4194304x3.rank) ∈ dot_S4194304x3_S3x12_S4194304x12_1_0_0_1_n_n.lhsBatch by decide),
    dif_pos (show (0 : Fin S4194304x3.rank) ∈ dot_S4194304x3_S3x12_S4194304x12_1_0_0_1_n_n.lhsNonContracting by decide)]
  rfl
theorem lhs_dotA_1 (i : S4194304x12.Idx) (q : dot_S4194304x3_S3x12_S4194304x12_1_0_0_1_n_n.contr.Idx) :
    (dot_S4194304x3_S3x12_S4194304x12_1_0_0_1_n_n.lhsIdx i q 1).val = (q ⟨0, by decide⟩).val :=
  dot_S4194304x3_S3x12_S4194304x12_1_0_0_1_n_n.lhsIdx_val_of_single rfl i q
theorem rhs_dotA_0 (i : S4194304x12.Idx) (q : dot_S4194304x3_S3x12_S4194304x12_1_0_0_1_n_n.contr.Idx) :
    (dot_S4194304x3_S3x12_S4194304x12_1_0_0_1_n_n.rhsIdx i q 0).val = (q ⟨0, by decide⟩).val :=
  dot_S4194304x3_S3x12_S4194304x12_1_0_0_1_n_n.rhsIdx_val_of_single rfl i q
theorem rhs_dotA_1 (i : S4194304x12.Idx) (q : dot_S4194304x3_S3x12_S4194304x12_1_0_0_1_n_n.contr.Idx) :
    (dot_S4194304x3_S3x12_S4194304x12_1_0_0_1_n_n.rhsIdx i q 1).val = (i 1).val := by
  unfold DotDims.rhsIdx
  rw [dif_neg (show ¬(1 : Fin S3x12.rank) ∈ dot_S4194304x3_S3x12_S4194304x12_1_0_0_1_n_n.rhsBatch by decide),
    dif_pos (show (1 : Fin S3x12.rank) ∈ dot_S4194304x3_S3x12_S4194304x12_1_0_0_1_n_n.rhsNonContracting by decide)]
  rfl

/-- The product of a `4194304 × 3` array with a `3 × 12` matrix, entry by entry. -/
theorem dotA_apply (l : FVec Ideal S4194304x3 .f32) (w : FVec Ideal S3x12 .f32) (r : Fin 4194304) (j : Fin 12) :
    Host.dotGeneral dot_S4194304x3_S3x12_S4194304x12_1_0_0_1_n_n none l w (ix2 r j) = ∑ k : Fin 3, l (ix2 r k) * w (ix2 k j) := by
  simp only [Host.dotGeneral]
  rw [Ideal.dotGeneral_apply, ← Equiv.sum_comp (contrEquiv1 dot_S4194304x3_S3x12_S4194304x12_1_0_0_1_n_n 3 rfl rfl).symm]
  refine Finset.sum_congr rfl fun k _ => ?_
  have hk := contrEquiv1_symm_val dot_S4194304x3_S3x12_S4194304x12_1_0_0_1_n_n 3 rfl rfl k
  have el : dot_S4194304x3_S3x12_S4194304x12_1_0_0_1_n_n.lhsIdx (ix2 r j) ((contrEquiv1 dot_S4194304x3_S3x12_S4194304x12_1_0_0_1_n_n 3 rfl rfl).symm k) = ix2 r k :=
    funext fun a => Fin.ext (by
      match a with
      | ⟨0, _⟩ => exact lhs_dotA_0 _ _
      | ⟨1, _⟩ => exact (lhs_dotA_1 _ _).trans hk)
  have er : dot_S4194304x3_S3x12_S4194304x12_1_0_0_1_n_n.rhsIdx (ix2 r j) ((contrEquiv1 dot_S4194304x3_S3x12_S4194304x12_1_0_0_1_n_n 3 rfl rfl).symm k) = ix2 k j :=
    funext fun a => Fin.ext (by
      match a with
      | ⟨0, _⟩ => exact (rhs_dotA_0 _ _).trans hk
      | ⟨1, _⟩ => exact rhs_dotA_1 _ _)
  rw [el, er]

theorem lhs_dotB_0 (i : S4194304x8.Idx) (q : dot_S4194304x12_S12x8_S4194304x8_1_0_0_1_n_n.contr.Idx) :
    (dot_S4194304x12_S12x8_S4194304x8_1_0_0_1_n_n.lhsIdx i q 0).val = (i 0).val := by
  unfold DotDims.lhsIdx
  rw [dif_neg (show ¬(0 : Fin S4194304x12.rank) ∈ dot_S4194304x12_S12x8_S4194304x8_1_0_0_1_n_n.lhsBatch by decide),
    dif_pos (show (0 : Fin S4194304x12.rank) ∈ dot_S4194304x12_S12x8_S4194304x8_1_0_0_1_n_n.lhsNonContracting by decide)]
  rfl
theorem lhs_dotB_1 (i : S4194304x8.Idx) (q : dot_S4194304x12_S12x8_S4194304x8_1_0_0_1_n_n.contr.Idx) :
    (dot_S4194304x12_S12x8_S4194304x8_1_0_0_1_n_n.lhsIdx i q 1).val = (q ⟨0, by decide⟩).val :=
  dot_S4194304x12_S12x8_S4194304x8_1_0_0_1_n_n.lhsIdx_val_of_single rfl i q
theorem rhs_dotB_0 (i : S4194304x8.Idx) (q : dot_S4194304x12_S12x8_S4194304x8_1_0_0_1_n_n.contr.Idx) :
    (dot_S4194304x12_S12x8_S4194304x8_1_0_0_1_n_n.rhsIdx i q 0).val = (q ⟨0, by decide⟩).val :=
  dot_S4194304x12_S12x8_S4194304x8_1_0_0_1_n_n.rhsIdx_val_of_single rfl i q
theorem rhs_dotB_1 (i : S4194304x8.Idx) (q : dot_S4194304x12_S12x8_S4194304x8_1_0_0_1_n_n.contr.Idx) :
    (dot_S4194304x12_S12x8_S4194304x8_1_0_0_1_n_n.rhsIdx i q 1).val = (i 1).val := by
  unfold DotDims.rhsIdx
  rw [dif_neg (show ¬(1 : Fin S12x8.rank) ∈ dot_S4194304x12_S12x8_S4194304x8_1_0_0_1_n_n.rhsBatch by decide),
    dif_pos (show (1 : Fin S12x8.rank) ∈ dot_S4194304x12_S12x8_S4194304x8_1_0_0_1_n_n.rhsNonContracting by decide)]
  rfl

/-- The product of a `4194304 × 12` array with a `12 × 8` matrix, entry by entry. -/
theorem dotB_apply (l : FVec Ideal S4194304x12 .f32) (w : FVec Ideal S12x8 .f32) (r : Fin 4194304) (j : Fin 8) :
    Host.dotGeneral dot_S4194304x12_S12x8_S4194304x8_1_0_0_1_n_n none l w (ix2 r j) = ∑ k : Fin 12, l (ix2 r k) * w (ix2 k j) := by
  simp only [Host.dotGeneral]
  rw [Ideal.dotGeneral_apply, ← Equiv.sum_comp (contrEquiv1 dot_S4194304x12_S12x8_S4194304x8_1_0_0_1_n_n 12 rfl rfl).symm]
  refine Finset.sum_congr rfl fun k _ => ?_
  have hk := contrEquiv1_symm_val dot_S4194304x12_S12x8_S4194304x8_1_0_0_1_n_n 12 rfl rfl k
  have el : dot_S4194304x12_S12x8_S4194304x8_1_0_0_1_n_n.lhsIdx (ix2 r j) ((contrEquiv1 dot_S4194304x12_S12x8_S4194304x8_1_0_0_1_n_n 12 rfl rfl).symm k) = ix2 r k :=
    funext fun a => Fin.ext (by
      match a with
      | ⟨0, _⟩ => exact lhs_dotB_0 _ _
      | ⟨1, _⟩ => exact (lhs_dotB_1 _ _).trans hk)
  have er : dot_S4194304x12_S12x8_S4194304x8_1_0_0_1_n_n.rhsIdx (ix2 r j) ((contrEquiv1 dot_S4194304x12_S12x8_S4194304x8_1_0_0_1_n_n 12 rfl rfl).symm k) = ix2 k j :=
    funext fun a => Fin.ext (by
      match a with
      | ⟨0, _⟩ => exact (rhs_dotB_0 _ _).trans hk
      | ⟨1, _⟩ => exact rhs_dotB_1 _ _)
  rw [el, er]

theorem lhs_dotC_0 (i : S4194304x2.Idx) (q : dot_S4194304x8_S8x2_S4194304x2_1_0_0_1_n_n.contr.Idx) :
    (dot_S4194304x8_S8x2_S4194304x2_1_0_0_1_n_n.lhsIdx i q 0).val = (i 0).val := by
  unfold DotDims.lhsIdx
  rw [dif_neg (show ¬(0 : Fin S4194304x8.rank) ∈ dot_S4194304x8_S8x2_S4194304x2_1_0_0_1_n_n.lhsBatch by decide),
    dif_pos (show (0 : Fin S4194304x8.rank) ∈ dot_S4194304x8_S8x2_S4194304x2_1_0_0_1_n_n.lhsNonContracting by decide)]
  rfl
theorem lhs_dotC_1 (i : S4194304x2.Idx) (q : dot_S4194304x8_S8x2_S4194304x2_1_0_0_1_n_n.contr.Idx) :
    (dot_S4194304x8_S8x2_S4194304x2_1_0_0_1_n_n.lhsIdx i q 1).val = (q ⟨0, by decide⟩).val :=
  dot_S4194304x8_S8x2_S4194304x2_1_0_0_1_n_n.lhsIdx_val_of_single rfl i q
theorem rhs_dotC_0 (i : S4194304x2.Idx) (q : dot_S4194304x8_S8x2_S4194304x2_1_0_0_1_n_n.contr.Idx) :
    (dot_S4194304x8_S8x2_S4194304x2_1_0_0_1_n_n.rhsIdx i q 0).val = (q ⟨0, by decide⟩).val :=
  dot_S4194304x8_S8x2_S4194304x2_1_0_0_1_n_n.rhsIdx_val_of_single rfl i q
theorem rhs_dotC_1 (i : S4194304x2.Idx) (q : dot_S4194304x8_S8x2_S4194304x2_1_0_0_1_n_n.contr.Idx) :
    (dot_S4194304x8_S8x2_S4194304x2_1_0_0_1_n_n.rhsIdx i q 1).val = (i 1).val := by
  unfold DotDims.rhsIdx
  rw [dif_neg (show ¬(1 : Fin S8x2.rank) ∈ dot_S4194304x8_S8x2_S4194304x2_1_0_0_1_n_n.rhsBatch by decide),
    dif_pos (show (1 : Fin S8x2.rank) ∈ dot_S4194304x8_S8x2_S4194304x2_1_0_0_1_n_n.rhsNonContracting by decide)]
  rfl

/-- The product of a `4194304 × 8` array with a `8 × 2` matrix, entry by entry. -/
theorem dotC_apply (l : FVec Ideal S4194304x8 .f32) (w : FVec Ideal S8x2 .f32) (r : Fin 4194304) (j : Fin 2) :
    Host.dotGeneral dot_S4194304x8_S8x2_S4194304x2_1_0_0_1_n_n none l w (ix2 r j) = ∑ k : Fin 8, l (ix2 r k) * w (ix2 k j) := by
  simp only [Host.dotGeneral]
  rw [Ideal.dotGeneral_apply, ← Equiv.sum_comp (contrEquiv1 dot_S4194304x8_S8x2_S4194304x2_1_0_0_1_n_n 8 rfl rfl).symm]
  refine Finset.sum_congr rfl fun k _ => ?_
  have hk := contrEquiv1_symm_val dot_S4194304x8_S8x2_S4194304x2_1_0_0_1_n_n 8 rfl rfl k
  have el : dot_S4194304x8_S8x2_S4194304x2_1_0_0_1_n_n.lhsIdx (ix2 r j) ((contrEquiv1 dot_S4194304x8_S8x2_S4194304x2_1_0_0_1_n_n 8 rfl rfl).symm k) = ix2 r k :=
    funext fun a => Fin.ext (by
      match a with
      | ⟨0, _⟩ => exact lhs_dotC_0 _ _
      | ⟨1, _⟩ => exact (lhs_dotC_1 _ _).trans hk)
  have er : dot_S4194304x8_S8x2_S4194304x2_1_0_0_1_n_n.rhsIdx (ix2 r j) ((contrEquiv1 dot_S4194304x8_S8x2_S4194304x2_1_0_0_1_n_n 8 rfl rfl).symm k) = ix2 k j :=
    funext fun a => Fin.ext (by
      match a with
      | ⟨0, _⟩ => exact (rhs_dotC_0 _ _).trans hk
      | ⟨1, _⟩ => exact rhs_dotC_1 _ _)
  rw [el, er]

/-- The first layer's bias along every row. -/
theorem biasA_apply (b : FVec Ideal S12 .f32) (r : Fin 4194304) (j : Fin 12) :
    broadcastInDim S4194304x12 ![0, 1] bcast_S1x12_S4194304x12_0_1 (broadcastInDim S1x12 ![1] bcast_S12_S1x12_1 b) (ix2 r j)
      = b (ix1 j) :=
  bias_apply _ _ b r j
/-- The second layer's bias along every row. -/
theorem biasB_apply (b : FVec Ideal S8 .f32) (r : Fin 4194304) (j : Fin 8) :
    broadcastInDim S4194304x8 ![0, 1] bcast_S1x8_S4194304x8_0_1 (broadcastInDim S1x8 ![1] bcast_S8_S1x8_1 b) (ix2 r j)
      = b (ix1 j) :=
  bias_apply _ _ b r j
/-- The last layer's bias along every row. -/
theorem biasC_apply (b : FVec Ideal S2 .f32) (r : Fin 4194304) (j : Fin 2) :
    broadcastInDim S4194304x2 ![0, 1] bcast_S1x2_S4194304x2_0_1 (broadcastInDim S1x2 ![1] bcast_S2_S1x2_1 b) (ix2 r j)
      = b (ix1 j) :=
  bias_apply _ _ b r j

/-! ## The stages as arrays

Each is a sub-term of `passP`, named so that it can be read at an index once. -/

/-- The rows' norms, as a column. -/
def nrmA (x : FVec Ideal S4194304x2 .f32) : FVec Ideal S4194304x1 .f32 :=
  Host.sqrt (broadcastInDim S4194304x1 ![0] bcast_S4194304_S4194304x1_0
    (Host.reduceAdd (mulf x x) (constant (F := Ideal) S_ .f32 0x00000000#32) reducesTo_S4194304x2_S4194304_d1 h_S_))

/-- The norms' tangents along `t`, as a column. -/
def dnrmA (x t : FVec Ideal S4194304x2 .f32) : FVec Ideal S4194304x1 .f32 :=
  mulf (broadcastInDim S4194304x1 ![0] bcast_S4194304_S4194304x1_0
      (Host.reduceAdd (addf (mulf t x) (mulf x t)) (constant (F := Ideal) S_ .f32 0x00000000#32) reducesTo_S4194304x2_S4194304_d1 h_S_))
    (Host.divf (broadcastInDim S4194304x1 ![] bcast_S_S4194304x1 (constant (F := Ideal) S_ .f32 0x3F000000#32)) (nrmA x))

/-- The first hidden layer. -/
def h1A (x : FVec Ideal S4194304x2 .f32) (W1 : FVec Ideal S3x12 .f32) (b1 : FVec Ideal S12 .f32) : FVec Ideal S4194304x12 .f32 :=
  Host.tanh (addf (Host.dotGeneral dot_S4194304x3_S3x12_S4194304x12_1_0_0_1_n_n none (concatenate S4194304x3 1 [⟨S4194304x2, x⟩, ⟨S4194304x1, (nrmA x)⟩] concatenates_S4194304x2_S4194304x1_S4194304x3_d1) W1) (broadcastInDim S4194304x12 ![0, 1] bcast_S1x12_S4194304x12_0_1 (broadcastInDim S1x12 ![1] bcast_S12_S1x12_1 b1)))

/-- The input's tangent times the first matrix. -/
def g1A (x t : FVec Ideal S4194304x2 .f32) (W1 : FVec Ideal S3x12 .f32) : FVec Ideal S4194304x12 .f32 :=
  Host.dotGeneral dot_S4194304x3_S3x12_S4194304x12_1_0_0_1_n_n none (concatenate S4194304x3 1 [⟨S4194304x2, t⟩, ⟨S4194304x1, (dnrmA x t)⟩] concatenates_S4194304x2_S4194304x1_S4194304x3_d1) W1

/-- The tangent after the first hidden layer. -/
def d1A (x t : FVec Ideal S4194304x2 .f32) (W1 : FVec Ideal S3x12 .f32) (b1 : FVec Ideal S12 .f32) : FVec Ideal S4194304x12 .f32 :=
  mulf (addf (g1A x t W1) (mulf (g1A x t W1) (h1A x W1 b1))) (subf (broadcastInDim S4194304x12 ![] bcast_S_S4194304x12 (constant (F := Ideal) S_ .f32 0x3F800000#32)) (h1A x W1 b1))

/-- The second hidden layer. -/
def h2A (x : FVec Ideal S4194304x2 .f32) (W1 : FVec Ideal S3x12 .f32) (b1 : FVec Ideal S12 .f32)
    (W2 : FVec Ideal S12x8 .f32) (b2 : FVec Ideal S8 .f32) : FVec Ideal S4194304x8 .f32 :=
  Host.tanh (addf (Host.dotGeneral dot_S4194304x12_S12x8_S4194304x8_1_0_0_1_n_n none (h1A x W1 b1) W2) (broadcastInDim S4194304x8 ![0, 1] bcast_S1x8_S4194304x8_0_1 (broadcastInDim S1x8 ![1] bcast_S8_S1x8_1 b2)))

/-- The first layer's tangent times the second matrix. -/
def g2A (x t : FVec Ideal S4194304x2 .f32) (W1 : FVec Ideal S3x12 .f32) (b1 : FVec Ideal S12 .f32)
    (W2 : FVec Ideal S12x8 .f32) : FVec Ideal S4194304x8 .f32 :=
  Host.dotGeneral dot_S4194304x12_S12x8_S4194304x8_1_0_0_1_n_n none (d1A x t W1 b1) W2

/-- The tangent after the second hidden layer. -/
def d2A (x t : FVec Ideal S4194304x2 .f32) (W1 : FVec Ideal S3x12 .f32) (b1 : FVec Ideal S12 .f32)
    (W2 : FVec Ideal S12x8 .f32) (b2 : FVec Ideal S8 .f32) : FVec Ideal S4194304x8 .f32 :=
  mulf (addf (g2A x t W1 b1 W2) (mulf (g2A x t W1 b1 W2) (h2A x W1 b1 W2 b2))) (subf (broadcastInDim S4194304x8 ![] bcast_S_S4194304x8 (constant (F := Ideal) S_ .f32 0x3F800000#32)) (h2A x W1 b1 W2 b2))

/-- `passP` over the named stages. -/
theorem passP_eq (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) :
    passP x t W1 b1 W2 b2 W3 b3
      = (addf (Host.dotGeneral dot_S4194304x8_S8x2_S4194304x2_1_0_0_1_n_n none (h2A x W1 b1 W2 b2) W3) (broadcastInDim S4194304x2 ![0, 1] bcast_S1x2_S4194304x2_0_1 (broadcastInDim S1x2 ![1] bcast_S2_S1x2_1 b3)),
          Host.dotGeneral dot_S4194304x8_S8x2_S4194304x2_1_0_0_1_n_n none (d2A x t W1 b1 W2 b2) W3) := rfl

/-! ## The stages read at a row -/

/-- The norm of a row. -/
theorem nrmA_apply (x : FVec Ideal S4194304x2 .f32) (r : Fin 4194304) (c : Fin 1) :
    nrmA x (ix2 r c) = Cert.Spec.nrm (x (ix2 r (0 : Fin 2))) (x (ix2 r (1 : Fin 2))) := by
  unfold nrmA
  rw [sqrt_apply, col_apply, rowSum_apply, mulf_apply, mulf_apply]
  rfl

/-- The norm's tangent at a row. -/
theorem dnrmA_apply (x t : FVec Ideal S4194304x2 .f32) (r : Fin 4194304) (c : Fin 1) :
    dnrmA x t (ix2 r c) = Cert.Spec.dnR (x (ix2 r (0 : Fin 2))) (x (ix2 r (1 : Fin 2))) (t (ix2 r (0 : Fin 2))) (t (ix2 r (1 : Fin 2))) := by
  unfold dnrmA
  rw [mulf_apply, col_apply, rowSum_apply, addf_apply, addf_apply, mulf_apply, mulf_apply, mulf_apply, mulf_apply,
    hdiv_apply, splat_apply, nrmA_apply]
  rfl

/-- The network's input at a row. -/
theorem inA_apply (x : FVec Ideal S4194304x2 .f32) (r : Fin 4194304) (k : Fin 3) :
    (concatenate S4194304x3 1 [⟨S4194304x2, x⟩, ⟨S4194304x1, (nrmA x)⟩] concatenates_S4194304x2_S4194304x1_S4194304x3_d1) (ix2 r k) = Cert.Spec.iall (x (ix2 r (0 : Fin 2))) (x (ix2 r (1 : Fin 2))) k := by
  rw [cat_apply, nrmA_apply]
  rfl

/-- The input's tangent at a row. -/
theorem tinA_apply (x t : FVec Ideal S4194304x2 .f32) (r : Fin 4194304) (k : Fin 3) :
    (concatenate S4194304x3 1 [⟨S4194304x2, t⟩, ⟨S4194304x1, (dnrmA x t)⟩] concatenates_S4194304x2_S4194304x1_S4194304x3_d1) (ix2 r k) = (Cert.Spec.tR (x (ix2 r (0 : Fin 2))) (x (ix2 r (1 : Fin 2))) (t (ix2 r (0 : Fin 2))) (t (ix2 r (1 : Fin 2)))) k := by
  rw [cat_apply, dnrmA_apply]
  rfl

/-- The first hidden layer at a row. -/
theorem h1A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 12) :
    h1A x W1 b1 (ix2 r j) = Cert.Spec.h1 (Cert.Spec.netOf W1 b1 W2 b2 W3 b3) (x (ix2 r (0 : Fin 2))) (x (ix2 r (1 : Fin 2))) j := by
  unfold h1A Cert.Spec.h1
  rw [tanh_apply, addf_apply, dotA_apply, biasA_apply]
  refine congrArg (fun s => Ideal.tanh (s + b1 (ix1 j))) (Finset.sum_congr rfl fun k _ => ?_)
  rw [inA_apply]
  rfl

/-- The input's tangent times the first matrix, at a row. -/
theorem g1A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 12) :
    g1A x t W1 (ix2 r j) = ∑ k : Fin 3, (Cert.Spec.tR (x (ix2 r (0 : Fin 2))) (x (ix2 r (1 : Fin 2))) (t (ix2 r (0 : Fin 2))) (t (ix2 r (1 : Fin 2)))) k * (Cert.Spec.netOf W1 b1 W2 b2 W3 b3).W1 k j := by
  unfold g1A
  rw [dotA_apply]
  refine Finset.sum_congr rfl fun k _ => ?_
  rw [tinA_apply]
  rfl

/-- The tangent after the first hidden layer, at a row. -/
theorem d1A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 12) :
    d1A x t W1 b1 (ix2 r j) = Cert.Spec.dh1R (Cert.Spec.netOf W1 b1 W2 b2 W3 b3) (x (ix2 r (0 : Fin 2))) (x (ix2 r (1 : Fin 2))) (Cert.Spec.tR (x (ix2 r (0 : Fin 2))) (x (ix2 r (1 : Fin 2))) (t (ix2 r (0 : Fin 2))) (t (ix2 r (1 : Fin 2)))) j := by
  unfold d1A Cert.Spec.dh1R
  rw [mulf_apply, addf_apply, mulf_apply, subf_apply, splat_apply, g1A_apply x t W1 b1 W2 b2 W3 b3,
    h1A_apply x t W1 b1 W2 b2 W3 b3]
  rfl

/-- The second hidden layer at a row. -/
theorem h2A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 8) :
    h2A x W1 b1 W2 b2 (ix2 r j) = Cert.Spec.h2 (Cert.Spec.netOf W1 b1 W2 b2 W3 b3) (x (ix2 r (0 : Fin 2))) (x (ix2 r (1 : Fin 2))) j := by
  unfold h2A Cert.Spec.h2
  rw [tanh_apply, addf_apply, dotB_apply, biasB_apply]
  refine congrArg (fun s => Ideal.tanh (s + b2 (ix1 j))) (Finset.sum_congr rfl fun k _ => ?_)
  rw [h1A_apply x t W1 b1 W2 b2 W3 b3]
  rfl

/-- The first layer's tangent times the second matrix, at a row. -/
theorem g2A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 8) :
    g2A x t W1 b1 W2 (ix2 r j) = ∑ k : Fin 12, Cert.Spec.dh1R (Cert.Spec.netOf W1 b1 W2 b2 W3 b3) (x (ix2 r (0 : Fin 2))) (x (ix2 r (1 : Fin 2))) (Cert.Spec.tR (x (ix2 r (0 : Fin 2))) (x (ix2 r (1 : Fin 2))) (t (ix2 r (0 : Fin 2))) (t (ix2 r (1 : Fin 2)))) k * (Cert.Spec.netOf W1 b1 W2 b2 W3 b3).W2 k j := by
  unfold g2A
  rw [dotB_apply]
  refine Finset.sum_congr rfl fun k _ => ?_
  rw [d1A_apply x t W1 b1 W2 b2 W3 b3]
  rfl

/-- The tangent after the second hidden layer, at a row. -/
theorem d2A_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) (r : Fin 4194304) (j : Fin 8) :
    d2A x t W1 b1 W2 b2 (ix2 r j) = Cert.Spec.dh2R (Cert.Spec.netOf W1 b1 W2 b2 W3 b3) (x (ix2 r (0 : Fin 2))) (x (ix2 r (1 : Fin 2))) (Cert.Spec.tR (x (ix2 r (0 : Fin 2))) (x (ix2 r (1 : Fin 2))) (t (ix2 r (0 : Fin 2))) (t (ix2 r (1 : Fin 2)))) j := by
  unfold d2A Cert.Spec.dh2R
  rw [mulf_apply, addf_apply, mulf_apply, subf_apply, splat_apply, g2A_apply x t W1 b1 W2 b2 W3 b3,
    h2A_apply x t W1 b1 W2 b2 W3 b3]
  rfl

theorem passP_fst_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (r : Fin 4194304) (q : Fin 2) :
    (passP x t W1 b1 W2 b2 W3 b3).1 (ix2 r q)
      = Cert.Spec.psi (Cert.Spec.netOf W1 b1 W2 b2 W3 b3) (x (ix2 r (0 : Fin 2))) (x (ix2 r (1 : Fin 2))) q := by
  rw [passP_eq]
  show addf (Host.dotGeneral dot_S4194304x8_S8x2_S4194304x2_1_0_0_1_n_n none (h2A x W1 b1 W2 b2) W3) (broadcastInDim S4194304x2 ![0, 1] bcast_S1x2_S4194304x2_0_1 (broadcastInDim S1x2 ![1] bcast_S2_S1x2_1 b3)) (ix2 r q) = _
  unfold Cert.Spec.psi
  rw [addf_apply, dotC_apply, biasC_apply]
  refine congrArg (fun s => s + b3 (ix1 q)) (Finset.sum_congr rfl fun k _ => ?_)
  rw [h2A_apply x t W1 b1 W2 b2 W3 b3]
  rfl

theorem passP_snd_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (r : Fin 4194304) (q : Fin 2) :
    (passP x t W1 b1 W2 b2 W3 b3).2 (ix2 r q)
      = Cert.Spec.dR (Cert.Spec.netOf W1 b1 W2 b2 W3 b3) (x (ix2 r (0 : Fin 2))) (x (ix2 r (1 : Fin 2)))
          (Cert.Spec.tR (x (ix2 r (0 : Fin 2))) (x (ix2 r (1 : Fin 2))) (t (ix2 r (0 : Fin 2))) (t (ix2 r (1 : Fin 2)))) q := by
  rw [passP_eq]
  show Host.dotGeneral dot_S4194304x8_S8x2_S4194304x2_1_0_0_1_n_n none (d2A x t W1 b1 W2 b2) W3 (ix2 r q) = _
  unfold Cert.Spec.dR
  rw [dotC_apply]
  refine Finset.sum_congr rfl fun k _ => ?_
  rw [d2A_apply x t W1 b1 W2 b2 W3 b3]
  rfl

end Cert.ReferenceIdeal.Chain

end
-- ==== Proof.RefTail.lean ====
import proofs.«114032_j50405736186087_1_alg».proof.ReferenceIdeal
import proofs.«114032_j50405736186087_1_alg».proof.Proof.Gen.ReferenceIdeal
import proofs.«114032_j50405736186087_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# From the Jacobian's columns to the result, on whole arrays

`detP d1 d2` is the reference's determinant array from the two tangent arrays (the Jacobian's columns), and
`tailP X psi d1 d2` its chain from there to the result: the adjugate divided entrywise by the determinant, the
right-hand side, the two batched products, the scaling by the time step and the update.
-/

noncomputable section

namespace Cert.ReferenceIdeal.Tail

open Cert.ReferenceIdeal Idealize.ShloMosaic Idealize.ShloMosaic.ValueIdx

variable [Facts]
open Facts₀ Facts

/-! ## The arrays of the chain, each the reference's own operation -/

/-- The `2 × 2` Jacobian per row: `L[·, i, 0] = d1[·, i]`, `L[·, i, 1] = d2[·, i]`. -/
def jacP (d1 d2 : FVec Ideal S4194304x2 .f32) : FVec Ideal S4194304x2x2 .f32 :=
  concatenate S4194304x2x2 2
    [⟨S4194304x2x1, broadcastInDim S4194304x2x1 ![0, 1] bcast_S4194304x2_S4194304x2x1_0_1 d1⟩,
     ⟨S4194304x2x1, broadcastInDim S4194304x2x1 ![0, 1] bcast_S4194304x2_S4194304x2x1_0_1 d2⟩]
    concatenates_S4194304x2x1_S4194304x2x1_S4194304x2x2_d2

/-- The entry `L[·, 0, 0]` as a vector over the rows. -/
def e00 (L : FVec Ideal S4194304x2x2 .f32) : FVec Ideal S4194304 .f32 :=
  shapeCast S4194304 (extractStridedSlice S4194304x1x1 ![0, 0, 0] L slices_S4194304x2x2_S4194304x1x1_0_0_0)
    shapeCasts_S4194304x1x1_S4194304

/-- The entry `L[·, 0, 1]`. -/
def e01 (L : FVec Ideal S4194304x2x2 .f32) : FVec Ideal S4194304 .f32 :=
  shapeCast S4194304 (extractStridedSlice S4194304x1x1 ![0, 0, 1] L slices_S4194304x2x2_S4194304x1x1_0_0_1)
    shapeCasts_S4194304x1x1_S4194304

/-- The entry `L[·, 1, 0]`. -/
def e10 (L : FVec Ideal S4194304x2x2 .f32) : FVec Ideal S4194304 .f32 :=
  shapeCast S4194304 (extractStridedSlice S4194304x1x1 ![0, 1, 0] L slices_S4194304x2x2_S4194304x1x1_0_1_0)
    shapeCasts_S4194304x1x1_S4194304

/-- The entry `L[·, 1, 1]`. -/
def e11 (L : FVec Ideal S4194304x2x2 .f32) : FVec Ideal S4194304 .f32 :=
  shapeCast S4194304 (extractStridedSlice S4194304x1x1 ![0, 1, 1] L slices_S4194304x2x2_S4194304x1x1_0_1_1)
    shapeCasts_S4194304x1x1_S4194304

/-- `L₀₀·L₁₁ - L₀₁·L₁₀` over the rows. -/
def detL (L : FVec Ideal S4194304x2x2 .f32) : FVec Ideal S4194304 .f32 :=
  subf (mulf (e00 L) (e11 L)) (mulf (e01 L) (e10 L))

/-- The determinant array `a·d - b·c`, `a = d1[:,0]`, `b = d2[:,0]`, `c = d1[:,1]`, `d = d2[:,1]`. -/
def detP (d1 d2 : FVec Ideal S4194304x2 .f32) : FVec Ideal S4194304 .f32 :=
  detL (jacP d1 d2)

/-- The adjugate `[[L₁₁, -L₀₁], [-L₁₀, L₀₀]]` per row. -/
def adjL (L : FVec Ideal S4194304x2x2 .f32) : FVec Ideal S4194304x2x2 .f32 :=
  concatenate S4194304x2x2 1
    [⟨S4194304x1x2, broadcastInDim S4194304x1x2 ![0, 2] bcast_S4194304x2_S4194304x1x2_0_2
        (concatenate S4194304x2 1
          [⟨S4194304x1, broadcastInDim S4194304x1 ![0] bcast_S4194304_S4194304x1_0 (e11 L)⟩,
           ⟨S4194304x1, broadcastInDim S4194304x1 ![0] bcast_S4194304_S4194304x1_0 (Host.negf (e01 L))⟩]
          concatenates_S4194304x1_S4194304x1_S4194304x2_d1)⟩,
     ⟨S4194304x1x2, broadcastInDim S4194304x1x2 ![0, 2] bcast_S4194304x2_S4194304x1x2_0_2
        (concatenate S4194304x2 1
          [⟨S4194304x1, broadcastInDim S4194304x1 ![0] bcast_S4194304_S4194304x1_0 (Host.negf (e10 L))⟩,
           ⟨S4194304x1, broadcastInDim S4194304x1 ![0] bcast_S4194304_S4194304x1_0 (e00 L)⟩]
          concatenates_S4194304x1_S4194304x1_S4194304x2_d1)⟩]
    concatenates_S4194304x1x2_S4194304x1x2_S4194304x2x2_d1

/-- The closed-form inverse per row: each adjugate entry divided by the determinant. -/
def invL (L : FVec Ideal S4194304x2x2 .f32) : FVec Ideal S4194304x2x2 .f32 :=
  Host.divf (adjL L)
    (broadcastInDim S4194304x2x2 ![0, 1, 2] bcast_S4194304x1x1_S4194304x2x2_0_1_2
      (broadcastInDim S4194304x1x1 ![0] bcast_S4194304_S4194304x1x1_0 (detL L)))

/-- `ψ` rotated, `[ψ₁, -ψ₀]`, as a column per row. -/
def rotP (psi : FVec Ideal S4194304x2 .f32) : FVec Ideal S4194304x2x1 .f32 :=
  broadcastInDim S4194304x2x1 ![0, 1] bcast_S4194304x2_S4194304x2x1_0_1
    (concatenate S4194304x2 1
      [⟨S4194304x1, extractStridedSlice S4194304x1 ![0, 1] psi slices_S4194304x2_S4194304x1_0_1⟩,
       ⟨S4194304x1, Host.negf (extractStridedSlice S4194304x1 ![0, 0] psi slices_S4194304x2_S4194304x1_0_0)⟩]
      concatenates_S4194304x1_S4194304x1_S4194304x2_d1)

/-- The switching-state column `[0, 560/3]`, the same at every row. -/
def swP : FVec Ideal S4194304x2x1 .f32 :=
  broadcastInDim S4194304x2x1 ![0, 1, 2] bcast_S1x2x1_S4194304x2x1_0_1_2
    (broadcastInDim S1x2x1 ![1, 2] bcast_S2x1_S1x2x1_1_2
      (fun i => FloatOps.ofBits (F := Ideal) .f32 (lit2 (S2x1.rowMajor i)) : FVec Ideal S2x1 .f32))

/-- The `2 × 4` coefficient matrix per row: two columns of the resistance coefficient, the switching-state column,
    the rotated `ψ` times the angular speed. -/
def coefP (psi : FVec Ideal S4194304x2 .f32) : FVec Ideal S4194304x2x4 .f32 :=
  concatenate S4194304x2x4 2
    [⟨S4194304x2x2, broadcastInDim S4194304x2x2 ![] bcast_S_S4194304x2x2 (constant (F := Ideal) S_ .f32 0xBE3851EC#32)⟩,
     ⟨S4194304x2x1, swP⟩,
     ⟨S4194304x2x1, mulf (rotP psi)
        (broadcastInDim S4194304x2x1 ![] bcast_S_S4194304x2x1 (constant (F := Ideal) S_ .f32 0x446B9E94#32))⟩]
    concatenates_S4194304x2x2_S4194304x2x1_S4194304x2x1_S4194304x2x4_d2

/-- The column `[x0, x1, x2, 1]` per row. -/
def colP (X : FVec Ideal S4194304x5 .f32) : FVec Ideal S4194304x4x1 .f32 :=
  broadcastInDim S4194304x4x1 ![0, 1] bcast_S4194304x4_S4194304x4x1_0_1
    (concatenate S4194304x4 1
      [⟨S4194304x3, extractStridedSlice S4194304x3 ![0, 0] X slices_S4194304x5_S4194304x3_0_0⟩,
       ⟨S4194304x1, broadcastInDim S4194304x1 ![] bcast_S_S4194304x1 (constant (F := Ideal) S_ .f32 0x3F800000#32)⟩]
      concatenates_S4194304x3_S4194304x1_S4194304x4_d1)

/-- The right-hand side per row: the coefficient matrix applied to the column. -/
def rhsP (X : FVec Ideal S4194304x5 .f32) (psi : FVec Ideal S4194304x2 .f32) : FVec Ideal S4194304x2x1 .f32 :=
  Host.dotGeneral dot_S4194304x2x4_S4194304x4x1_S4194304x2x1_2_1_1_2_0_0 none (coefP psi) (colP X)

/-- The result array from the input array, `ψ` and the Jacobian's two columns. -/
def tailP (X : FVec Ideal S4194304x5 .f32) (psi d1 d2 : FVec Ideal S4194304x2 .f32) : FVec Ideal S4194304x2 .f32 :=
  addf
    (mulf
      (shapeCast S4194304x2
        (Host.dotGeneral dot_S4194304x2x2_S4194304x2x1_S4194304x2x1_2_1_1_2_0_0 none (invL (jacP d1 d2)) (rhsP X psi))
        shapeCasts_S4194304x2x1_S4194304x2)
      (broadcastInDim S4194304x2 ![] bcast_S_S4194304x2 (constant (F := Ideal) S_ .f32 0x3851B717#32)))
    (extractStridedSlice S4194304x2 ![0, 0] X slices_S4194304x5_S4194304x2_0_0)

/-! ## Each array read at a row -/

section Reads

/-- A column array `[·, i]` given a trailing unit axis, read at `(r, i, 0)`. -/
theorem col_apply (x : FVec Ideal S4194304x2 .f32) (r : Fin 4194304) (i : Fin 2) (c : Fin 1) :
    broadcastInDim S4194304x2x1 ![0, 1] bcast_S4194304x2_S4194304x2x1_0_1 x (ix3 r i c) = x (ix2 r i) :=
  broadcastInDim_apply _ _ x (ix3 r i c) (ix2 r i) fun a => by
    match a with
    | ⟨0, _⟩ => rfl
    | ⟨1, _⟩ => rfl

theorem jacP_apply0 (d1 d2 : FVec Ideal S4194304x2 .f32) (r : Fin 4194304) (i : Fin 2) :
    jacP d1 d2 (ix3 r i (0 : Fin 2)) = d1 (ix2 r i) := by
  unfold jacP
  refine (concatenate_pair_apply_left (s₁ := S4194304x2x1) (s₂ := S4194304x2x1) (2 : Fin 3) _ _ _ (ix3 r i (0 : Fin 2)) rfl (ix3 r i (0 : Fin 1)) fun b => ?_).trans
    (col_apply d1 r i 0)
  match b with
  | ⟨0, _⟩ => rfl
  | ⟨1, _⟩ => rfl
  | ⟨2, _⟩ => rfl

theorem jacP_apply1 (d1 d2 : FVec Ideal S4194304x2 .f32) (r : Fin 4194304) (i : Fin 2) :
    jacP d1 d2 (ix3 r i (1 : Fin 2)) = d2 (ix2 r i) := by
  unfold jacP
  refine (concatenate_pair_apply_right (s₁ := S4194304x2x1) (s₂ := S4194304x2x1) (2 : Fin 3) _ _ _ (ix3 r i (1 : Fin 2)) rfl rfl (ix3 r i (0 : Fin 1)) (fun b hb => ?_) rfl).trans
    (col_apply d2 r i 0)
  match b with
  | ⟨0, _⟩ => rfl
  | ⟨1, _⟩ => rfl
  | ⟨2, _⟩ => exact absurd rfl hb

/-- The row-major position of `(r, 0, 0)` in `[·, 1, 1]` is `r`. -/
theorem rm111 (r : Fin 4194304) :
    (S4194304x1x1.rowMajor (ix3 r (0 : Fin 1) (0 : Fin 1))).val = (S4194304.rowMajor (ix1 r)).val := by
  rw [Shape.rowMajor_val_three, Shape.rowMajor_val_one]
  show (r.val * 1 + 0) * 1 + 0 = r.val
  omega

theorem e00_apply (L : FVec Ideal S4194304x2x2 .f32) (r : Fin 4194304) :
    e00 L (ix1 r) = L (ix3 r (0 : Fin 2) (0 : Fin 2)) := by
  unfold e00
  refine (shapeCast_apply _ _ (ix1 r) (ix3 r (0 : Fin 1) (0 : Fin 1)) (rm111 r)).trans ?_
  exact extractStridedSlice_apply _ L _ _ (ix3 r (0 : Fin 2) (0 : Fin 2)) fun a => by
    match a with
    | ⟨0, _⟩ => show r.val = 0 + r.val; omega
    | ⟨1, _⟩ => rfl
    | ⟨2, _⟩ => rfl

theorem e01_apply (L : FVec Ideal S4194304x2x2 .f32) (r : Fin 4194304) :
    e01 L (ix1 r) = L (ix3 r (0 : Fin 2) (1 : Fin 2)) := by
  unfold e01
  refine (shapeCast_apply _ _ (ix1 r) (ix3 r (0 : Fin 1) (0 : Fin 1)) (rm111 r)).trans ?_
  exact extractStridedSlice_apply _ L _ _ (ix3 r (0 : Fin 2) (1 : Fin 2)) fun a => by
    match a with
    | ⟨0, _⟩ => show r.val = 0 + r.val; omega
    | ⟨1, _⟩ => rfl
    | ⟨2, _⟩ => rfl

theorem e10_apply (L : FVec Ideal S4194304x2x2 .f32) (r : Fin 4194304) :
    e10 L (ix1 r) = L (ix3 r (1 : Fin 2) (0 : Fin 2)) := by
  unfold e10
  refine (shapeCast_apply _ _ (ix1 r) (ix3 r (0 : Fin 1) (0 : Fin 1)) (rm111 r)).trans ?_
  exact extractStridedSlice_apply _ L _ _ (ix3 r (1 : Fin 2) (0 : Fin 2)) fun a => by
    match a with
    | ⟨0, _⟩ => show r.val = 0 + r.val; omega
    | ⟨1, _⟩ => rfl
    | ⟨2, _⟩ => rfl

theorem e11_apply (L : FVec Ideal S4194304x2x2 .f32) (r : Fin 4194304) :
    e11 L (ix1 r) = L (ix3 r (1 : Fin 2) (1 : Fin 2)) := by
  unfold e11
  refine (shapeCast_apply _ _ (ix1 r) (ix3 r (0 : Fin 1) (0 : Fin 1)) (rm111 r)).trans ?_
  exact extractStridedSlice_apply _ L _ _ (ix3 r (1 : Fin 2) (1 : Fin 2)) fun a => by
    match a with
    | ⟨0, _⟩ => show r.val = 0 + r.val; omega
    | ⟨1, _⟩ => rfl
    | ⟨2, _⟩ => rfl

theorem detL_apply (L : FVec Ideal S4194304x2x2 .f32) (r : Fin 4194304) :
    detL L (ix1 r)
      = L (ix3 r (0 : Fin 2) (0 : Fin 2)) * L (ix3 r (1 : Fin 2) (1 : Fin 2))
        - L (ix3 r (0 : Fin 2) (1 : Fin 2)) * L (ix3 r (1 : Fin 2) (0 : Fin 2)) := by
  unfold detL
  rw [subf_apply, mulf_apply, mulf_apply, e00_apply, e11_apply, e01_apply, e10_apply]

end Reads

theorem detP_apply (d1 d2 : FVec Ideal S4194304x2 .f32) (r : Fin 4194304) :
    detP d1 d2 (ix1 r)
      = d1 (ix2 r (0 : Fin 2)) * d2 (ix2 r (1 : Fin 2)) - d2 (ix2 r (0 : Fin 2)) * d1 (ix2 r (1 : Fin 2)) := by
  unfold detP
  rw [detL_apply, jacP_apply0, jacP_apply1, jacP_apply1, jacP_apply0]

section Reads2

/-- A vector over the rows given a trailing unit axis, read at `(r, 0)`. -/
theorem vcol_apply (v : FVec Ideal S4194304 .f32) (r : Fin 4194304) (c : Fin 1) :
    broadcastInDim S4194304x1 ![0] bcast_S4194304_S4194304x1_0 v (ix2 r c) = v (ix1 r) :=
  broadcastInDim_apply _ _ v (ix2 r c) (ix1 r) fun a => by
    match a with
    | ⟨0, _⟩ => rfl

/-- Two one-column arrays side by side, read in the first column. -/
theorem pair_apply0 (u v : FVec Ideal S4194304x1 .f32) (r : Fin 4194304) :
    concatenate S4194304x2 1 [⟨S4194304x1, u⟩, ⟨S4194304x1, v⟩] concatenates_S4194304x1_S4194304x1_S4194304x2_d1
      (ix2 r (0 : Fin 2)) = u (ix2 r (0 : Fin 1)) := by
  refine concatenate_pair_apply_left (s₁ := S4194304x1) (s₂ := S4194304x1) (1 : Fin 2) _ _ _ (ix2 r (0 : Fin 2)) rfl (ix2 r (0 : Fin 1)) fun b => ?_
  match b with
  | ⟨0, _⟩ => rfl
  | ⟨1, _⟩ => rfl

/-- Two one-column arrays side by side, read in the second column. -/
theorem pair_apply1 (u v : FVec Ideal S4194304x1 .f32) (r : Fin 4194304) :
    concatenate S4194304x2 1 [⟨S4194304x1, u⟩, ⟨S4194304x1, v⟩] concatenates_S4194304x1_S4194304x1_S4194304x2_d1
      (ix2 r (1 : Fin 2)) = v (ix2 r (0 : Fin 1)) := by
  refine concatenate_pair_apply_right (s₁ := S4194304x1) (s₂ := S4194304x1) (1 : Fin 2) _ _ _ (ix2 r (1 : Fin 2)) rfl rfl (ix2 r (0 : Fin 1)) (fun b hb => ?_) rfl
  match b with
  | ⟨0, _⟩ => rfl
  | ⟨1, _⟩ => exact absurd rfl hb

/-- A two-column array given a middle unit axis, read at `(r, 0, j)`. -/
theorem row_apply (x : FVec Ideal S4194304x2 .f32) (r : Fin 4194304) (c : Fin 1) (j : Fin 2) :
    broadcastInDim S4194304x1x2 ![0, 2] bcast_S4194304x2_S4194304x1x2_0_2 x (ix3 r c j) = x (ix2 r j) :=
  broadcastInDim_apply _ _ x (ix3 r c j) (ix2 r j) fun a => by
    match a with
    | ⟨0, _⟩ => rfl
    | ⟨1, _⟩ => rfl

/-- Two one-row blocks stacked, read in the first row. -/
theorem stack_apply0 (u v : FVec Ideal S4194304x1x2 .f32) (r : Fin 4194304) (j : Fin 2) :
    concatenate S4194304x2x2 1 [⟨S4194304x1x2, u⟩, ⟨S4194304x1x2, v⟩] concatenates_S4194304x1x2_S4194304x1x2_S4194304x2x2_d1
      (ix3 r (0 : Fin 2) j) = u (ix3 r (0 : Fin 1) j) := by
  refine concatenate_pair_apply_left (s₁ := S4194304x1x2) (s₂ := S4194304x1x2) (1 : Fin 3) _ _ _ (ix3 r (0 : Fin 2) j) rfl (ix3 r (0 : Fin 1) j) fun b => ?_
  match b with
  | ⟨0, _⟩ => rfl
  | ⟨1, _⟩ => rfl
  | ⟨2, _⟩ => rfl

/-- Two one-row blocks stacked, read in the second row. -/
theorem stack_apply1 (u v : FVec Ideal S4194304x1x2 .f32) (r : Fin 4194304) (j : Fin 2) :
    concatenate S4194304x2x2 1 [⟨S4194304x1x2, u⟩, ⟨S4194304x1x2, v⟩] concatenates_S4194304x1x2_S4194304x1x2_S4194304x2x2_d1
      (ix3 r (1 : Fin 2) j) = v (ix3 r (0 : Fin 1) j) := by
  refine concatenate_pair_apply_right (s₁ := S4194304x1x2) (s₂ := S4194304x1x2) (1 : Fin 3) _ _ _ (ix3 r (1 : Fin 2) j) rfl rfl (ix3 r (0 : Fin 1) j) (fun b hb => ?_) rfl
  match b with
  | ⟨0, _⟩ => rfl
  | ⟨1, _⟩ => exact absurd rfl hb
  | ⟨2, _⟩ => rfl

theorem adjL_apply00 (L : FVec Ideal S4194304x2x2 .f32) (r : Fin 4194304) :
    adjL L (ix3 r (0 : Fin 2) (0 : Fin 2)) = L (ix3 r (1 : Fin 2) (1 : Fin 2)) := by
  unfold adjL
  rw [stack_apply0, row_apply, pair_apply0, vcol_apply, e11_apply]

theorem adjL_apply01 (L : FVec Ideal S4194304x2x2 .f32) (r : Fin 4194304) :
    adjL L (ix3 r (0 : Fin 2) (1 : Fin 2)) = -L (ix3 r (0 : Fin 2) (1 : Fin 2)) := by
  unfold adjL
  rw [stack_apply0, row_apply, pair_apply1, vcol_apply]
  show -(e01 L (ix1 r)) = _
  rw [e01_apply]

theorem adjL_apply10 (L : FVec Ideal S4194304x2x2 .f32) (r : Fin 4194304) :
    adjL L (ix3 r (1 : Fin 2) (0 : Fin 2)) = -L (ix3 r (1 : Fin 2) (0 : Fin 2)) := by
  unfold adjL
  rw [stack_apply1, row_apply, pair_apply0, vcol_apply]
  show -(e10 L (ix1 r)) = _
  rw [e10_apply]

theorem adjL_apply11 (L : FVec Ideal S4194304x2x2 .f32) (r : Fin 4194304) :
    adjL L (ix3 r (1 : Fin 2) (1 : Fin 2)) = L (ix3 r (0 : Fin 2) (0 : Fin 2)) := by
  unfold adjL
  rw [stack_apply1, row_apply, pair_apply1, vcol_apply, e00_apply]

/-- The determinant vector spread over the `2 × 2` block of its row. -/
theorem spread_apply (v : FVec Ideal S4194304 .f32) (r : Fin 4194304) (i j : Fin 2) :
    broadcastInDim S4194304x2x2 ![0, 1, 2] bcast_S4194304x1x1_S4194304x2x2_0_1_2
      (broadcastInDim S4194304x1x1 ![0] bcast_S4194304_S4194304x1x1_0 v) (ix3 r i j) = v (ix1 r) := by
  refine (broadcastInDim_apply _ _ _ (ix3 r i j) (ix3 r (0 : Fin 1) (0 : Fin 1)) fun a => ?_).trans
    (broadcastInDim_apply _ _ v (ix3 r (0 : Fin 1) (0 : Fin 1)) (ix1 r) fun a => ?_)
  · match a with
    | ⟨0, _⟩ => rfl
    | ⟨1, _⟩ => rfl
    | ⟨2, _⟩ => rfl
  · match a with
    | ⟨0, _⟩ => rfl

theorem invL_apply (L : FVec Ideal S4194304x2x2 .f32) (r : Fin 4194304) (i j : Fin 2) :
    invL L (ix3 r i j) = Ideal.div (adjL L (ix3 r i j)) (detL L (ix1 r)) := by
  unfold invL
  show Ideal.div (adjL L (ix3 r i j)) _ = _
  rw [spread_apply]

end Reads2

section Reads3

/-- The first column of a two-column array as a one-column array. -/
theorem sl0_apply (x : FVec Ideal S4194304x2 .f32) (r : Fin 4194304) :
    extractStridedSlice S4194304x1 ![0, 0] x slices_S4194304x2_S4194304x1_0_0 (ix2 r (0 : Fin 1)) = x (ix2 r (0 : Fin 2)) :=
  extractStridedSlice_apply _ x _ (ix2 r (0 : Fin 1)) (ix2 r (0 : Fin 2)) fun a => by
    match a with
    | ⟨0, _⟩ => show r.val = 0 + r.val; omega
    | ⟨1, _⟩ => rfl

/-- The second column of a two-column array as a one-column array. -/
theorem sl1_apply (x : FVec Ideal S4194304x2 .f32) (r : Fin 4194304) :
    extractStridedSlice S4194304x1 ![0, 1] x slices_S4194304x2_S4194304x1_0_1 (ix2 r (0 : Fin 1)) = x (ix2 r (1 : Fin 2)) :=
  extractStridedSlice_apply _ x _ (ix2 r (0 : Fin 1)) (ix2 r (1 : Fin 2)) fun a => by
    match a with
    | ⟨0, _⟩ => show r.val = 0 + r.val; omega
    | ⟨1, _⟩ => rfl

theorem rotP_apply0 (psi : FVec Ideal S4194304x2 .f32) (r : Fin 4194304) :
    rotP psi (ix3 r (0 : Fin 2) (0 : Fin 1)) = psi (ix2 r (1 : Fin 2)) := by
  unfold rotP
  rw [col_apply, pair_apply0, sl1_apply]

theorem rotP_apply1 (psi : FVec Ideal S4194304x2 .f32) (r : Fin 4194304) :
    rotP psi (ix3 r (1 : Fin 2) (0 : Fin 1)) = -psi (ix2 r (0 : Fin 2)) := by
  unfold rotP
  rw [col_apply, pair_apply1]
  show -(extractStridedSlice S4194304x1 ![0, 0] psi slices_S4194304x2_S4194304x1_0_0 (ix2 r (0 : Fin 1))) = _
  rw [sl0_apply]

/-- The switching-state column read at `(r, i, 0)` is the literal column's entry `i`. -/
theorem swP_lit (r : Fin 4194304) (i : Fin 2) :
    swP (ix3 r i (0 : Fin 1)) = Ideal.ofBits .f32 (lit2 (S2x1.rowMajor (ix2 i (0 : Fin 1)))) := by
  unfold swP
  refine (broadcastInDim_apply _ _ _ (ix3 r i (0 : Fin 1)) (ix3 (0 : Fin 1) i (0 : Fin 1)) fun a => ?_).trans
    (broadcastInDim_apply _ _ _ (ix3 (0 : Fin 1) i (0 : Fin 1)) (ix2 i (0 : Fin 1)) fun a => ?_)
  · match a with
    | ⟨0, _⟩ => rfl
    | ⟨1, _⟩ => rfl
    | ⟨2, _⟩ => rfl
  · match a with
    | ⟨0, _⟩ => rfl
    | ⟨1, _⟩ => rfl

theorem swP_apply0 (r : Fin 4194304) : swP (ix3 r (0 : Fin 2) (0 : Fin 1)) = 0 := by
  rw [swP_lit]
  have h : S2x1.rowMajor (ix2 (0 : Fin 2) (0 : Fin 1)) = (⟨0, by decide⟩ : Fin S2x1.numel) :=
    Fin.ext (by rw [Shape.rowMajor_val_two]; rfl)
  rw [h]
  exact Ideal.ofBits_zero_f32

theorem swP_apply1 (r : Fin 4194304) : swP (ix3 r (1 : Fin 2) (0 : Fin 1)) = Cert.Spec.cS := by
  rw [swP_lit]
  have h : S2x1.rowMajor (ix2 (1 : Fin 2) (0 : Fin 1)) = (⟨1, by decide⟩ : Fin S2x1.numel) :=
    Fin.ext (by rw [Shape.rowMajor_val_two]; rfl)
  rw [h]
  rfl

/-- A scalar spread over the `2 × 2` blocks. -/
theorem splat22_apply (c : FVec Ideal S_ .f32) (j : S4194304x2x2.Idx) :
    broadcastInDim S4194304x2x2 ![] bcast_S_S4194304x2x2 c j = c ix0 :=
  broadcastInDim_apply _ _ c j ix0 fun a => a.elim0

/-- A scalar spread over the `2 × 1` columns. -/
theorem splat21_apply (c : FVec Ideal S_ .f32) (j : S4194304x2x1.Idx) :
    broadcastInDim S4194304x2x1 ![] bcast_S_S4194304x2x1 c j = c ix0 :=
  broadcastInDim_apply _ _ c j ix0 fun a => a.elim0

/-- A scalar spread over a one-column array. -/
theorem splat1_apply (c : FVec Ideal S_ .f32) (j : S4194304x1.Idx) :
    broadcastInDim S4194304x1 ![] bcast_S_S4194304x1 c j = c ix0 :=
  broadcastInDim_apply _ _ c j ix0 fun a => a.elim0

/-- A scalar spread over a two-column array. -/
theorem splat2_apply (c : FVec Ideal S_ .f32) (j : S4194304x2.Idx) :
    broadcastInDim S4194304x2 ![] bcast_S_S4194304x2 c j = c ix0 :=
  broadcastInDim_apply _ _ c j ix0 fun a => a.elim0

/-- The coefficient matrix's first two columns hold the resistance coefficient. -/
theorem coefP_apply_lo (psi : FVec Ideal S4194304x2 .f32) (r : Fin 4194304) (i k : Fin 2) (k' : Fin 4) (hk : k'.val = k.val) :
    coefP psi (ix3 r i k') = Cert.Spec.cR := by
  unfold coefP
  refine (concatenate_apply_piece (2 : Fin 3)
    [⟨S4194304x2x2, _⟩, ⟨S4194304x2x1, _⟩, ⟨S4194304x2x1, _⟩] _ (ix3 r i k') 0 (by exact Nat.zero_lt_succ _) S4194304x2x2 _ rfl rfl 0 rfl
    (ix3 r i k) ?_ ?_).trans ?_
  · intro b hb
    match b with
    | ⟨0, _⟩ => rfl
    | ⟨1, _⟩ => rfl
    | ⟨2, _⟩ => exact absurd rfl hb
  · show 0 + k.val = k'.val
    omega
  · rw [splat22_apply]; rfl

/-- Its third column is the switching-state column. -/
theorem coefP_apply2 (psi : FVec Ideal S4194304x2 .f32) (r : Fin 4194304) (i : Fin 2) :
    coefP psi (ix3 r i (2 : Fin 4)) = swP (ix3 r i (0 : Fin 1)) := by
  unfold coefP
  refine concatenate_apply_piece (2 : Fin 3)
    [⟨S4194304x2x2, _⟩, ⟨S4194304x2x1, _⟩, ⟨S4194304x2x1, _⟩] _ (ix3 r i (2 : Fin 4)) 1 (by exact Nat.succ_lt_succ (Nat.zero_lt_succ _)) S4194304x2x1 _ rfl rfl 2 ?_
    (ix3 r i (0 : Fin 1)) ?_ ?_
  · rfl
  · intro b hb
    match b with
    | ⟨0, _⟩ => rfl
    | ⟨1, _⟩ => rfl
    | ⟨2, _⟩ => exact absurd rfl hb
  · rfl

/-- Its fourth column is the rotated `ψ` times the angular speed. -/
theorem coefP_apply3 (psi : FVec Ideal S4194304x2 .f32) (r : Fin 4194304) (i : Fin 2) :
    coefP psi (ix3 r i (3 : Fin 4)) = rotP psi (ix3 r i (0 : Fin 1)) * Cert.Spec.cW := by
  unfold coefP
  refine (concatenate_apply_piece (2 : Fin 3)
    [⟨S4194304x2x2, _⟩, ⟨S4194304x2x1, _⟩, ⟨S4194304x2x1, _⟩] _ (ix3 r i (3 : Fin 4)) 2 (by exact Nat.succ_lt_succ (Nat.succ_lt_succ (Nat.zero_lt_succ _))) S4194304x2x1 _ rfl rfl 3 ?_
    (ix3 r i (0 : Fin 1)) ?_ ?_).trans ?_
  · rfl
  · intro b hb
    match b with
    | ⟨0, _⟩ => rfl
    | ⟨1, _⟩ => rfl
    | ⟨2, _⟩ => exact absurd rfl hb
  · rfl
  · rw [mulf_apply, splat21_apply]; rfl

/-- The first three columns of the input array. -/
theorem sl3_apply (X : FVec Ideal S4194304x5 .f32) (r : Fin 4194304) (k : Fin 3) (k' : Fin 5) (hk : k'.val = k.val) :
    extractStridedSlice S4194304x3 ![0, 0] X slices_S4194304x5_S4194304x3_0_0 (ix2 r k) = X (ix2 r k') :=
  extractStridedSlice_apply _ X _ (ix2 r k) (ix2 r k') fun a => by
    match a with
    | ⟨0, _⟩ => show r.val = 0 + r.val; omega
    | ⟨1, _⟩ => show k'.val = 0 + k.val; omega

/-- The column `[x0, x1, x2, 1]`: its first three entries. -/
theorem colP_apply_lo (X : FVec Ideal S4194304x5 .f32) (r : Fin 4194304) (k : Fin 3) (k4 : Fin 4) (k5 : Fin 5)
    (h4 : k4.val = k.val) (h5 : k5.val = k.val) :
    colP X (ix3 r k4 (0 : Fin 1)) = X (ix2 r k5) := by
  unfold colP
  refine (broadcastInDim_apply _ _ _ (ix3 r k4 (0 : Fin 1)) (ix2 r k4) fun a => ?_).trans ?_
  · match a with
    | ⟨0, _⟩ => rfl
    | ⟨1, _⟩ => rfl
  refine (concatenate_pair_apply_left (s₁ := S4194304x3) (s₂ := S4194304x1) (1 : Fin 2) _ _ _ (ix2 r k4) rfl (ix2 r k) fun b => ?_).trans (sl3_apply X r k k5 h5)
  match b with
  | ⟨0, _⟩ => rfl
  | ⟨1, _⟩ => exact h4.symm

/-- Its last entry is `1`. -/
theorem colP_apply3 (X : FVec Ideal S4194304x5 .f32) (r : Fin 4194304) :
    colP X (ix3 r (3 : Fin 4) (0 : Fin 1)) = Cert.Spec.c1 := by
  unfold colP
  refine (broadcastInDim_apply _ _ _ (ix3 r (3 : Fin 4) (0 : Fin 1)) (ix2 r (3 : Fin 4)) fun a => ?_).trans ?_
  · match a with
    | ⟨0, _⟩ => rfl
    | ⟨1, _⟩ => rfl
  refine (concatenate_pair_apply_right (s₁ := S4194304x3) (s₂ := S4194304x1) (1 : Fin 2) _ _ _ (ix2 r (3 : Fin 4)) rfl rfl (ix2 r (0 : Fin 1)) (fun b hb => ?_) rfl).trans ?_
  · match b with
    | ⟨0, _⟩ => rfl
    | ⟨1, _⟩ => exact absurd rfl hb
  · rw [splat1_apply]; rfl

end Reads3

section Products

/-- The batched product `[·, 2, 4] × [·, 4, 1]`, one contracted axis of extent 4. -/
abbrev D4 : DotDims S4194304x2x4 S4194304x4x1 S4194304x2x1 := dot_S4194304x2x4_S4194304x4x1_S4194304x2x1_2_1_1_2_0_0

/-- The batched product `[·, 2, 2] × [·, 2, 1]`, one contracted axis of extent 2. -/
abbrev D2 : DotDims S4194304x2x2 S4194304x2x1 S4194304x2x1 := dot_S4194304x2x2_S4194304x2x1_S4194304x2x1_2_1_1_2_0_0

theorem D4_lhs0 (j : S4194304x2x1.Idx) (q : D4.contr.Idx) : (D4.lhsIdx j q 0).val = (j 0).val := by
  unfold DotDims.lhsIdx
  rw [dif_pos (show (0 : Fin S4194304x2x4.rank) ∈ D4.lhsBatch by decide)]
  rfl

theorem D4_lhs1 (j : S4194304x2x1.Idx) (q : D4.contr.Idx) : (D4.lhsIdx j q 1).val = (j 1).val := by
  unfold DotDims.lhsIdx
  rw [dif_neg (show ¬(1 : Fin S4194304x2x4.rank) ∈ D4.lhsBatch by decide),
    dif_pos (show (1 : Fin S4194304x2x4.rank) ∈ D4.lhsNonContracting by decide)]
  rfl

theorem D4_lhs2 (j : S4194304x2x1.Idx) (q : D4.contr.Idx) : (D4.lhsIdx j q 2).val = (q ⟨0, by decide⟩).val :=
  D4.lhsIdx_val_of_single rfl j q

theorem D4_rhs0 (j : S4194304x2x1.Idx) (q : D4.contr.Idx) : (D4.rhsIdx j q 0).val = (j 0).val := by
  unfold DotDims.rhsIdx
  rw [dif_pos (show (0 : Fin S4194304x4x1.rank) ∈ D4.rhsBatch by decide)]
  rfl

theorem D4_rhs1 (j : S4194304x2x1.Idx) (q : D4.contr.Idx) : (D4.rhsIdx j q 1).val = (q ⟨0, by decide⟩).val :=
  D4.rhsIdx_val_of_single rfl j q

theorem D4_rhs2 (j : S4194304x2x1.Idx) (q : D4.contr.Idx) : (D4.rhsIdx j q 2).val = (j 2).val := by
  unfold DotDims.rhsIdx
  rw [dif_neg (show ¬(2 : Fin S4194304x4x1.rank) ∈ D4.rhsBatch by decide),
    dif_pos (show (2 : Fin S4194304x4x1.rank) ∈ D4.rhsNonContracting by decide)]
  rfl

/-- The product read at `(r, i, 0)` is row `i` of the left block times the right column, four terms. -/
theorem dot4_apply (A : FVec Ideal S4194304x2x4 .f32) (B : FVec Ideal S4194304x4x1 .f32) (r : Fin 4194304) (i : Fin 2) :
    Host.dotGeneral D4 none A B (ix3 r i (0 : Fin 1)) = ∑ k : Fin 4, A (ix3 r i k) * B (ix3 r k (0 : Fin 1)) := by
  simp only [Host.dotGeneral]
  rw [Ideal.dotGeneral_apply, ← Equiv.sum_comp (contrEquiv1 D4 4 rfl rfl).symm]
  refine Finset.sum_congr rfl fun k _ => ?_
  have hk := contrEquiv1_symm_val D4 4 rfl rfl k
  have el : D4.lhsIdx (ix3 r i (0 : Fin 1)) ((contrEquiv1 D4 4 rfl rfl).symm k) = ix3 r i k :=
    funext fun a => Fin.ext (by
      match a with
      | ⟨0, _⟩ => exact D4_lhs0 _ _
      | ⟨1, _⟩ => exact D4_lhs1 _ _
      | ⟨2, _⟩ => exact (D4_lhs2 _ _).trans hk)
  have er : D4.rhsIdx (ix3 r i (0 : Fin 1)) ((contrEquiv1 D4 4 rfl rfl).symm k) = ix3 r k (0 : Fin 1) :=
    funext fun a => Fin.ext (by
      match a with
      | ⟨0, _⟩ => exact D4_rhs0 _ _
      | ⟨1, _⟩ => exact (D4_rhs1 _ _).trans hk
      | ⟨2, _⟩ => exact D4_rhs2 _ _)
  rw [el, er]

theorem D2_lhs0 (j : S4194304x2x1.Idx) (q : D2.contr.Idx) : (D2.lhsIdx j q 0).val = (j 0).val := by
  unfold DotDims.lhsIdx
  rw [dif_pos (show (0 : Fin S4194304x2x2.rank) ∈ D2.lhsBatch by decide)]
  rfl

theorem D2_lhs1 (j : S4194304x2x1.Idx) (q : D2.contr.Idx) : (D2.lhsIdx j q 1).val = (j 1).val := by
  unfold DotDims.lhsIdx
  rw [dif_neg (show ¬(1 : Fin S4194304x2x2.rank) ∈ D2.lhsBatch by decide),
    dif_pos (show (1 : Fin S4194304x2x2.rank) ∈ D2.lhsNonContracting by decide)]
  rfl

theorem D2_lhs2 (j : S4194304x2x1.Idx) (q : D2.contr.Idx) : (D2.lhsIdx j q 2).val = (q ⟨0, by decide⟩).val :=
  D2.lhsIdx_val_of_single rfl j q

theorem D2_rhs0 (j : S4194304x2x1.Idx) (q : D2.contr.Idx) : (D2.rhsIdx j q 0).val = (j 0).val := by
  unfold DotDims.rhsIdx
  rw [dif_pos (show (0 : Fin S4194304x2x1.rank) ∈ D2.rhsBatch by decide)]
  rfl

theorem D2_rhs1 (j : S4194304x2x1.Idx) (q : D2.contr.Idx) : (D2.rhsIdx j q 1).val = (q ⟨0, by decide⟩).val :=
  D2.rhsIdx_val_of_single rfl j q

theorem D2_rhs2 (j : S4194304x2x1.Idx) (q : D2.contr.Idx) : (D2.rhsIdx j q 2).val = (j 2).val := by
  unfold DotDims.rhsIdx
  rw [dif_neg (show ¬(2 : Fin S4194304x2x1.rank) ∈ D2.rhsBatch by decide),
    dif_pos (show (2 : Fin S4194304x2x1.rank) ∈ D2.rhsNonContracting by decide)]
  rfl

/-- The product read at `(r, i, 0)` is row `i` of the left block times the right column, two terms. -/
theorem dot2_apply (A : FVec Ideal S4194304x2x2 .f32) (B : FVec Ideal S4194304x2x1 .f32) (r : Fin 4194304) (i : Fin 2) :
    Host.dotGeneral D2 none A B (ix3 r i (0 : Fin 1)) = ∑ k : Fin 2, A (ix3 r i k) * B (ix3 r k (0 : Fin 1)) := by
  simp only [Host.dotGeneral]
  rw [Ideal.dotGeneral_apply, ← Equiv.sum_comp (contrEquiv1 D2 2 rfl rfl).symm]
  refine Finset.sum_congr rfl fun k _ => ?_
  have hk := contrEquiv1_symm_val D2 2 rfl rfl k
  have el : D2.lhsIdx (ix3 r i (0 : Fin 1)) ((contrEquiv1 D2 2 rfl rfl).symm k) = ix3 r i k :=
    funext fun a => Fin.ext (by
      match a with
      | ⟨0, _⟩ => exact D2_lhs0 _ _
      | ⟨1, _⟩ => exact D2_lhs1 _ _
      | ⟨2, _⟩ => exact (D2_lhs2 _ _).trans hk)
  have er : D2.rhsIdx (ix3 r i (0 : Fin 1)) ((contrEquiv1 D2 2 rfl rfl).symm k) = ix3 r k (0 : Fin 1) :=
    funext fun a => Fin.ext (by
      match a with
      | ⟨0, _⟩ => exact D2_rhs0 _ _
      | ⟨1, _⟩ => exact (D2_rhs1 _ _).trans hk
      | ⟨2, _⟩ => exact D2_rhs2 _ _)
  rw [el, er]

end Products

section Assembly

/-- An index in `Fin 2` is `0` or `1`. -/
theorem fin2_cases : ∀ q : Fin 2, q = 0 ∨ q = 1 := by decide

/-- The closed-form inverse of the Jacobian read at `(r, i, j)`. -/
theorem invL_jac_apply (d1 d2 : FVec Ideal S4194304x2 .f32) (r : Fin 4194304) (i j : Fin 2) :
    invL (jacP d1 d2) (ix3 r i j)
      = Cert.Spec.invLS (d1 (ix2 r (0 : Fin 2))) (d2 (ix2 r (0 : Fin 2))) (d1 (ix2 r (1 : Fin 2))) (d2 (ix2 r (1 : Fin 2))) i j := by
  rw [invL_apply, detL_apply]
  unfold Cert.Spec.invLS
  rcases fin2_cases i with rfl | rfl <;> rcases fin2_cases j with rfl | rfl
  · rw [adjL_apply00]; simp only [jacP_apply0, jacP_apply1]; rfl
  · rw [adjL_apply01]; simp only [jacP_apply0, jacP_apply1]; rfl
  · rw [adjL_apply10]; simp only [jacP_apply0, jacP_apply1]; rfl
  · rw [adjL_apply11]; simp only [jacP_apply0, jacP_apply1]; rfl

/-- The right-hand side read at `(r, i, 0)`. -/
theorem rhsP_apply (X : FVec Ideal S4194304x5 .f32) (psi : FVec Ideal S4194304x2 .f32) (r : Fin 4194304) (i : Fin 2) :
    rhsP X psi (ix3 r i (0 : Fin 1))
      = Cert.Spec.rS (psi (ix2 r (0 : Fin 2))) (psi (ix2 r (1 : Fin 2)))
          (X (ix2 r (0 : Fin 5))) (X (ix2 r (1 : Fin 5))) (X (ix2 r (2 : Fin 5))) i := by
  unfold rhsP
  rw [show dot_S4194304x2x4_S4194304x4x1_S4194304x2x1_2_1_1_2_0_0 = D4 from rfl, dot4_apply]
  unfold Cert.Spec.rS
  rw [Fin.sum_univ_four, Fin.sum_univ_four,
    coefP_apply_lo psi r i (0 : Fin 2) (0 : Fin 4) rfl, coefP_apply_lo psi r i (1 : Fin 2) (1 : Fin 4) rfl,
    coefP_apply2, coefP_apply3,
    colP_apply_lo X r (0 : Fin 3) (0 : Fin 4) (0 : Fin 5) rfl rfl, colP_apply_lo X r (1 : Fin 3) (1 : Fin 4) (1 : Fin 5) rfl rfl,
    colP_apply_lo X r (2 : Fin 3) (2 : Fin 4) (2 : Fin 5) rfl rfl, colP_apply3]
  rcases fin2_cases i with rfl | rfl
  · rw [swP_apply0, rotP_apply0]; rfl
  · rw [swP_apply1, rotP_apply1]; rfl

/-- The row-major position of `(r, q, 0)` in `[·, 2, 1]` is that of `(r, q)` in `[·, 2]`. -/
theorem rm21 (r : Fin 4194304) (q : Fin 2) :
    (S4194304x2x1.rowMajor (ix3 r q (0 : Fin 1))).val = (S4194304x2.rowMajor (ix2 r q)).val := by
  rw [Shape.rowMajor_val_three, Shape.rowMajor_val_two]
  show (r.val * 2 + q.val) * 1 + 0 = r.val * 2 + q.val
  omega

/-- The first two columns of the input array. -/
theorem sl2_apply (X : FVec Ideal S4194304x5 .f32) (r : Fin 4194304) (q : Fin 2) (q' : Fin 5) (hq : q'.val = q.val) :
    extractStridedSlice S4194304x2 ![0, 0] X slices_S4194304x5_S4194304x2_0_0 (ix2 r q) = X (ix2 r q') :=
  extractStridedSlice_apply _ X _ (ix2 r q) (ix2 r q') fun a => by
    match a with
    | ⟨0, _⟩ => show r.val = 0 + r.val; omega
    | ⟨1, _⟩ => show q'.val = 0 + q.val; omega

end Assembly

theorem tailP_apply (X : FVec Ideal S4194304x5 .f32) (psi d1 d2 : FVec Ideal S4194304x2 .f32) (r : Fin 4194304) (q : Fin 2) :
    tailP X psi d1 d2 (ix2 r q)
      = Cert.Spec.solveR (d1 (ix2 r (0 : Fin 2))) (d2 (ix2 r (0 : Fin 2))) (d1 (ix2 r (1 : Fin 2))) (d2 (ix2 r (1 : Fin 2)))
          (psi (ix2 r (0 : Fin 2))) (psi (ix2 r (1 : Fin 2)))
          (X (ix2 r (0 : Fin 5))) (X (ix2 r (1 : Fin 5))) (X (ix2 r (2 : Fin 5))) q := by
  have hA : shapeCast S4194304x2
        (Host.dotGeneral dot_S4194304x2x2_S4194304x2x1_S4194304x2x1_2_1_1_2_0_0 none (invL (jacP d1 d2)) (rhsP X psi))
        shapeCasts_S4194304x2x1_S4194304x2 (ix2 r q)
      = ∑ j : Fin 2,
          Cert.Spec.invLS (d1 (ix2 r (0 : Fin 2))) (d2 (ix2 r (0 : Fin 2))) (d1 (ix2 r (1 : Fin 2))) (d2 (ix2 r (1 : Fin 2))) q j
            * Cert.Spec.rS (psi (ix2 r (0 : Fin 2))) (psi (ix2 r (1 : Fin 2)))
                (X (ix2 r (0 : Fin 5))) (X (ix2 r (1 : Fin 5))) (X (ix2 r (2 : Fin 5))) j := by
    rw [shapeCast_apply _ _ (ix2 r q) (ix3 r q (0 : Fin 1)) (rm21 r q),
      show dot_S4194304x2x2_S4194304x2x1_S4194304x2x1_2_1_1_2_0_0 = D2 from rfl, dot2_apply]
    exact Finset.sum_congr rfl fun j _ => by rw [invL_jac_apply, rhsP_apply]
  have hB : extractStridedSlice S4194304x2 ![0, 0] X slices_S4194304x5_S4194304x2_0_0 (ix2 r q)
      = (![X (ix2 r (0 : Fin 5)), X (ix2 r (1 : Fin 5))] : Fin 2 → EReal) q := by
    rcases fin2_cases q with rfl | rfl
    · exact sl2_apply X r (0 : Fin 2) (0 : Fin 5) rfl
    · exact sl2_apply X r (1 : Fin 2) (1 : Fin 5) rfl
  unfold tailP Cert.Spec.solveR
  rw [addf_apply, mulf_apply, splat2_apply, hA, hB]
  rfl

end Cert.ReferenceIdeal.Tail

end
-- ==== Proof.RefValue.lean ====
import proofs.«114032_j50405736186087_1_alg».proof.Proof.RefRun
import proofs.«114032_j50405736186087_1_alg».proof.Proof.RefChain
import proofs.«114032_j50405736186087_1_alg».proof.Proof.RefTail
import proofs.«114032_j50405736186087_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

/-!
# The idealized reference's result array, entry by entry

The reference pushes the two unit tangents `(1, 0)` and `(0, 1)` through the network from the first two columns of
the input, keeps `ψ` from the first push, and hands `ψ` and the two tangents of `ψ` (the Jacobian's columns) to the
closed-form solve. Entry by entry that is the second arrangement of the row's arithmetic.
-/

noncomputable section

namespace Cert.ReferenceIdeal.RefValue

open Cert.ReferenceIdeal Idealize.ShloMosaic Idealize.ShloMosaic.TcCoe Idealize.ShloMosaic.StableHlo Idealize.SL.Sem
open Idealize.ShloMosaic.ValueIdx

variable [Facts]
open Facts₀ Facts

/-- The unit tangent along the first coordinate, at every row. -/
def e1 : FVec Ideal S4194304x2 .f32 :=
  broadcastInDim S4194304x2 ![1] bcast_S2_S4194304x2_1 (fun i => FloatOps.ofBits .f32 (lit0 (S2.rowMajor i)))

/-- The unit tangent along the second coordinate, at every row. -/
def e2 : FVec Ideal S4194304x2 .f32 :=
  broadcastInDim S4194304x2 ![1] bcast_S2_S4194304x2_1 (fun i => FloatOps.ofBits .f32 (lit1 (S2.rowMajor i)))

/-- The first two columns of the input. -/
def cols01 (X : FVec Ideal S4194304x5 .f32) : FVec Ideal S4194304x2 .f32 :=
  extractStridedSlice S4194304x2 ![0, 0] X slices_S4194304x5_S4194304x2_0_0

/-- The reference's result as one function of its argument arrays. -/
def refOut (X : FVec Ideal S4194304x5 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) :
    FVec Ideal S4194304x2 .f32 :=
  Tail.tailP X (Chain.passP (cols01 X) e1 W1 b1 W2 b2 W3 b3).1 (Chain.passP (cols01 X) e1 W1 b1 W2 b2 W3 b3).2
    (Chain.passP (cols01 X) e2 W1 b1 W2 b2 W3 b3).2

theorem cols01_apply (X : FVec Ideal S4194304x5 .f32) (r : Fin 4194304) (q : Fin 2) :
    cols01 X (ix2 r q) = X (ix2 r ⟨q.val, by omega⟩) := by
  unfold cols01
  refine extractStridedSlice_apply ![0, 0] X slices_S4194304x5_S4194304x2_0_0 (ix2 r q) (ix2 r ⟨q.val, by omega⟩) fun a => ?_
  match a with
  | ⟨0, _⟩ => simp
  | ⟨1, _⟩ => simp

/-- A length-2 vector broadcast along the rows, read at row `r`, column `q`. -/
theorem bcastRow_apply (v : FVec Ideal S2 .f32) (r : Fin 4194304) (q : Fin 2) :
    broadcastInDim S4194304x2 ![1] bcast_S2_S4194304x2_1 v (ix2 r q) = v (ix1 q) := by
  refine broadcastInDim_apply ![1] bcast_S2_S4194304x2_1 v (ix2 r q) (ix1 q) fun a => ?_
  match a with
  | ⟨0, _⟩ => simp

theorem e1_apply (r : Fin 4194304) : e1 (ix2 r (0 : Fin 2)) = Cert.Spec.c1 ∧ e1 (ix2 r (1 : Fin 2)) = 0 := by
  unfold e1
  rw [bcastRow_apply, bcastRow_apply]
  refine ⟨rfl, ?_⟩
  show Ideal.ofBits .f32 0x00000000#32 = 0
  exact Ideal.ofBits_zero_f32

theorem e2_apply (r : Fin 4194304) : e2 (ix2 r (0 : Fin 2)) = 0 ∧ e2 (ix2 r (1 : Fin 2)) = Cert.Spec.c1 := by
  unfold e2
  rw [bcastRow_apply, bcastRow_apply]
  refine ⟨?_, rfl⟩
  show Ideal.ofBits .f32 0x00000000#32 = 0
  exact Ideal.ofBits_zero_f32

/-- Entry by entry the reference's result is the second arrangement. -/
theorem refOut_eq_GR (X : FVec Ideal S4194304x5 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) :
    refOut X W1 b1 W2 b2 W3 b3 = Cert.Spec.GR X W1 b1 W2 b2 W3 b3 := by
  funext i
  obtain ⟨r, q, rfl⟩ : ∃ (r : Fin 4194304) (q : Fin 2), i = ix2 r q := ⟨i 0, i 1, eq_ix2 i⟩
  unfold refOut
  rw [Tail.tailP_apply]
  simp only [Chain.passP_fst_apply, Chain.passP_snd_apply]
  have hx0 : cols01 X (ix2 r (0 : Fin 2)) = X (ix2 r (0 : Fin 5)) := cols01_apply X r 0
  have hx1 : cols01 X (ix2 r (1 : Fin 2)) = X (ix2 r (1 : Fin 5)) := cols01_apply X r 1
  rw [hx0, hx1, (e1_apply r).1, (e1_apply r).2, (e2_apply r).1, (e2_apply r).2]
  rfl

end Cert.ReferenceIdeal.RefValue

end
-- ==== Proof.RefStretches.lean ====
import proofs.«114032_j50405736186087_1_alg».proof.Proof.RefValue

/-!
# The reference's operations in four stretches

The constants and the input's first two columns; the first push; the second push; the solve. The fold over the first
stretch, from any contents, leaves the first two columns, the two unit tangents and the switching-state column in their
buffers and every argument alone.
-/

set_option maxRecDepth 16384
set_option Elab.async false

noncomputable section

namespace Cert.ReferenceIdeal.RefResult

open Cert.ReferenceIdeal Idealize.ShloMosaic Idealize.ShloMosaic.TcCoe Idealize.ShloMosaic.StableHlo Idealize.SL.Sem
open Cert.ReferenceIdeal.RefRun Cert.ReferenceIdeal.RefValue

variable [Facts]
open Facts₀ Facts

/-! ## The operations in four stretches -/

section Stretches

variable {F : FTy → Type} [FloatOps F]

/-- The three dense constants, the switching-state column's first broadcast, the input's first two columns and the two
    unit tangents. -/
abbrev seg1 : List (HloOp τ sig (Elt F)) :=
  [ StableHlo.nullary main_cst (fun i => FloatOps.ofBits .f32 (lit0 (S2.rowMajor i))),
    StableHlo.nullary main_cst_0 (fun i => FloatOps.ofBits .f32 (lit1 (S2.rowMajor i))),
    StableHlo.nullary main_cst_1 (fun i => FloatOps.ofBits .f32 (lit2 (S2x1.rowMajor i))),
    StableHlo.unary main_cst_1 main_v0 (broadcastInDim S1x2x1 ![1, 2] bcast_S2x1_S1x2x1_1_2 : (⟨S2x1, .f32⟩ : BufTy).Contents (Elt F) → (⟨S1x2x1, .f32⟩ : BufTy).Contents (Elt F)),
    StableHlo.unary main_arg0 main_v1 ((extractStridedSlice S4194304x2 ![0, 0] · slices_S4194304x5_S4194304x2_0_0) : (⟨S4194304x5, .f32⟩ : BufTy).Contents (Elt F) → (⟨S4194304x2, .f32⟩ : BufTy).Contents (Elt F)),
    StableHlo.unary main_cst main_v2 (broadcastInDim S4194304x2 ![1] bcast_S2_S4194304x2_1 : (⟨S2, .f32⟩ : BufTy).Contents (Elt F) → (⟨S4194304x2, .f32⟩ : BufTy).Contents (Elt F)),
    StableHlo.unary main_cst_0 main_v3 (broadcastInDim S4194304x2 ![1] bcast_S2_S4194304x2_1 : (⟨S2, .f32⟩ : BufTy).Contents (Elt F) → (⟨S4194304x2, .f32⟩ : BufTy).Contents (Elt F)) ]

/-- The first push: the norm and its tangent along `(1, 0)` (the norm's fifteen operations as plain operations on the
    call's own buffers: a typed reference made from a literal is that literal, its two transports the identity), the two
    layers, `ψ` and its tangent. -/
abbrev seg2 : List (HloOp τ sig (Elt F)) :=
  [ StableHlo.binary main_v1 main_v1 main_call0_v0 (mulf : (⟨S4194304x2, .f32⟩ : BufTy).Contents (Elt F) → (⟨S4194304x2, .f32⟩ : BufTy).Contents (Elt F) → (⟨S4194304x2, .f32⟩ : BufTy).Contents (Elt F)),
    StableHlo.binary main_v2 main_v1 main_call0_v1 (mulf : (⟨S4194304x2, .f32⟩ : BufTy).Contents (Elt F) → (⟨S4194304x2, .f32⟩ : BufTy).Contents (Elt F) → (⟨S4194304x2, .f32⟩ : BufTy).Contents (Elt F)),
    StableHlo.binary main_v1 main_v2 main_call0_v2 (mulf : (⟨S4194304x2, .f32⟩ : BufTy).Contents (Elt F) → (⟨S4194304x2, .f32⟩ : BufTy).Contents (Elt F) → (⟨S4194304x2, .f32⟩ : BufTy).Contents (Elt F)),
    StableHlo.binary main_call0_v1 main_call0_v2 main_call0_v3 (addf : (⟨S4194304x2, .f32⟩ : BufTy).Contents (Elt F) → (⟨S4194304x2, .f32⟩ : BufTy).Contents (Elt F) → (⟨S4194304x2, .f32⟩ : BufTy).Contents (Elt F)),
    StableHlo.nullary main_call0_cst (constant S_ .f32 0x00000000#32),
    StableHlo.binary main_call0_v0 main_call0_cst main_call0_v4 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.nullary main_call0_cst_0 (constant S_ .f32 0x00000000#32),
    StableHlo.binary main_call0_v3 main_call0_cst_0 main_call0_v5 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.unary main_call0_v4 main_call0_v6 (broadcastInDim S4194304x1 ![0] bcast_S4194304_S4194304x1_0 : (⟨S4194304, .f32⟩ : BufTy).Contents (Elt F) → (⟨S4194304x1, .f32⟩ : BufTy).Contents (Elt F)),
    StableHlo.unary main_call0_v5 main_call0_v7 (broadcastInDim S4194304x1 ![0] bcast_S4194304_S4194304x1_0 : (⟨S4194304, .f32⟩ : BufTy).Contents (Elt F) → (⟨S4194304x1, .f32⟩ : BufTy).Contents (Elt F)),
    StableHlo.unary main_call0_v6 main_v4_0 (Host.sqrt : (⟨S4194304x1, .f32⟩ : BufTy).Contents (Elt F) → (⟨S4194304x1, .f32⟩ : BufTy).Contents (Elt F)),
    StableHlo.nullary main_call0_cst_1 (constant S_ .f32 0x3F000000#32),
    StableHlo.unary main_call0_cst_1 main_call0_v9 (broadcastInDim S4194304x1 ![] bcast_S_S4194304x1 : (⟨S_, .f32⟩ : BufTy).Contents (Elt F) → (⟨S4194304x1, .f32⟩ : BufTy).Contents (Elt F)),
    StableHlo.binary main_call0_v9 main_v4_0 main_call0_v10 (Host.divf : (⟨S4194304x1, .f32⟩ : BufTy).Contents (Elt F) → (⟨S4194304x1, .f32⟩ : BufTy).Contents (Elt F) → (⟨S4194304x1, .f32⟩ : BufTy).Contents (Elt F)),
    StableHlo.binary main_call0_v7 main_call0_v10 main_v4_1 (mulf : (⟨S4194304x1, .f32⟩ : BufTy).Contents (Elt F) → (⟨S4194304x1, .f32⟩ : BufTy).Contents (Elt F) → (⟨S4194304x1, .f32⟩ : BufTy).Contents (Elt F)),
    StableHlo.binary main_v1 main_v4_0 main_v5 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v2 main_v4_1 main_v6 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v5 main_arg1 main_v7 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.binary main_v6 main_arg1 main_v8 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.unary main_arg2 main_v9 (broadcastInDim S1x12 ![1] bcast_S12_S1x12_1 : (⟨S12, .f32⟩ : BufTy).Contents (Elt F) → (⟨S1x12, .f32⟩ : BufTy).Contents (Elt F)),
    StableHlo.unary main_v9 main_v10 (broadcastInDim S4194304x12 ![0, 1] bcast_S1x12_S4194304x12_0_1 : (⟨S1x12, .f32⟩ : BufTy).Contents (Elt F) → (⟨S4194304x12, .f32⟩ : BufTy).Contents (Elt F)),
    StableHlo.binary main_v7 main_v10 main_v11 (addf : (⟨S4194304x12, .f32⟩ : BufTy).Contents (Elt F) → (⟨S4194304x12, .f32⟩ : BufTy).Contents (Elt F) → (⟨S4194304x12, .f32⟩ : BufTy).Contents (Elt F)),
    StableHlo.unary main_v11 main_v12 (Host.tanh : (⟨S4194304x12, .f32⟩ : BufTy).Contents (Elt F) → (⟨S4194304x12, .f32⟩ : BufTy).Contents (Elt F)),
    StableHlo.binary main_v8 main_v12 main_v13 (mulf : (⟨S4194304x12, .f32⟩ : BufTy).Contents (Elt F) → (⟨S4194304x12, .f32⟩ : BufTy).Contents (Elt F) → (⟨S4194304x12, .f32⟩ : BufTy).Contents (Elt F)),
    StableHlo.binary main_v8 main_v13 main_v14 (addf : (⟨S4194304x12, .f32⟩ : BufTy).Contents (Elt F) → (⟨S4194304x12, .f32⟩ : BufTy).Contents (Elt F) → (⟨S4194304x12, .f32⟩ : BufTy).Contents (Elt F)),
    StableHlo.nullary main_cst_2 (constant S_ .f32 0x3F800000#32),
    StableHlo.unary main_cst_2 main_v15 (broadcastInDim S4194304x12 ![] bcast_S_S4194304x12 : (⟨S_, .f32⟩ : BufTy).Contents (Elt F) → (⟨S4194304x12, .f32⟩ : BufTy).Contents (Elt F)),
    StableHlo.binary main_v15 main_v12 main_v16 (subf : (⟨S4194304x12, .f32⟩ : BufTy).Contents (Elt F) → (⟨S4194304x12, .f32⟩ : BufTy).Contents (Elt F) → (⟨S4194304x12, .f32⟩ : BufTy).Contents (Elt F)),
    StableHlo.binary main_v14 main_v16 main_v17 (mulf : (⟨S4194304x12, .f32⟩ : BufTy).Contents (Elt F) → (⟨S4194304x12, .f32⟩ : BufTy).Contents (Elt F) → (⟨S4194304x12, .f32⟩ : BufTy).Contents (Elt F)),
    StableHlo.binary main_v12 main_arg3 main_v18 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.binary main_v17 main_arg3 main_v19 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.unary main_arg4 main_v20 (broadcastInDim S1x8 ![1] bcast_S8_S1x8_1 : (⟨S8, .f32⟩ : BufTy).Contents (Elt F) → (⟨S1x8, .f32⟩ : BufTy).Contents (Elt F)),
    StableHlo.unary main_v20 main_v21 (broadcastInDim S4194304x8 ![0, 1] bcast_S1x8_S4194304x8_0_1 : (⟨S1x8, .f32⟩ : BufTy).Contents (Elt F) → (⟨S4194304x8, .f32⟩ : BufTy).Contents (Elt F)),
    StableHlo.binary main_v18 main_v21 main_v22 (addf : (⟨S4194304x8, .f32⟩ : BufTy).Contents (Elt F) → (⟨S4194304x8, .f32⟩ : BufTy).Contents (Elt F) → (⟨S4194304x8, .f32⟩ : BufTy).Contents (Elt F)),
    StableHlo.unary main_v22 main_v23 (Host.tanh : (⟨S4194304x8, .f32⟩ : BufTy).Contents (Elt F) → (⟨S4194304x8, .f32⟩ : BufTy).Contents (Elt F)),
    StableHlo.binary main_v19 main_v23 main_v24 (mulf : (⟨S4194304x8, .f32⟩ : BufTy).Contents (Elt F) → (⟨S4194304x8, .f32⟩ : BufTy).Contents (Elt F) → (⟨S4194304x8, .f32⟩ : BufTy).Contents (Elt F)),
    StableHlo.binary main_v19 main_v24 main_v25 (addf : (⟨S4194304x8, .f32⟩ : BufTy).Contents (Elt F) → (⟨S4194304x8, .f32⟩ : BufTy).Contents (Elt F) → (⟨S4194304x8, .f32⟩ : BufTy).Contents (Elt F)),
    StableHlo.nullary main_cst_3 (constant S_ .f32 0x3F800000#32),
    StableHlo.unary main_cst_3 main_v26 (broadcastInDim S4194304x8 ![] bcast_S_S4194304x8 : (⟨S_, .f32⟩ : BufTy).Contents (Elt F) → (⟨S4194304x8, .f32⟩ : BufTy).Contents (Elt F)),
    StableHlo.binary main_v26 main_v23 main_v27 (subf : (⟨S4194304x8, .f32⟩ : BufTy).Contents (Elt F) → (⟨S4194304x8, .f32⟩ : BufTy).Contents (Elt F) → (⟨S4194304x8, .f32⟩ : BufTy).Contents (Elt F)),
    StableHlo.binary main_v25 main_v27 main_v28 (mulf : (⟨S4194304x8, .f32⟩ : BufTy).Contents (Elt F) → (⟨S4194304x8, .f32⟩ : BufTy).Contents (Elt F) → (⟨S4194304x8, .f32⟩ : BufTy).Contents (Elt F)),
    StableHlo.binary main_v23 main_arg5 main_v29 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.binary main_v28 main_arg5 main_v30 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.unary main_arg6 main_v31 (broadcastInDim S1x2 ![1] bcast_S2_S1x2_1 : (⟨S2, .f32⟩ : BufTy).Contents (Elt F) → (⟨S1x2, .f32⟩ : BufTy).Contents (Elt F)),
    StableHlo.unary main_v31 main_v32 (broadcastInDim S4194304x2 ![0, 1] bcast_S1x2_S4194304x2_0_1 : (⟨S1x2, .f32⟩ : BufTy).Contents (Elt F) → (⟨S4194304x2, .f32⟩ : BufTy).Contents (Elt F)),
    StableHlo.binary main_v29 main_v32 main_v33 (addf : (⟨S4194304x2, .f32⟩ : BufTy).Contents (Elt F) → (⟨S4194304x2, .f32⟩ : BufTy).Contents (Elt F) → (⟨S4194304x2, .f32⟩ : BufTy).Contents (Elt F)) ]

/-- The second push, along `(0, 1)`. -/
abbrev seg3 : List (HloOp τ sig (Elt F)) :=
  [ StableHlo.binary main_v1 main_v1 main_call1_v0 (mulf : (⟨S4194304x2, .f32⟩ : BufTy).Contents (Elt F) → (⟨S4194304x2, .f32⟩ : BufTy).Contents (Elt F) → (⟨S4194304x2, .f32⟩ : BufTy).Contents (Elt F)),
    StableHlo.binary main_v3 main_v1 main_call1_v1 (mulf : (⟨S4194304x2, .f32⟩ : BufTy).Contents (Elt F) → (⟨S4194304x2, .f32⟩ : BufTy).Contents (Elt F) → (⟨S4194304x2, .f32⟩ : BufTy).Contents (Elt F)),
    StableHlo.binary main_v1 main_v3 main_call1_v2 (mulf : (⟨S4194304x2, .f32⟩ : BufTy).Contents (Elt F) → (⟨S4194304x2, .f32⟩ : BufTy).Contents (Elt F) → (⟨S4194304x2, .f32⟩ : BufTy).Contents (Elt F)),
    StableHlo.binary main_call1_v1 main_call1_v2 main_call1_v3 (addf : (⟨S4194304x2, .f32⟩ : BufTy).Contents (Elt F) → (⟨S4194304x2, .f32⟩ : BufTy).Contents (Elt F) → (⟨S4194304x2, .f32⟩ : BufTy).Contents (Elt F)),
    StableHlo.nullary main_call1_cst (constant S_ .f32 0x00000000#32),
    StableHlo.binary main_call1_v0 main_call1_cst main_call1_v4 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.nullary main_call1_cst_0 (constant S_ .f32 0x00000000#32),
    StableHlo.binary main_call1_v3 main_call1_cst_0 main_call1_v5 ((fun x v => Host.reduceAdd x v reducesTo_S4194304x2_S4194304_d1 h_S_) : (⟨S4194304x2, .f32⟩ : BufTy).Contents (Elt F) → (⟨S_, .f32⟩ : BufTy).Contents (Elt F) → (⟨S4194304, .f32⟩ : BufTy).Contents (Elt F)),
    StableHlo.unary main_call1_v4 main_call1_v6 (broadcastInDim S4194304x1 ![0] bcast_S4194304_S4194304x1_0 : (⟨S4194304, .f32⟩ : BufTy).Contents (Elt F) → (⟨S4194304x1, .f32⟩ : BufTy).Contents (Elt F)),
    StableHlo.unary main_call1_v5 main_call1_v7 (broadcastInDim S4194304x1 ![0] bcast_S4194304_S4194304x1_0 : (⟨S4194304, .f32⟩ : BufTy).Contents (Elt F) → (⟨S4194304x1, .f32⟩ : BufTy).Contents (Elt F)),
    StableHlo.unary main_call1_v6 main_v34_0 (Host.sqrt : (⟨S4194304x1, .f32⟩ : BufTy).Contents (Elt F) → (⟨S4194304x1, .f32⟩ : BufTy).Contents (Elt F)),
    StableHlo.nullary main_call1_cst_1 (constant S_ .f32 0x3F000000#32),
    StableHlo.unary main_call1_cst_1 main_call1_v9 (broadcastInDim S4194304x1 ![] bcast_S_S4194304x1 : (⟨S_, .f32⟩ : BufTy).Contents (Elt F) → (⟨S4194304x1, .f32⟩ : BufTy).Contents (Elt F)),
    StableHlo.binary main_call1_v9 main_v34_0 main_call1_v10 (Host.divf : (⟨S4194304x1, .f32⟩ : BufTy).Contents (Elt F) → (⟨S4194304x1, .f32⟩ : BufTy).Contents (Elt F) → (⟨S4194304x1, .f32⟩ : BufTy).Contents (Elt F)),
    StableHlo.binary main_call1_v7 main_call1_v10 main_v34_1 (mulf : (⟨S4194304x1, .f32⟩ : BufTy).Contents (Elt F) → (⟨S4194304x1, .f32⟩ : BufTy).Contents (Elt F) → (⟨S4194304x1, .f32⟩ : BufTy).Contents (Elt F)),
    StableHlo.binary main_v1 main_v34_0 main_v35 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v3 main_v34_1 main_v36 ((fun a b => concatenate S4194304x3 1 [⟨S4194304x2, a⟩, ⟨S4194304x1, b⟩] concatenates_S4194304x2_S4194304x1_S4194304x3_d1) : (⟨S4194304x2, .f32⟩ : BufTy).Contents (Elt F) → (⟨S4194304x1, .f32⟩ : BufTy).Contents (Elt F) → (⟨S4194304x3, .f32⟩ : BufTy).Contents (Elt F)),
    StableHlo.binary main_v35 main_arg1 main_v37 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.binary main_v36 main_arg1 main_v38 ((fun l r => Host.dotGeneral dot_S4194304x3_S3x12_S4194304x12_1_0_0_1_n_n none l r) : (⟨S4194304x3, .f32⟩ : BufTy).Contents (Elt F) → (⟨S3x12, .f32⟩ : BufTy).Contents (Elt F) → (⟨S4194304x12, .f32⟩ : BufTy).Contents (Elt F)),
    StableHlo.unary main_arg2 main_v39 (broadcastInDim S1x12 ![1] bcast_S12_S1x12_1 : (⟨S12, .f32⟩ : BufTy).Contents (Elt F) → (⟨S1x12, .f32⟩ : BufTy).Contents (Elt F)),
    StableHlo.unary main_v39 main_v40 (broadcastInDim S4194304x12 ![0, 1] bcast_S1x12_S4194304x12_0_1 : (⟨S1x12, .f32⟩ : BufTy).Contents (Elt F) → (⟨S4194304x12, .f32⟩ : BufTy).Contents (Elt F)),
    StableHlo.binary main_v37 main_v40 main_v41 (addf : (⟨S4194304x12, .f32⟩ : BufTy).Contents (Elt F) → (⟨S4194304x12, .f32⟩ : BufTy).Contents (Elt F) → (⟨S4194304x12, .f32⟩ : BufTy).Contents (Elt F)),
    StableHlo.unary main_v41 main_v42 (Host.tanh : (⟨S4194304x12, .f32⟩ : BufTy).Contents (Elt F) → (⟨S4194304x12, .f32⟩ : BufTy).Contents (Elt F)),
    StableHlo.binary main_v38 main_v42 main_v43 (mulf : (⟨S4194304x12, .f32⟩ : BufTy).Contents (Elt F) → (⟨S4194304x12, .f32⟩ : BufTy).Contents (Elt F) → (⟨S4194304x12, .f32⟩ : BufTy).Contents (Elt F)),
    StableHlo.binary main_v38 main_v43 main_v44 (addf : (⟨S4194304x12, .f32⟩ : BufTy).Contents (Elt F) → (⟨S4194304x12, .f32⟩ : BufTy).Contents (Elt F) → (⟨S4194304x12, .f32⟩ : BufTy).Contents (Elt F)),
    StableHlo.nullary main_cst_4 (constant S_ .f32 0x3F800000#32),
    StableHlo.unary main_cst_4 main_v45 (broadcastInDim S4194304x12 ![] bcast_S_S4194304x12 : (⟨S_, .f32⟩ : BufTy).Contents (Elt F) → (⟨S4194304x12, .f32⟩ : BufTy).Contents (Elt F)),
    StableHlo.binary main_v45 main_v42 main_v46 (subf : (⟨S4194304x12, .f32⟩ : BufTy).Contents (Elt F) → (⟨S4194304x12, .f32⟩ : BufTy).Contents (Elt F) → (⟨S4194304x12, .f32⟩ : BufTy).Contents (Elt F)),
    StableHlo.binary main_v44 main_v46 main_v47 (mulf : (⟨S4194304x12, .f32⟩ : BufTy).Contents (Elt F) → (⟨S4194304x12, .f32⟩ : BufTy).Contents (Elt F) → (⟨S4194304x12, .f32⟩ : BufTy).Contents (Elt F)),
    StableHlo.binary main_v42 main_arg3 main_v48 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.binary main_v47 main_arg3 main_v49 ((fun l r => Host.dotGeneral dot_S4194304x12_S12x8_S4194304x8_1_0_0_1_n_n none l r) : (⟨S4194304x12, .f32⟩ : BufTy).Contents (Elt F) → (⟨S12x8, .f32⟩ : BufTy).Contents (Elt F) → (⟨S4194304x8, .f32⟩ : BufTy).Contents (Elt F)),
    StableHlo.unary main_arg4 main_v50 (broadcastInDim S1x8 ![1] bcast_S8_S1x8_1 : (⟨S8, .f32⟩ : BufTy).Contents (Elt F) → (⟨S1x8, .f32⟩ : BufTy).Contents (Elt F)),
    StableHlo.unary main_v50 main_v51 (broadcastInDim S4194304x8 ![0, 1] bcast_S1x8_S4194304x8_0_1 : (⟨S1x8, .f32⟩ : BufTy).Contents (Elt F) → (⟨S4194304x8, .f32⟩ : BufTy).Contents (Elt F)),
    StableHlo.binary main_v48 main_v51 main_v52 (addf : (⟨S4194304x8, .f32⟩ : BufTy).Contents (Elt F) → (⟨S4194304x8, .f32⟩ : BufTy).Contents (Elt F) → (⟨S4194304x8, .f32⟩ : BufTy).Contents (Elt F)),
    StableHlo.unary main_v52 main_v53 (Host.tanh : (⟨S4194304x8, .f32⟩ : BufTy).Contents (Elt F) → (⟨S4194304x8, .f32⟩ : BufTy).Contents (Elt F)),
    StableHlo.binary main_v49 main_v53 main_v54 (mulf : (⟨S4194304x8, .f32⟩ : BufTy).Contents (Elt F) → (⟨S4194304x8, .f32⟩ : BufTy).Contents (Elt F) → (⟨S4194304x8, .f32⟩ : BufTy).Contents (Elt F)),
    StableHlo.binary main_v49 main_v54 main_v55 (addf : (⟨S4194304x8, .f32⟩ : BufTy).Contents (Elt F) → (⟨S4194304x8, .f32⟩ : BufTy).Contents (Elt F) → (⟨S4194304x8, .f32⟩ : BufTy).Contents (Elt F)),
    StableHlo.nullary main_cst_5 (constant S_ .f32 0x3F800000#32),
    StableHlo.unary main_cst_5 main_v56 (broadcastInDim S4194304x8 ![] bcast_S_S4194304x8 : (⟨S_, .f32⟩ : BufTy).Contents (Elt F) → (⟨S4194304x8, .f32⟩ : BufTy).Contents (Elt F)),
    StableHlo.binary main_v56 main_v53 main_v57 (subf : (⟨S4194304x8, .f32⟩ : BufTy).Contents (Elt F) → (⟨S4194304x8, .f32⟩ : BufTy).Contents (Elt F) → (⟨S4194304x8, .f32⟩ : BufTy).Contents (Elt F)),
    StableHlo.binary main_v55 main_v57 main_v58 (mulf : (⟨S4194304x8, .f32⟩ : BufTy).Contents (Elt F) → (⟨S4194304x8, .f32⟩ : BufTy).Contents (Elt F) → (⟨S4194304x8, .f32⟩ : BufTy).Contents (Elt F)),
    StableHlo.binary main_v53 main_arg5 main_v59 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.binary main_v58 main_arg5 main_v60 ((fun l r => Host.dotGeneral dot_S4194304x8_S8x2_S4194304x2_1_0_0_1_n_n none l r) : (⟨S4194304x8, .f32⟩ : BufTy).Contents (Elt F) → (⟨S8x2, .f32⟩ : BufTy).Contents (Elt F) → (⟨S4194304x2, .f32⟩ : BufTy).Contents (Elt F)),
    StableHlo.unary main_arg6 main_v61 (broadcastInDim S1x2 ![1] bcast_S2_S1x2_1 : (⟨S2, .f32⟩ : BufTy).Contents (Elt F) → (⟨S1x2, .f32⟩ : BufTy).Contents (Elt F)),
    StableHlo.unary main_v61 main_v62 (broadcastInDim S4194304x2 ![0, 1] bcast_S1x2_S4194304x2_0_1 : (⟨S1x2, .f32⟩ : BufTy).Contents (Elt F) → (⟨S4194304x2, .f32⟩ : BufTy).Contents (Elt F)),
    StableHlo.binary main_v59 main_v62 main_v63 (addf : (⟨S4194304x2, .f32⟩ : BufTy).Contents (Elt F) → (⟨S4194304x2, .f32⟩ : BufTy).Contents (Elt F) → (⟨S4194304x2, .f32⟩ : BufTy).Contents (Elt F)) ]

/-- The Jacobian, its determinant and adjugate, the right-hand side, the two batched products, the update. -/
abbrev seg4 : List (HloOp τ sig (Elt F)) :=
  [ StableHlo.unary main_v30 main_v64 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.unary main_v60 main_v65 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.binary main_v64 main_v65 main_v66 ((fun a b => concatenate S4194304x2x2 2 [⟨S4194304x2x1, a⟩, ⟨S4194304x2x1, b⟩] concatenates_S4194304x2x1_S4194304x2x1_S4194304x2x2_d2) : (⟨S4194304x2x1, .f32⟩ : BufTy).Contents (Elt F) → (⟨S4194304x2x1, .f32⟩ : BufTy).Contents (Elt F) → (⟨S4194304x2x2, .f32⟩ : BufTy).Contents (Elt F)),
    StableHlo.unary main_v66 main_v67 ((extractStridedSlice S4194304x1x1 ![0, 0, 0] · slices_S4194304x2x2_S4194304x1x1_0_0_0) : (⟨S4194304x2x2, .f32⟩ : BufTy).Contents (Elt F) → (⟨S4194304x1x1, .f32⟩ : BufTy).Contents (Elt F)),
    StableHlo.reshape main_v67 main_v68 rfl shapeCasts_S4194304x1x1_S4194304,
    StableHlo.unary main_v66 main_v69 ((extractStridedSlice S4194304x1x1 ![0, 0, 1] · slices_S4194304x2x2_S4194304x1x1_0_0_1) : (⟨S4194304x2x2, .f32⟩ : BufTy).Contents (Elt F) → (⟨S4194304x1x1, .f32⟩ : BufTy).Contents (Elt F)),
    StableHlo.reshape main_v69 main_v70 rfl shapeCasts_S4194304x1x1_S4194304,
    StableHlo.unary main_v66 main_v71 ((extractStridedSlice S4194304x1x1 ![0, 1, 0] · slices_S4194304x2x2_S4194304x1x1_0_1_0) : (⟨S4194304x2x2, .f32⟩ : BufTy).Contents (Elt F) → (⟨S4194304x1x1, .f32⟩ : BufTy).Contents (Elt F)),
    StableHlo.reshape main_v71 main_v72 rfl shapeCasts_S4194304x1x1_S4194304,
    StableHlo.unary main_v66 main_v73 ((extractStridedSlice S4194304x1x1 ![0, 1, 1] · slices_S4194304x2x2_S4194304x1x1_0_1_1) : (⟨S4194304x2x2, .f32⟩ : BufTy).Contents (Elt F) → (⟨S4194304x1x1, .f32⟩ : BufTy).Contents (Elt F)),
    StableHlo.reshape main_v73 main_v74 rfl shapeCasts_S4194304x1x1_S4194304,
    StableHlo.binary main_v68 main_v74 main_v75 (mulf : (⟨S4194304, .f32⟩ : BufTy).Contents (Elt F) → (⟨S4194304, .f32⟩ : BufTy).Contents (Elt F) → (⟨S4194304, .f32⟩ : BufTy).Contents (Elt F)),
    StableHlo.binary main_v70 main_v72 main_v76 (mulf : (⟨S4194304, .f32⟩ : BufTy).Contents (Elt F) → (⟨S4194304, .f32⟩ : BufTy).Contents (Elt F) → (⟨S4194304, .f32⟩ : BufTy).Contents (Elt F)),
    StableHlo.binary main_v75 main_v76 main_v77 (subf : (⟨S4194304, .f32⟩ : BufTy).Contents (Elt F) → (⟨S4194304, .f32⟩ : BufTy).Contents (Elt F) → (⟨S4194304, .f32⟩ : BufTy).Contents (Elt F)),
    StableHlo.unary main_v70 main_v78 (Host.negf : (⟨S4194304, .f32⟩ : BufTy).Contents (Elt F) → (⟨S4194304, .f32⟩ : BufTy).Contents (Elt F)),
    StableHlo.unary main_v74 main_v79 (broadcastInDim S4194304x1 ![0] bcast_S4194304_S4194304x1_0 : (⟨S4194304, .f32⟩ : BufTy).Contents (Elt F) → (⟨S4194304x1, .f32⟩ : BufTy).Contents (Elt F)),
    StableHlo.unary main_v78 main_v80 (broadcastInDim S4194304x1 ![0] bcast_S4194304_S4194304x1_0 : (⟨S4194304, .f32⟩ : BufTy).Contents (Elt F) → (⟨S4194304x1, .f32⟩ : BufTy).Contents (Elt F)),
    StableHlo.binary main_v79 main_v80 main_v81 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v72 main_v82 (Host.negf : (⟨S4194304, .f32⟩ : BufTy).Contents (Elt F) → (⟨S4194304, .f32⟩ : BufTy).Contents (Elt F)),
    StableHlo.unary main_v82 main_v83 (broadcastInDim S4194304x1 ![0] bcast_S4194304_S4194304x1_0 : (⟨S4194304, .f32⟩ : BufTy).Contents (Elt F) → (⟨S4194304x1, .f32⟩ : BufTy).Contents (Elt F)),
    StableHlo.unary main_v68 main_v84 (broadcastInDim S4194304x1 ![0] bcast_S4194304_S4194304x1_0 : (⟨S4194304, .f32⟩ : BufTy).Contents (Elt F) → (⟨S4194304x1, .f32⟩ : BufTy).Contents (Elt F)),
    StableHlo.binary main_v83 main_v84 main_v85 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v81 main_v86 (broadcastInDim S4194304x1x2 ![0, 2] bcast_S4194304x2_S4194304x1x2_0_2 : (⟨S4194304x2, .f32⟩ : BufTy).Contents (Elt F) → (⟨S4194304x1x2, .f32⟩ : BufTy).Contents (Elt F)),
    StableHlo.unary main_v85 main_v87 (broadcastInDim S4194304x1x2 ![0, 2] bcast_S4194304x2_S4194304x1x2_0_2 : (⟨S4194304x2, .f32⟩ : BufTy).Contents (Elt F) → (⟨S4194304x1x2, .f32⟩ : BufTy).Contents (Elt F)),
    StableHlo.binary main_v86 main_v87 main_v88 ((fun a b => concatenate S4194304x2x2 1 [⟨S4194304x1x2, a⟩, ⟨S4194304x1x2, b⟩] concatenates_S4194304x1x2_S4194304x1x2_S4194304x2x2_d1) : (⟨S4194304x1x2, .f32⟩ : BufTy).Contents (Elt F) → (⟨S4194304x1x2, .f32⟩ : BufTy).Contents (Elt F) → (⟨S4194304x2x2, .f32⟩ : BufTy).Contents (Elt F)),
    StableHlo.unary main_v77 main_v89 (broadcastInDim S4194304x1x1 ![0] bcast_S4194304_S4194304x1x1_0 : (⟨S4194304, .f32⟩ : BufTy).Contents (Elt F) → (⟨S4194304x1x1, .f32⟩ : BufTy).Contents (Elt F)),
    StableHlo.unary main_v89 main_v90 (broadcastInDim S4194304x2x2 ![0, 1, 2] bcast_S4194304x1x1_S4194304x2x2_0_1_2 : (⟨S4194304x1x1, .f32⟩ : BufTy).Contents (Elt F) → (⟨S4194304x2x2, .f32⟩ : BufTy).Contents (Elt F)),
    StableHlo.binary main_v88 main_v90 main_v91 (Host.divf : (⟨S4194304x2x2, .f32⟩ : BufTy).Contents (Elt F) → (⟨S4194304x2x2, .f32⟩ : BufTy).Contents (Elt F) → (⟨S4194304x2x2, .f32⟩ : BufTy).Contents (Elt F)),
    StableHlo.unary main_v33 main_v92 ((extractStridedSlice S4194304x1 ![0, 0] · slices_S4194304x2_S4194304x1_0_0) : (⟨S4194304x2, .f32⟩ : BufTy).Contents (Elt F) → (⟨S4194304x1, .f32⟩ : BufTy).Contents (Elt F)),
    StableHlo.unary main_v33 main_v93 ((extractStridedSlice S4194304x1 ![0, 1] · slices_S4194304x2_S4194304x1_0_1) : (⟨S4194304x2, .f32⟩ : BufTy).Contents (Elt F) → (⟨S4194304x1, .f32⟩ : BufTy).Contents (Elt F)),
    StableHlo.unary main_v92 main_v94 (Host.negf : (⟨S4194304x1, .f32⟩ : BufTy).Contents (Elt F) → (⟨S4194304x1, .f32⟩ : BufTy).Contents (Elt F)),
    StableHlo.binary main_v93 main_v94 main_v95 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    StableHlo.unary main_v95 main_v96 (broadcastInDim S4194304x2x1 ![0, 1] bcast_S4194304x2_S4194304x2x1_0_1 : (⟨S4194304x2, .f32⟩ : BufTy).Contents (Elt F) → (⟨S4194304x2x1, .f32⟩ : BufTy).Contents (Elt F)),
    StableHlo.nullary main_cst_6 (constant S_ .f32 0xBE3851EC#32),
    StableHlo.unary main_cst_6 main_v97 (broadcastInDim S4194304x2x2 ![] bcast_S_S4194304x2x2 : (⟨S_, .f32⟩ : BufTy).Contents (Elt F) → (⟨S4194304x2x2, .f32⟩ : BufTy).Contents (Elt F)),
    StableHlo.unary main_v0 main_v98 (broadcastInDim S4194304x2x1 ![0, 1, 2] bcast_S1x2x1_S4194304x2x1_0_1_2 : (⟨S1x2x1, .f32⟩ : BufTy).Contents (Elt F) → (⟨S4194304x2x1, .f32⟩ : BufTy).Contents (Elt F)),
    StableHlo.nullary main_cst_7 (constant S_ .f32 0x446B9E94#32),
    StableHlo.unary main_cst_7 main_v99 (broadcastInDim S4194304x2x1 ![] bcast_S_S4194304x2x1 : (⟨S_, .f32⟩ : BufTy).Contents (Elt F) → (⟨S4194304x2x1, .f32⟩ : BufTy).Contents (Elt F)),
    StableHlo.binary main_v96 main_v99 main_v100 (mulf : (⟨S4194304x2x1, .f32⟩ : BufTy).Contents (Elt F) → (⟨S4194304x2x1, .f32⟩ : BufTy).Contents (Elt F) → (⟨S4194304x2x1, .f32⟩ : BufTy).Contents (Elt F)),
    StableHlo.nary ![main_v97, main_v98, main_v100] main_v101 (fun u => concatenate S4194304x2x4 2 [⟨S4194304x2x2, u 0⟩, ⟨S4194304x2x1, u 1⟩, ⟨S4194304x2x1, u 2⟩] concatenates_S4194304x2x2_S4194304x2x1_S4194304x2x1_S4194304x2x4_d2),
    StableHlo.unary main_arg0 main_v102 ((extractStridedSlice S4194304x3 ![0, 0] · slices_S4194304x5_S4194304x3_0_0) : (⟨S4194304x5, .f32⟩ : BufTy).Contents (Elt F) → (⟨S4194304x3, .f32⟩ : BufTy).Contents (Elt F)),
    StableHlo.nullary main_cst_8 (constant S_ .f32 0x3F800000#32),
    StableHlo.unary main_cst_8 main_v103 (broadcastInDim S4194304x1 ![] bcast_S_S4194304x1 : (⟨S_, .f32⟩ : BufTy).Contents (Elt F) → (⟨S4194304x1, .f32⟩ : BufTy).Contents (Elt F)),
    StableHlo.binary main_v102 main_v103 main_v104 ((fun a b => concatenate S4194304x4 1 [⟨S4194304x3, a⟩, ⟨S4194304x1, b⟩] concatenates_S4194304x3_S4194304x1_S4194304x4_d1) : (⟨S4194304x3, .f32⟩ : BufTy).Contents (Elt F) → (⟨S4194304x1, .f32⟩ : BufTy).Contents (Elt F) → (⟨S4194304x4, .f32⟩ : BufTy).Contents (Elt F)),
    StableHlo.unary main_v104 main_v105 (broadcastInDim S4194304x4x1 ![0, 1] bcast_S4194304x4_S4194304x4x1_0_1 : (⟨S4194304x4, .f32⟩ : BufTy).Contents (Elt F) → (⟨S4194304x4x1, .f32⟩ : BufTy).Contents (Elt F)),
    StableHlo.binary main_v101 main_v105 main_v106 ((fun l r => Host.dotGeneral dot_S4194304x2x4_S4194304x4x1_S4194304x2x1_2_1_1_2_0_0 none l r) : (⟨S4194304x2x4, .f32⟩ : BufTy).Contents (Elt F) → (⟨S4194304x4x1, .f32⟩ : BufTy).Contents (Elt F) → (⟨S4194304x2x1, .f32⟩ : BufTy).Contents (Elt F)),
    StableHlo.binary main_v91 main_v106 main_v107 ((fun l r => Host.dotGeneral dot_S4194304x2x2_S4194304x2x1_S4194304x2x1_2_1_1_2_0_0 none l r) : (⟨S4194304x2x2, .f32⟩ : BufTy).Contents (Elt F) → (⟨S4194304x2x1, .f32⟩ : BufTy).Contents (Elt F) → (⟨S4194304x2x1, .f32⟩ : BufTy).Contents (Elt F)),
    StableHlo.reshape main_v107 main_v108 rfl shapeCasts_S4194304x2x1_S4194304x2,
    StableHlo.nullary main_cst_9 (constant S_ .f32 0x3851B717#32),
    StableHlo.unary main_cst_9 main_v109 (broadcastInDim S4194304x2 ![] bcast_S_S4194304x2 : (⟨S_, .f32⟩ : BufTy).Contents (Elt F) → (⟨S4194304x2, .f32⟩ : BufTy).Contents (Elt F)),
    StableHlo.binary main_v108 main_v109 main_v110 (mulf : (⟨S4194304x2, .f32⟩ : BufTy).Contents (Elt F) → (⟨S4194304x2, .f32⟩ : BufTy).Contents (Elt F) → (⟨S4194304x2, .f32⟩ : BufTy).Contents (Elt F)),
    StableHlo.binary main_v110 main_v1 main_v111 (addf : (⟨S4194304x2, .f32⟩ : BufTy).Contents (Elt F) → (⟨S4194304x2, .f32⟩ : BufTy).Contents (Elt F) → (⟨S4194304x2, .f32⟩ : BufTy).Contents (Elt F)) ]

set_option maxHeartbeats 4000000 in
/-- The operations are the four stretches in order (a typed reference made from a literal buffer is that buffer, and its
    two transports are the identity, so the norm's operations at its two calls are the plain operations written here). -/
theorem ops_split : (ops : List (HloOp τ sig (Elt F))) = seg1 ++ (seg2 ++ (seg3 ++ seg4)) := rfl

end Stretches

/-- Folding over a concatenation is folding over the second part from what the first part leaves. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A three-operand operation over a literal family of references: its result with each operand's contents at its own
    reference, so that the operands' own results can be read in turn. -/
theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The unprimed form, for rewriting. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads a buffer after a literal list of operations: one simplification pass over the result lemmas, then, for what sits
    inside a concatenation's operand list (where that pass does not reach), the same lemmas by rewriting until none applies. -/
macro "read_after" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## The first stretch -/

/-- The switching-state column `[0, 560/3]` with a leading unit axis. -/
def sw0 : FVec Ideal S1x2x1 .f32 :=
  broadcastInDim S1x2x1 ![1, 2] bcast_S2x1_S1x2x1_1_2 (fun i => FloatOps.ofBits .f32 (lit2 (S2x1.rowMajor i)))

theorem seg1_v1 (W : Valuation τ sig (Elt Ideal)) :
    after (seg1 (F := Ideal)) W (main_v1 : DevRef τ sig) = cols01 (W (main_arg0 : DevRef τ sig)) := by
  read_after
  rfl

theorem seg1_v2 (W : Valuation τ sig (Elt Ideal)) : after (seg1 (F := Ideal)) W (main_v2 : DevRef τ sig) = e1 := by
  read_after
  rfl

theorem seg1_v3 (W : Valuation τ sig (Elt Ideal)) : after (seg1 (F := Ideal)) W (main_v3 : DevRef τ sig) = e2 := by
  read_after
  rfl

theorem seg1_v0 (W : Valuation τ sig (Elt Ideal)) : after (seg1 (F := Ideal)) W (main_v0 : DevRef τ sig) = sw0 := by
  read_after
  rfl

theorem seg1_arg0 (W : Valuation τ sig (Elt Ideal)) :
    after (seg1 (F := Ideal)) W (main_arg0 : DevRef τ sig) = W (main_arg0 : DevRef τ sig) := by
  read_after

theorem seg1_arg1 (W : Valuation τ sig (Elt Ideal)) :
    after (seg1 (F := Ideal)) W (main_arg1 : DevRef τ sig) = W (main_arg1 : DevRef τ sig) := by
  read_after

theorem seg1_arg2 (W : Valuation τ sig (Elt Ideal)) :
    after (seg1 (F := Ideal)) W (main_arg2 : DevRef τ sig) = W (main_arg2 : DevRef τ sig) := by
  read_after

theorem seg1_arg3 (W : Valuation τ sig (Elt Ideal)) :
    after (seg1 (F := Ideal)) W (main_arg3 : DevRef τ sig) = W (main_arg3 : DevRef τ sig) := by
  read_after

theorem seg1_arg4 (W : Valuation τ sig (Elt Ideal)) :
    after (seg1 (F := Ideal)) W (main_arg4 : DevRef τ sig) = W (main_arg4 : DevRef τ sig) := by
  read_after

theorem seg1_arg5 (W : Valuation τ sig (Elt Ideal)) :
    after (seg1 (F := Ideal)) W (main_arg5 : DevRef τ sig) = W (main_arg5 : DevRef τ sig) := by
  read_after

theorem seg1_arg6 (W : Valuation τ sig (Elt Ideal)) :
    after (seg1 (F := Ideal)) W (main_arg6 : DevRef τ sig) = W (main_arg6 : DevRef τ sig) := by
  read_after

end Cert.ReferenceIdeal.RefResult

end
-- ==== Proof.RefPushes.lean ====
import proofs.«114032_j50405736186087_1_alg».proof.Proof.RefStretches

/-!
# The two pushes' stretches

The fold over a push's stretch, from any contents, leaves `ψ` and its tangent at the whole-array push of what it reads,
and every buffer it does not write alone.
-/

set_option maxRecDepth 16384
set_option Elab.async false

noncomputable section

namespace Cert.ReferenceIdeal.RefResult

open Cert.ReferenceIdeal Idealize.ShloMosaic Idealize.ShloMosaic.TcCoe Idealize.ShloMosaic.StableHlo Idealize.SL.Sem
open Cert.ReferenceIdeal.RefRun Cert.ReferenceIdeal.RefValue

variable [Facts]
open Facts₀ Facts

/-! ## The first push -/

set_option maxHeartbeats 2000000 in
theorem seg2_v33 (W : Valuation τ sig (Elt Ideal)) :
    after (seg2 (F := Ideal)) W (main_v33 : DevRef τ sig)
      = (Chain.passP (W (main_v1 : DevRef τ sig)) (W (main_v2 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig))).1 := by
  read_after
  rfl

set_option maxHeartbeats 2000000 in
theorem seg2_v30 (W : Valuation τ sig (Elt Ideal)) :
    after (seg2 (F := Ideal)) W (main_v30 : DevRef τ sig)
      = (Chain.passP (W (main_v1 : DevRef τ sig)) (W (main_v2 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig))).2 := by
  read_after
  rfl

theorem seg2_arg0 (W : Valuation τ sig (Elt Ideal)) :
    after (seg2 (F := Ideal)) W (main_arg0 : DevRef τ sig) = W (main_arg0 : DevRef τ sig) := by
  read_after

theorem seg2_arg1 (W : Valuation τ sig (Elt Ideal)) :
    after (seg2 (F := Ideal)) W (main_arg1 : DevRef τ sig) = W (main_arg1 : DevRef τ sig) := by
  read_after

theorem seg2_arg2 (W : Valuation τ sig (Elt Ideal)) :
    after (seg2 (F := Ideal)) W (main_arg2 : DevRef τ sig) = W (main_arg2 : DevRef τ sig) := by
  read_after

theorem seg2_arg3 (W : Valuation τ sig (Elt Ideal)) :
    after (seg2 (F := Ideal)) W (main_arg3 : DevRef τ sig) = W (main_arg3 : DevRef τ sig) := by
  read_after

theorem seg2_arg4 (W : Valuation τ sig (Elt Ideal)) :
    after (seg2 (F := Ideal)) W (main_arg4 : DevRef τ sig) = W (main_arg4 : DevRef τ sig) := by
  read_after

theorem seg2_arg5 (W : Valuation τ sig (Elt Ideal)) :
    after (seg2 (F := Ideal)) W (main_arg5 : DevRef τ sig) = W (main_arg5 : DevRef τ sig) := by
  read_after

theorem seg2_arg6 (W : Valuation τ sig (Elt Ideal)) :
    after (seg2 (F := Ideal)) W (main_arg6 : DevRef τ sig) = W (main_arg6 : DevRef τ sig) := by
  read_after

theorem seg2_v0 (W : Valuation τ sig (Elt Ideal)) :
    after (seg2 (F := Ideal)) W (main_v0 : DevRef τ sig) = W (main_v0 : DevRef τ sig) := by
  read_after

theorem seg2_v1 (W : Valuation τ sig (Elt Ideal)) :
    after (seg2 (F := Ideal)) W (main_v1 : DevRef τ sig) = W (main_v1 : DevRef τ sig) := by
  read_after

theorem seg2_v3 (W : Valuation τ sig (Elt Ideal)) :
    after (seg2 (F := Ideal)) W (main_v3 : DevRef τ sig) = W (main_v3 : DevRef τ sig) := by
  read_after

/-! ## The second push -/

set_option maxHeartbeats 2000000 in
theorem seg3_v60 (W : Valuation τ sig (Elt Ideal)) :
    after (seg3 (F := Ideal)) W (main_v60 : DevRef τ sig)
      = (Chain.passP (W (main_v1 : DevRef τ sig)) (W (main_v3 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig))).2 := by
  read_after
  rfl

theorem seg3_arg0 (W : Valuation τ sig (Elt Ideal)) :
    after (seg3 (F := Ideal)) W (main_arg0 : DevRef τ sig) = W (main_arg0 : DevRef τ sig) := by
  read_after

theorem seg3_v0 (W : Valuation τ sig (Elt Ideal)) :
    after (seg3 (F := Ideal)) W (main_v0 : DevRef τ sig) = W (main_v0 : DevRef τ sig) := by
  read_after

theorem seg3_v1 (W : Valuation τ sig (Elt Ideal)) :
    after (seg3 (F := Ideal)) W (main_v1 : DevRef τ sig) = W (main_v1 : DevRef τ sig) := by
  read_after

theorem seg3_v30 (W : Valuation τ sig (Elt Ideal)) :
    after (seg3 (F := Ideal)) W (main_v30 : DevRef τ sig) = W (main_v30 : DevRef τ sig) := by
  read_after

theorem seg3_v33 (W : Valuation τ sig (Elt Ideal)) :
    after (seg3 (F := Ideal)) W (main_v33 : DevRef τ sig) = W (main_v33 : DevRef τ sig) := by
  read_after

end Cert.ReferenceIdeal.RefResult

end
-- ==== Proof.RefSolve.lean ====
import proofs.«114032_j50405736186087_1_alg».proof.Proof.RefStretches

/-!
# The solve's stretch

The fold over the last stretch, from contents in which the switching-state column and the input's first two columns are in
place, leaves the result buffer at the whole-array solve of `ψ` and the two tangents.
-/

set_option maxRecDepth 16384
set_option Elab.async false

noncomputable section

namespace Cert.ReferenceIdeal.RefResult

open Cert.ReferenceIdeal Idealize.ShloMosaic Idealize.ShloMosaic.TcCoe Idealize.ShloMosaic.StableHlo Idealize.SL.Sem
open Cert.ReferenceIdeal.RefRun Cert.ReferenceIdeal.RefValue

variable [Facts]
open Facts₀ Facts

/-! ## The solve -/

set_option maxHeartbeats 4000000 in
/-- From contents in which the switching-state column and the input's first two columns are already in place. -/
theorem seg4_v111 (W : Valuation τ sig (Elt Ideal)) (h0 : W (main_v0 : DevRef τ sig) = sw0)
    (h1 : W (main_v1 : DevRef τ sig) = cols01 (W (main_arg0 : DevRef τ sig))) :
    after (seg4 (F := Ideal)) W (main_v111 : DevRef τ sig)
      = Tail.tailP (W (main_arg0 : DevRef τ sig)) (W (main_v33 : DevRef τ sig)) (W (main_v30 : DevRef τ sig))
          (W (main_v60 : DevRef τ sig)) := by
  read_after
  rw [h0, h1]
  unfold Tail.tailP Tail.rhsP Tail.colP Tail.coefP Tail.swP Tail.rotP Tail.invL Tail.adjL Tail.detL
    Tail.e00 Tail.e01 Tail.e10 Tail.e11 Tail.jacP cols01 sw0
  rfl

end Cert.ReferenceIdeal.RefResult

end
-- ==== Proof.RefResult.lean ====
import proofs.«114032_j50405736186087_1_alg».proof.Proof.RefPushes
import proofs.«114032_j50405736186087_1_alg».proof.Proof.RefSolve

/-!
# The reference's run, with its result named

The run ends with the result buffer at the operations' fold. Chained over the four stretches, the fold at the result buffer
is the two pushes followed by the closed-form solve, which entry by entry is the second arrangement; no operation writes an
argument.
-/

set_option maxRecDepth 16384
set_option Elab.async false

noncomputable section

namespace Cert.ReferenceIdeal.RefResult

open Cert.ReferenceIdeal Idealize.ShloMosaic Idealize.ShloMosaic.TcCoe Idealize.ShloMosaic.StableHlo Idealize.SL.Sem
open Cert.ReferenceIdeal.RefRun Cert.ReferenceIdeal.RefValue

variable [Facts]
open Facts₀ Facts

/-! ## The whole line -/

/-- The fold at the result buffer is the two pushes and the solve, of the argument arrays. -/
theorem out_eq (V : Valuation τ sig (Elt Ideal)) :
    after (ops (F := Ideal)) V (main_v111 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_split, after_append, after_append, after_append]
  rw [seg4_v111 _ (by rw [seg3_v0, seg2_v0, seg1_v0])
        (by rw [seg3_v1, seg2_v1, seg1_v1, seg3_arg0, seg2_arg0, seg1_arg0])]
  rw [seg3_arg0, seg2_arg0, seg1_arg0, seg3_v33, seg2_v33, seg3_v30, seg2_v30, seg3_v60,
    seg2_v1, seg1_v1, seg1_v2, seg2_v3, seg1_v3,
    seg2_arg1, seg1_arg1, seg2_arg2, seg1_arg2, seg2_arg3, seg1_arg3, seg2_arg4, seg1_arg4, seg2_arg5, seg1_arg5,
    seg2_arg6, seg1_arg6]
  rfl

theorem arg0_eq (V : Valuation τ sig (Elt Ideal)) :
    after (ops (F := Ideal)) V (main_arg0 : DevRef τ sig) = V (main_arg0 : DevRef τ sig) := by
  read_after

theorem arg1_eq (V : Valuation τ sig (Elt Ideal)) :
    after (ops (F := Ideal)) V (main_arg1 : DevRef τ sig) = V (main_arg1 : DevRef τ sig) := by
  read_after

theorem arg2_eq (V : Valuation τ sig (Elt Ideal)) :
    after (ops (F := Ideal)) V (main_arg2 : DevRef τ sig) = V (main_arg2 : DevRef τ sig) := by
  read_after

theorem arg3_eq (V : Valuation τ sig (Elt Ideal)) :
    after (ops (F := Ideal)) V (main_arg3 : DevRef τ sig) = V (main_arg3 : DevRef τ sig) := by
  read_after

theorem arg4_eq (V : Valuation τ sig (Elt Ideal)) :
    after (ops (F := Ideal)) V (main_arg4 : DevRef τ sig) = V (main_arg4 : DevRef τ sig) := by
  read_after

theorem arg5_eq (V : Valuation τ sig (Elt Ideal)) :
    after (ops (F := Ideal)) V (main_arg5 : DevRef τ sig) = V (main_arg5 : DevRef τ sig) := by
  read_after

theorem arg6_eq (V : Valuation τ sig (Elt Ideal)) :
    after (ops (F := Ideal)) V (main_arg6 : DevRef τ sig) = V (main_arg6 : DevRef τ sig) := by
  read_after

variable (m : (ℓ : Loc nD τ sig) → Buf (Elt Ideal) ℓ) (ρ : Dev nD → PrngReg)

/-- The result array as one function of the argument arrays. -/
abbrev G (c : Dev nD) : S4194304x2.Idx → EReal :=
  Cert.Spec.GR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The run, with the result array named and the arguments unchanged. -/
theorem run : θ_run defs (onTc (τ := τ) (main (F := Ideal))) ⟨m, fun _ => 0, ρ⟩ fun r => ∀ c : Dev nD,
      r.2.mem ((c.tc : Thread nD τ).loc main_v111) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨by rw [h c main_v111, out_eq, refOut_eq_GR],
      by rw [h c main_arg0, arg0_eq], by rw [h c main_arg1, arg1_eq], by rw [h c main_arg2, arg2_eq],
      by rw [h c main_arg3, arg3_eq], by rw [h c main_arg4, arg4_eq], by rw [h c main_arg5, arg5_eq],
      by rw [h c main_arg6, arg6_eq]⟩)
    (run_main m ρ)

end Cert.ReferenceIdeal.RefResult

end
-- ==== Proof.PreFinite.lean ====
import proofs.«114032_j50405736186087_1_alg».proof.Pre_finite_inputs
import proofs.«114032_j50405736186087_1_alg».proof.Proof.Gen.Pre_finite_inputs
import proofs.«114032_j50405736186087_1_alg».proof.Proof.Spec
import Idealize.ShloMosaic.Lib.ValueIdx
import Idealize.ShloMosaic.Lib.ReduceAll
import Idealize.ShloMosaic.Lib.StableHlo.Predicate
import Idealize.ShloMosaic.PureOps.Ideal.Laws

/-!
# The precondition's first seven conjuncts: every input is a real number

Each conjunct is `all (|x| < +∞)` over one argument array; together they say that every entry of every argument is a real number.
-/

noncomputable section

namespace Cert.PreRead

open Cert.Pre_finite_inputs Idealize.ShloMosaic Idealize.ShloMosaic.ValueIdx

variable [Cert.Pre_finite_inputs.Facts]

/-- The rank-0 shape has exactly one index. -/
private theorem subsingleton_scalarIdx : Subsingleton S_.Idx := ⟨fun a b => funext fun d => d.elim0⟩

/-- An extended real whose absolute value `max x (-x)` lies strictly below `+∞` is neither `-∞` nor `+∞`. -/
private theorem isReal_of_abs_lt (x : Ideal .f32)
    (e : FloatOps.cmpf .olt (FloatOps.hostAbsf x) (FloatOps.ofBits (F := Ideal) .f32 0x7F800000#32) = 1#1) :
    Cert.Spec.IsReal x := by
  have htop : Ideal.ofBits .f32 0x7F800000#32 = ⊤ := by simp [Ideal.ofBits, Ideal.ieee]
  have e' : Ideal.cmp .olt (max x (-x)) (Ideal.ofBits .f32 0x7F800000#32) = 1#1 := e
  rw [htop] at e'
  simp only [Ideal.cmp, StableHlo.Predicate.ofBool_eq_one_iff, decide_eq_true_eq] at e'
  have h1 : x < ⊤ := lt_of_le_of_lt (le_max_left _ _) e'
  have h2 : -x < ⊤ := lt_of_le_of_lt (le_max_right _ _) e'
  refine ⟨?_, ne_of_lt h1⟩
  intro hx
  rw [hx] at h2
  exact absurd h2 (by simp)

/-- One conjunct: `all (|x| < +∞)` over an array of any shape says every entry is a real number. -/
private theorem allReal_of_reduce {s : Shape} {axes : List (Fin s.rank)} (x : FVec Ideal s .f32)
    (bc : S_.BroadcastsInDim s (![] : Fin 0 → Fin s.rank)) (r : s.ReducesTo axes S_) (hu : 0 < S_.numel)
    (e : Host.reduce IntOp.andi
        (cmpf .olt (Host.absf x) (broadcastInDim s ![] bc (constant (F := Ideal) S_ .f32 0x7F800000#32)))
        (constantI S_ 1 1#1) r hu ix0 = 1#1) (i : s.Idx) : Cert.Spec.IsReal (x i) :=
  haveI := subsingleton_scalarIdx
  isReal_of_abs_lt (x i) (Host.reduce_andi_all _ _ r hu ix0 e i)

/-- The precondition's value is the conjunction `c₁₋₇ ∧ c₈` of the first seven conjuncts (carried as `v33`) with the
    eighth: where it is 1, `c₁₋₇` is 1. Stated for each tail of the chain of operations that computes `c₈`, from the
    last back to the first; none of them reads what `c₈` is. -/
private theorem part6_fst (a5 : FVec Ideal S8x2 .f32) (a6 : FVec Ideal S2 .f32) (v33 : IVec S_ 1)
    (v78 : FVec Ideal S4194304x2 .f32) (v112 v117 : FVec Ideal S4194304x8 .f32)
    (h : fn_part6 (F := Ideal) a5 a6 v33 v78 v112 v117 ix0 = 1#1) : v33 ix0 = 1#1 :=
  (IntOp.andi_eq_one.1 h).1

private theorem part5_fst (a1 : FVec Ideal S3x12 .f32) (a2 : FVec Ideal S12 .f32) (a3 : FVec Ideal S12x8 .f32)
    (a4 : FVec Ideal S8 .f32) (a5 : FVec Ideal S8x2 .f32) (a6 : FVec Ideal S2 .f32) (v33 : IVec S_ 1)
    (v78 : FVec Ideal S4194304x2 .f32) (v94 v95 : FVec Ideal S4194304x3 .f32)
    (h : fn_part5 (F := Ideal) a1 a2 a3 a4 a5 a6 v33 v78 v94 v95 ix0 = 1#1) : v33 ix0 = 1#1 :=
  by unfold fn_part5 at h; exact part6_fst _ _ v33 _ _ _ h

private theorem part4_fst (a1 : FVec Ideal S3x12 .f32) (a2 : FVec Ideal S12 .f32) (a3 : FVec Ideal S12x8 .f32)
    (a4 : FVec Ideal S8 .f32) (a5 : FVec Ideal S8x2 .f32) (a6 : FVec Ideal S2 .f32) (v33 : IVec S_ 1)
    (v34 v40 : FVec Ideal S4194304x2 .f32) (v71 v73 v74 : FVec Ideal S4194304x8 .f32)
    (h : fn_part4 (F := Ideal) a1 a2 a3 a4 a5 a6 v33 v34 v40 v71 v73 v74 ix0 = 1#1) : v33 ix0 = 1#1 :=
  by unfold fn_part4 at h; exact part5_fst _ _ _ _ _ _ v33 _ _ _ h

private theorem part3_fst (a1 : FVec Ideal S3x12 .f32) (a2 : FVec Ideal S12 .f32) (a3 : FVec Ideal S12x8 .f32)
    (a4 : FVec Ideal S8 .f32) (a5 : FVec Ideal S8x2 .f32) (a6 : FVec Ideal S2 .f32) (v33 : IVec S_ 1)
    (v34 v39 v40 : FVec Ideal S4194304x2 .f32) (v49 v52 : FVec Ideal S4194304x1 .f32)
    (h : fn_part3 (F := Ideal) a1 a2 a3 a4 a5 a6 v33 v34 v39 v40 v49 v52 ix0 = 1#1) : v33 ix0 = 1#1 :=
  by unfold fn_part3 at h; exact part4_fst _ _ _ _ _ _ v33 _ _ _ _ _ h

private theorem part2_fst (a0 : FVec Ideal S4194304x5 .f32) (a1 : FVec Ideal S3x12 .f32) (a2 : FVec Ideal S12 .f32)
    (a3 : FVec Ideal S12x8 .f32) (a4 : FVec Ideal S8 .f32) (a5 : FVec Ideal S8x2 .f32) (a6 : FVec Ideal S2 .f32)
    (v33 : IVec S_ 1) (h : fn_part2 (F := Ideal) a0 a1 a2 a3 a4 a5 a6 v33 ix0 = 1#1) : v33 ix0 = 1#1 :=
  by unfold fn_part2 at h; exact part3_fst _ _ _ _ _ _ v33 _ _ _ _ _ h

/-- Under the precondition every entry of every argument array is a real number. -/
theorem finite_of_pre (X : FVec Ideal S4194304x5 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (h : fn (F := Ideal) X W1 b1 W2 b2 W3 b3 = fun _ => 1#1) :
    (∀ i, Cert.Spec.IsReal (X i)) ∧ (∀ i, Cert.Spec.IsReal (W1 i)) ∧ (∀ i, Cert.Spec.IsReal (b1 i))
      ∧ (∀ i, Cert.Spec.IsReal (W2 i)) ∧ (∀ i, Cert.Spec.IsReal (b2 i)) ∧ (∀ i, Cert.Spec.IsReal (W3 i))
      ∧ (∀ i, Cert.Spec.IsReal (b3 i)) := by
  have h0 : fn (F := Ideal) X W1 b1 W2 b2 W3 b3 ix0 = 1#1 := congrFun h ix0
  unfold fn fn_part1 at h0
  have h33 := part2_fst _ _ _ _ _ _ _ _ h0
  obtain ⟨h28, e7⟩ := IntOp.andi_eq_one.1 h33
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e1, e2⟩ := IntOp.andi_eq_one.1 h8
  exact ⟨allReal_of_reduce X _ _ _ e1, allReal_of_reduce W1 _ _ _ e2, allReal_of_reduce b1 _ _ _ e3,
    allReal_of_reduce W2 _ _ _ e4, allReal_of_reduce b2 _ _ _ e5, allReal_of_reduce W3 _ _ _ e6,
    allReal_of_reduce b3 _ _ _ e7⟩

end Cert.PreRead

end
-- ==== Proof.PreDet.lean ====
import proofs.«114032_j50405736186087_1_alg».proof.Proof.RefChain
import proofs.«114032_j50405736186087_1_alg».proof.Pre_finite_inputs
import proofs.«114032_j50405736186087_1_alg».proof.Proof.Gen.Pre_finite_inputs
import proofs.«114032_j50405736186087_1_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

/-!
# The precondition's last conjunct: the Jacobian is invertible at every row

The last conjunct is `all (det ≠ 0)`, the determinant computed row by row as the reference computes it: two forward-mode pushes through the network, then `a·d - b·c`. Read at row `r` it is the second arrangement's `detR` of that row.
-/

noncomputable section

namespace Cert.PreRead

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-! ## The determinant array and its test, as functions of the two tangent arrays -/

section Stages
variable {F : FTy → Type} [FloatOps F]

/-- Column `0` of a two-column array, as a vector. -/
def col0 (d : FVec F S4194304x2 .f32) : FVec F S4194304 .f32 :=
  shapeCast S4194304 (extractStridedSlice S4194304x1 ![0, 0] d slices_S4194304x2_S4194304x1_0_0) shapeCasts_S4194304x1_S4194304

/-- Column `1` of a two-column array, as a vector. -/
def col1 (d : FVec F S4194304x2 .f32) : FVec F S4194304 .f32 :=
  shapeCast S4194304 (extractStridedSlice S4194304x1 ![0, 1] d slices_S4194304x2_S4194304x1_0_1) shapeCasts_S4194304x1_S4194304

/-- `d1₀·d2₁ - d2₀·d1₁`, row by row. -/
def detArr (d1 d2 : FVec F S4194304x2 .f32) : FVec F S4194304 .f32 :=
  subf (mulf (col0 d1) (col1 d2)) (mulf (col0 d2) (col1 d1))

/-- "Every row's determinant differs from zero", as one bit. -/
def detAll (d1 d2 : FVec F S4194304x2 .f32) : IVec S_ 1 :=
  Host.reduce IntOp.andi (cmpf .une (detArr d1 d2) (broadcastInDim S4194304 ![] bcast_S_S4194304 (constant S_ .f32 0x00000000#32)))
    (constantI S_ 1 1#1) reducesTo_S4194304_S_d0 h_S_

theorem part6_eq (W3 : FVec F S8x2 .f32) (b3 : FVec F S2 .f32) (v33 : IVec S_ 1) (d1 : FVec F S4194304x2 .f32)
    (v112 v117 : FVec F S4194304x8 .f32) :
    fn_part6 (F := F) W3 b3 v33 d1 v112 v117
      = andi v33 (detAll d1 (Host.dotGeneral dot_S4194304x8_S8x2_S4194304x2_1_0_0_1_n_n none v117 W3)) := rfl

end Stages

/-! ## The test read row by row -/

/-- A column read at a row. -/
theorem col0_apply (d : FVec Ideal S4194304x2 .f32) (r : Fin 4194304) : col0 d (ix1 r) = d (ix2 r (0 : Fin 2)) := by
  unfold col0
  refine (shapeCast_apply _ _ (ix1 r) (ix2 r (0 : Fin 1)) ?_).trans ?_
  · rw [Shape.rowMajor_val_two, Shape.rowMajor_val_one]; show r.val * 1 + 0 = r.val; omega
  · exact slice2_axis1_apply 0 d _ r (0 : Fin 1) (0 : Fin 2) rfl

theorem col1_apply (d : FVec Ideal S4194304x2 .f32) (r : Fin 4194304) : col1 d (ix1 r) = d (ix2 r (1 : Fin 2)) := by
  unfold col1
  refine (shapeCast_apply _ _ (ix1 r) (ix2 r (0 : Fin 1)) ?_).trans ?_
  · rw [Shape.rowMajor_val_two, Shape.rowMajor_val_one]; show r.val * 1 + 0 = r.val; omega
  · exact slice2_axis1_apply 1 d _ r (0 : Fin 1) (1 : Fin 2) rfl

/-- The determinant array at a row. -/
theorem detArr_apply (d1 d2 : FVec Ideal S4194304x2 .f32) (r : Fin 4194304) :
    detArr d1 d2 (ix1 r) = d1 (ix2 r (0 : Fin 2)) * d2 (ix2 r (1 : Fin 2)) - d2 (ix2 r (0 : Fin 2)) * d1 (ix2 r (1 : Fin 2)) := by
  unfold detArr
  rw [subf_apply, mulf_apply, mulf_apply, col0_apply, col1_apply, col0_apply, col1_apply]

/-- The test bit set says that every row's determinant differs from zero. -/
theorem detAll_ne (d1 d2 : FVec Ideal S4194304x2 .f32) (h : detAll d1 d2 ix0 = 1#1) (r : Fin 4194304) :
    d1 (ix2 r (0 : Fin 2)) * d2 (ix2 r (1 : Fin 2)) - d2 (ix2 r (0 : Fin 2)) * d1 (ix2 r (1 : Fin 2)) ≠ 0 := by
  have e := Host.reduce_andi_all _ _ _ _ ix0 h (ix1 r)
  rw [cmpf_apply, detArr_apply, StableHlo.Predicate.bcast_scalar _ h_S_, constant_apply, Ideal.ofBits_zero_f32] at e
  have e' : decide (d1 (ix2 r (0 : Fin 2)) * d2 (ix2 r (1 : Fin 2)) - d2 (ix2 r (0 : Fin 2)) * d1 (ix2 r (1 : Fin 2)) ≠ 0) = true :=
    (StableHlo.Predicate.ofBool_eq_one_iff _).1 e
  exact of_decide_eq_true e'

/-! ## The two pushes, as functions of the rows and a tangent array -/

section Stages
variable {F : FTy → Type} [FloatOps F]

/-- The rows' first two columns. -/
def xOf (X : FVec F S4194304x5 .f32) : FVec F S4194304x2 .f32 :=
  extractStridedSlice S4194304x2 ![0, 0] X slices_S4194304x5_S4194304x2_0_0

/-- A column of ones. -/
def ones1 : FVec F S4194304x1 .f32 := broadcastInDim S4194304x1 ![] bcast_S_S4194304x1 (constant S_ .f32 0x3F800000#32)

/-- A column of zeros. -/
def zeros1 : FVec F S4194304x1 .f32 := broadcastInDim S4194304x1 ![] bcast_S_S4194304x1 (constant S_ .f32 0x00000000#32)

/-- The first unit tangent, at every row. -/
def e1 : FVec F S4194304x2 .f32 :=
  concatenate S4194304x2 1 [⟨S4194304x1, ones1⟩, ⟨S4194304x1, zeros1⟩] concatenates_S4194304x1_S4194304x1_S4194304x2_d1

/-- The second unit tangent, at every row. -/
def e2 : FVec F S4194304x2 .f32 :=
  concatenate S4194304x2 1 [⟨S4194304x1, zeros1⟩, ⟨S4194304x1, ones1⟩] concatenates_S4194304x1_S4194304x1_S4194304x2_d1

/-- The tangent of `ψ` along `t`, as a whole array: the norm and its tangent, the two `tanh` layers with their tangents, the last product. -/
def push (x t : FVec F S4194304x2 .f32) (W1 : FVec F S3x12 .f32) (b1 : FVec F S12 .f32)
    (W2 : FVec F S12x8 .f32) (b2 : FVec F S8 .f32) (W3 : FVec F S8x2 .f32) : FVec F S4194304x2 .f32 :=
  let n0 : FVec F S4194304x2 .f32 := mulf x x
  let n1 : FVec F S4194304x2 .f32 := mulf t x
  let n2 : FVec F S4194304x2 .f32 := mulf x t
  let n3 : FVec F S4194304x2 .f32 := addf n1 n2
  let n4 : FVec F S4194304 .f32 := Host.reduceAdd n0 (constant S_ .f32 0x00000000#32) reducesTo_S4194304x2_S4194304_d1 h_S_
  let n5 : FVec F S4194304 .f32 := Host.reduceAdd n3 (constant S_ .f32 0x00000000#32) reducesTo_S4194304x2_S4194304_d1 h_S_
  let n6 : FVec F S4194304x1 .f32 := broadcastInDim S4194304x1 ![0] bcast_S4194304_S4194304x1_0 n4
  let n7 : FVec F S4194304x1 .f32 := broadcastInDim S4194304x1 ![0] bcast_S4194304_S4194304x1_0 n5
  let n8 : FVec F S4194304x1 .f32 := Host.sqrt n6
  let n9 : FVec F S4194304x1 .f32 := broadcastInDim S4194304x1 ![] bcast_S_S4194304x1 (constant S_ .f32 0x3F000000#32)
  let n10 : FVec F S4194304x1 .f32 := Host.divf n9 n8
  let n11 : FVec F S4194304x1 .f32 := mulf n7 n10
  let v5 : FVec F S4194304x3 .f32 :=
    concatenate S4194304x3 1 [⟨S4194304x2, x⟩, ⟨S4194304x1, n8⟩] concatenates_S4194304x2_S4194304x1_S4194304x3_d1
  let v6 : FVec F S4194304x3 .f32 :=
    concatenate S4194304x3 1 [⟨S4194304x2, t⟩, ⟨S4194304x1, n11⟩] concatenates_S4194304x2_S4194304x1_S4194304x3_d1
  let v7 : FVec F S4194304x12 .f32 := Host.dotGeneral dot_S4194304x3_S3x12_S4194304x12_1_0_0_1_n_n none v5 W1
  let v8 : FVec F S4194304x12 .f32 := Host.dotGeneral dot_S4194304x3_S3x12_S4194304x12_1_0_0_1_n_n none v6 W1
  let v9 : FVec F S1x12 .f32 := broadcastInDim S1x12 ![1] bcast_S12_S1x12_1 b1
  let v10 : FVec F S4194304x12 .f32 := broadcastInDim S4194304x12 ![0, 1] bcast_S1x12_S4194304x12_0_1 v9
  let v11 : FVec F S4194304x12 .f32 := addf v7 v10
  let v12 : FVec F S4194304x12 .f32 := Host.tanh v11
  let v13 : FVec F S4194304x12 .f32 := mulf v8 v12
  let v14 : FVec F S4194304x12 .f32 := addf v8 v13
  let v15 : FVec F S4194304x12 .f32 := broadcastInDim S4194304x12 ![] bcast_S_S4194304x12 (constant S_ .f32 0x3F800000#32)
  let v16 : FVec F S4194304x12 .f32 := subf v15 v12
  let v17 : FVec F S4194304x12 .f32 := mulf v14 v16
  let v18 : FVec F S4194304x8 .f32 := Host.dotGeneral dot_S4194304x12_S12x8_S4194304x8_1_0_0_1_n_n none v12 W2
  let v19 : FVec F S4194304x8 .f32 := Host.dotGeneral dot_S4194304x12_S12x8_S4194304x8_1_0_0_1_n_n none v17 W2
  let v20 : FVec F S1x8 .f32 := broadcastInDim S1x8 ![1] bcast_S8_S1x8_1 b2
  let v21 : FVec F S4194304x8 .f32 := broadcastInDim S4194304x8 ![0, 1] bcast_S1x8_S4194304x8_0_1 v20
  let v22 : FVec F S4194304x8 .f32 := addf v18 v21
  let v23 : FVec F S4194304x8 .f32 := Host.tanh v22
  let v24 : FVec F S4194304x8 .f32 := mulf v19 v23
  let v25 : FVec F S4194304x8 .f32 := addf v19 v24
  let v26 : FVec F S4194304x8 .f32 := broadcastInDim S4194304x8 ![] bcast_S_S4194304x8 (constant S_ .f32 0x3F800000#32)
  let v27 : FVec F S4194304x8 .f32 := subf v26 v23
  let v28 : FVec F S4194304x8 .f32 := mulf v25 v27
  Host.dotGeneral dot_S4194304x8_S8x2_S4194304x2_1_0_0_1_n_n none v28 W3

/-- From the second part on, the printed precondition is the conjunction of what came before with the test of the two pushes. -/
theorem part2_eq (X : FVec F S4194304x5 .f32) (W1 : FVec F S3x12 .f32) (b1 : FVec F S12 .f32)
    (W2 : FVec F S12x8 .f32) (b2 : FVec F S8 .f32) (W3 : FVec F S8x2 .f32) (b3 : FVec F S2 .f32) (v33 : IVec S_ 1) :
    fn_part2 (F := F) X W1 b1 W2 b2 W3 b3 v33
      = andi v33 (detAll (push (xOf X) e1 W1 b1 W2 b2 W3) (push (xOf X) e2 W1 b1 W2 b2 W3)) := rfl

/-- The printed precondition is a conjunction whose last conjunct is the test of the two pushes. -/
theorem fn_eq (X : FVec F S4194304x5 .f32) (W1 : FVec F S3x12 .f32) (b1 : FVec F S12 .f32)
    (W2 : FVec F S12x8 .f32) (b2 : FVec F S8 .f32) (W3 : FVec F S8x2 .f32) (b3 : FVec F S2 .f32) :
    ∃ a : IVec S_ 1, fn (F := F) X W1 b1 W2 b2 W3 b3
      = andi a (detAll (push (xOf X) e1 W1 b1 W2 b2 W3) (push (xOf X) e2 W1 b1 W2 b2 W3)) :=
  ⟨_, (rfl : fn (F := F) X W1 b1 W2 b2 W3 b3 = fn_part2 (F := F) X W1 b1 W2 b2 W3 b3 _).trans (part2_eq X W1 b1 W2 b2 W3 b3 _)⟩

end Stages

/-! ## The rows, the unit tangents and the pushes read at a row -/

theorem xOf_apply (X : FVec Ideal S4194304x5 .f32) (r : Fin 4194304) (j : Fin 2) (k : Fin 5) (hk : k.val = j.val) :
    xOf X (ix2 r j) = X (ix2 r k) := by
  unfold xOf
  exact slice2_axis1_apply 0 X _ r j k (by omega)

theorem ones1_apply (i : S4194304x1.Idx) : ones1 (F := Ideal) i = Cert.Spec.c1 := by
  unfold ones1
  rw [StableHlo.Predicate.bcast_scalar _ h_S_, constant_apply]
  rfl

theorem zeros1_apply (i : S4194304x1.Idx) : zeros1 (F := Ideal) i = 0 := by
  unfold zeros1
  rw [StableHlo.Predicate.bcast_scalar _ h_S_, constant_apply, Ideal.ofBits_zero_f32]

/-- A two-column array made of two columns reads, in column `0`, the first. -/
theorem cat11_apply_zero (a b : FVec Ideal S4194304x1 .f32) (r : Fin 4194304) :
    concatenate S4194304x2 1 [⟨S4194304x1, a⟩, ⟨S4194304x1, b⟩] concatenates_S4194304x1_S4194304x1_S4194304x2_d1 (ix2 r (0 : Fin 2))
      = a (ix2 r (0 : Fin 1)) :=
  concatenate_pair_apply_left 1 a b _ (ix2 r (0 : Fin 2)) rfl (ix2 r (0 : Fin 1)) (fun c => by
    match c with
    | ⟨0, _⟩ => rfl
    | ⟨1, _⟩ => rfl)

/-- … and in column `1`, the second. -/
theorem cat11_apply_one (a b : FVec Ideal S4194304x1 .f32) (r : Fin 4194304) :
    concatenate S4194304x2 1 [⟨S4194304x1, a⟩, ⟨S4194304x1, b⟩] concatenates_S4194304x1_S4194304x1_S4194304x2_d1 (ix2 r (1 : Fin 2))
      = b (ix2 r (0 : Fin 1)) :=
  concatenate_pair_apply_right 1 a b _ (ix2 r (1 : Fin 2)) rfl rfl (ix2 r (0 : Fin 1)) (fun c hc => by
    match c, hc with
    | ⟨0, _⟩, _ => rfl
    | ⟨1, _⟩, hc => exact absurd rfl hc) rfl

theorem e1_apply_zero (r : Fin 4194304) : e1 (F := Ideal) (ix2 r (0 : Fin 2)) = Cert.Spec.c1 := by
  unfold e1; rw [cat11_apply_zero, ones1_apply]
theorem e1_apply_one (r : Fin 4194304) : e1 (F := Ideal) (ix2 r (1 : Fin 2)) = 0 := by
  unfold e1; rw [cat11_apply_one, zeros1_apply]
theorem e2_apply_zero (r : Fin 4194304) : e2 (F := Ideal) (ix2 r (0 : Fin 2)) = 0 := by
  unfold e2; rw [cat11_apply_zero, zeros1_apply]
theorem e2_apply_one (r : Fin 4194304) : e2 (F := Ideal) (ix2 r (1 : Fin 2)) = Cert.Spec.c1 := by
  unfold e2; rw [cat11_apply_one, ones1_apply]

/-- The two programs name their three products' dimension numbers apart; they are the same push. -/
theorem push_eq_passP (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32) :
    push (F := Ideal) x t W1 b1 W2 b2 W3 = (Cert.ReferenceIdeal.Chain.passP x t W1 b1 W2 b2 W3 b3).2 := rfl

/-- A push read at a row and a column: the second arrangement's tangent of `ψ`. -/
theorem push_apply (x t : FVec Ideal S4194304x2 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (r : Fin 4194304) (q : Fin 2) :
    push (F := Ideal) x t W1 b1 W2 b2 W3 (ix2 r q)
      = Cert.Spec.dR (Cert.Spec.netOf W1 b1 W2 b2 W3 b3) (x (ix2 r (0 : Fin 2))) (x (ix2 r (1 : Fin 2)))
          (Cert.Spec.tR (x (ix2 r (0 : Fin 2))) (x (ix2 r (1 : Fin 2))) (t (ix2 r (0 : Fin 2))) (t (ix2 r (1 : Fin 2)))) q := by
  rw [push_eq_passP x t W1 b1 W2 b2 W3 b3]
  exact Cert.ReferenceIdeal.Chain.passP_snd_apply x t W1 b1 W2 b2 W3 b3 r q

/-- Under the precondition the Jacobian's determinant is non-zero at every row. -/
theorem det_of_pre (X : FVec Ideal S4194304x5 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (h : fn (F := Ideal) X W1 b1 W2 b2 W3 b3 = fun _ => 1#1) :
    ∀ r : Fin 4194304, Cert.Spec.detR (Cert.Spec.netOf W1 b1 W2 b2 W3 b3) (X (ix2 r (0 : Fin 5))) (X (ix2 r (1 : Fin 5))) ≠ 0 := by
  intro r
  obtain ⟨a, ha⟩ := fn_eq (F := Ideal) X W1 b1 W2 b2 W3 b3
  have h0 : IntOp.andi (a ix0) (detAll (push (xOf X) e1 W1 b1 W2 b2 W3) (push (xOf X) e2 W1 b1 W2 b2 W3) ix0) = 1#1 := by
    have := congrFun h ix0
    rw [ha] at this
    exact this
  have hne := detAll_ne _ _ (IntOp.andi_eq_one.1 h0).2 r
  rw [push_apply (b3 := b3), push_apply (b3 := b3), push_apply (b3 := b3), push_apply (b3 := b3),
    e1_apply_zero, e1_apply_one, e2_apply_zero, e2_apply_one,
    xOf_apply X r (0 : Fin 2) (0 : Fin 5) rfl, xOf_apply X r (1 : Fin 2) (1 : Fin 5) rfl] at hne
  exact hne

end Cert.PreRead

end
-- ==== Proof.Algebra.lean ====
import proofs.«114032_j50405736186087_1_alg».proof.Proof.Spec
import Mathlib.Tactic.Ring
import Mathlib.Tactic.Linarith
import Mathlib.Tactic.NormNum
import Mathlib.Tactic.FinCases

/-!
# The two arrangements agree where the Jacobian is invertible
-/

noncomputable section

open Idealize.ShloMosaic

namespace Cert.Spec

/-! ## Real numbers among the extended reals -/

theorem isReal_iff {x : EReal} : IsReal x ↔ ∃ r : ℝ, x = (r : EReal) := by
  constructor
  · intro h
    exact ⟨x.toReal, (EReal.coe_toReal h.2 h.1).symm⟩
  · rintro ⟨r, rfl⟩
    exact ⟨EReal.coe_ne_bot r, EReal.coe_ne_top r⟩

theorem isReal_coe (r : ℝ) : IsReal (r : EReal) := ⟨EReal.coe_ne_bot r, EReal.coe_ne_top r⟩

theorem isReal_zero : IsReal (0 : EReal) := isReal_coe 0

theorem isReal_one : IsReal (1 : EReal) := isReal_coe 1

theorem IsReal.add {x y : EReal} (hx : IsReal x) (hy : IsReal y) : IsReal (x + y) := by
  obtain ⟨r, rfl⟩ := isReal_iff.1 hx
  obtain ⟨s, rfl⟩ := isReal_iff.1 hy
  rw [← EReal.coe_add]; exact isReal_coe _

theorem IsReal.mul {x y : EReal} (hx : IsReal x) (hy : IsReal y) : IsReal (x * y) := by
  obtain ⟨r, rfl⟩ := isReal_iff.1 hx
  obtain ⟨s, rfl⟩ := isReal_iff.1 hy
  rw [← EReal.coe_mul]; exact isReal_coe _

theorem IsReal.sub {x y : EReal} (hx : IsReal x) (hy : IsReal y) : IsReal (x - y) := by
  obtain ⟨r, rfl⟩ := isReal_iff.1 hx
  obtain ⟨s, rfl⟩ := isReal_iff.1 hy
  rw [← EReal.coe_sub]; exact isReal_coe _

theorem IsReal.neg {x : EReal} (hx : IsReal x) : IsReal (-x) := by
  obtain ⟨r, rfl⟩ := isReal_iff.1 hx
  rw [← EReal.coe_neg]; exact isReal_coe _

theorem IsReal.tanh {x : EReal} (hx : IsReal x) : IsReal (Ideal.tanh x) := by
  obtain ⟨r, rfl⟩ := isReal_iff.1 hx
  rw [Ideal.tanh_coe]; exact isReal_coe _

theorem isReal_sum {ι : Type*} (s : Finset ι) (f : ι → EReal) (hf : ∀ i, IsReal (f i)) :
    IsReal (∑ i ∈ s, f i) := by
  classical
  induction s using Finset.induction_on with
  | empty => simpa using isReal_zero
  | insert a s ha ih => rw [Finset.sum_insert ha]; exact (hf a).add ih

/-! ## The literals -/

theorem c1_eq : c1 = 1 := by
  unfold c1; simp [Ideal.ofBits, Ideal.ieee, -EReal.coe_mul]; norm_num

theorem cHalf_eq : cHalf = ((1 / 2 : ℝ) : EReal) := by
  unfold cHalf; simp [Ideal.ofBits, Ideal.ieee, -EReal.coe_mul]; norm_num

theorem isReal_cR : IsReal cR := by
  unfold cR; simp [Ideal.ofBits, Ideal.ieee, -EReal.coe_mul]; exact isReal_coe _

theorem isReal_cW : IsReal cW := by
  unfold cW; simp [Ideal.ofBits, Ideal.ieee, -EReal.coe_mul]; exact isReal_coe _

theorem isReal_cS : IsReal cS := by
  unfold cS; simp [Ideal.ofBits, Ideal.ieee, -EReal.coe_mul]; exact isReal_coe _

theorem isReal_cT : IsReal cT := by
  unfold cT; simp [Ideal.ofBits, Ideal.ieee, -EReal.coe_mul]; exact isReal_coe _

/-! ## The norm and its tangent -/

theorem nrm_coe (a b : ℝ) : nrm (a : EReal) (b : EReal) = ((Real.sqrt (a * a + b * b) : ℝ) : EReal) := by
  unfold nrm
  rw [← EReal.coe_mul, ← EReal.coe_mul, ← EReal.coe_add, Ideal.sqrt_coe,
    if_neg (not_lt.2 (add_nonneg (mul_self_nonneg a) (mul_self_nonneg b)))]

theorem isReal_nrm {x0 x1 : EReal} (h0 : IsReal x0) (h1 : IsReal x1) : IsReal (nrm x0 x1) := by
  obtain ⟨a, rfl⟩ := isReal_iff.1 h0
  obtain ⟨b, rfl⟩ := isReal_iff.1 h1
  rw [nrm_coe]; exact isReal_coe _

/-- Where the norm vanishes both coordinates do. -/
theorem eq_zero_of_sqrt_eq_zero {a b : ℝ} (h : Real.sqrt (a * a + b * b) = 0) : a = 0 ∧ b = 0 := by
  have hs : a * a + b * b = 0 :=
    (Real.sqrt_eq_zero (add_nonneg (mul_self_nonneg a) (mul_self_nonneg b))).1 h
  have ha : a * a = 0 := by nlinarith [mul_self_nonneg a, mul_self_nonneg b]
  have hb : b * b = 0 := by nlinarith [mul_self_nonneg a, mul_self_nonneg b]
  exact ⟨mul_self_eq_zero.1 ha, mul_self_eq_zero.1 hb⟩

/-- The norm's tangent in the two arrangements: `x · (1 / ‖x‖)` against `(t·x + x·t summed) · (½ / ‖x‖)`. -/
theorem norm_tangent (a b : ℝ) :
    (a : EReal) * Ideal.div c1 (nrm a b) = dnR (a : EReal) (b : EReal) c1 0
      ∧ (b : EReal) * Ideal.div c1 (nrm a b) = dnR (a : EReal) (b : EReal) 0 c1
      ∧ IsReal ((a : EReal) * Ideal.div c1 (nrm a b)) ∧ IsReal ((b : EReal) * Ideal.div c1 (nrm a b)) := by
  unfold dnR
  rw [nrm_coe, c1_eq, cHalf_eq]
  by_cases hn : Real.sqrt (a * a + b * b) = 0
  · obtain ⟨ha, hb⟩ := eq_zero_of_sqrt_eq_zero hn
    subst ha; subst hb
    simp only [EReal.coe_zero, zero_mul, mul_zero, add_zero]
    exact ⟨trivial, trivial, isReal_zero, isReal_zero⟩
  · rw [Ideal.div_coe hn, Ideal.div_coe hn]
    refine ⟨?_, ?_, ?_, ?_⟩
    · rw [← EReal.coe_one, ← EReal.coe_zero]
      norm_cast
      ring
    · rw [← EReal.coe_one, ← EReal.coe_zero]
      norm_cast
      ring
    · rw [← EReal.coe_one]; norm_cast; exact isReal_coe _
    · rw [← EReal.coe_one]; norm_cast; exact isReal_coe _

theorem t1K_eq {x0 x1 : EReal} (h0 : IsReal x0) (h1 : IsReal x1) : t1K x0 x1 = tR x0 x1 c1 0 := by
  obtain ⟨a, rfl⟩ := isReal_iff.1 h0
  obtain ⟨b, rfl⟩ := isReal_iff.1 h1
  unfold t1K tR
  rw [(norm_tangent a b).1]

theorem t2K_eq {x0 x1 : EReal} (h0 : IsReal x0) (h1 : IsReal x1) : t2K x0 x1 = tR x0 x1 0 c1 := by
  obtain ⟨a, rfl⟩ := isReal_iff.1 h0
  obtain ⟨b, rfl⟩ := isReal_iff.1 h1
  unfold t2K tR
  rw [(norm_tangent a b).2.1]

theorem isReal_t1K {x0 x1 : EReal} (h0 : IsReal x0) (h1 : IsReal x1) (k : Fin 3) : IsReal (t1K x0 x1 k) := by
  obtain ⟨a, rfl⟩ := isReal_iff.1 h0
  obtain ⟨b, rfl⟩ := isReal_iff.1 h1
  unfold t1K
  fin_cases k
  · simpa [c1_eq] using isReal_one
  · simpa using isReal_zero
  · simpa using (norm_tangent a b).2.2.1

theorem isReal_t2K {x0 x1 : EReal} (h0 : IsReal x0) (h1 : IsReal x1) (k : Fin 3) : IsReal (t2K x0 x1 k) := by
  obtain ⟨a, rfl⟩ := isReal_iff.1 h0
  obtain ⟨b, rfl⟩ := isReal_iff.1 h1
  unfold t2K
  fin_cases k
  · simpa using isReal_zero
  · simpa [c1_eq] using isReal_one
  · simpa using (norm_tangent a b).2.2.2

/-! ## The forward pass stays real -/

section forward
variable {w : Net} (hw : w.IsReal) {x0 x1 : EReal} (hx0 : IsReal x0) (hx1 : IsReal x1)
include hw hx0 hx1

theorem isReal_iall (k : Fin 3) : IsReal (iall x0 x1 k) := by
  unfold iall
  fin_cases k
  · simpa using hx0
  · simpa using hx1
  · simpa using isReal_nrm hx0 hx1

theorem isReal_h1 (j : Fin 12) : IsReal (h1 w x0 x1 j) := by
  unfold h1
  exact ((isReal_sum _ _ fun k => (isReal_iall hw hx0 hx1 k).mul (hw.W1 k j)).add (hw.b1 j)).tanh

theorem isReal_h2 (j : Fin 8) : IsReal (h2 w x0 x1 j) := by
  unfold h2
  exact ((isReal_sum _ _ fun k => (isReal_h1 hw hx0 hx1 k).mul (hw.W2 k j)).add (hw.b2 j)).tanh

theorem isReal_psi (j : Fin 2) : IsReal (psi w x0 x1 j) := by
  unfold psi
  exact (isReal_sum _ _ fun k => (isReal_h2 hw hx0 hx1 k).mul (hw.W3 k j)).add (hw.b3 j)

end forward

/-! ## The derivative of `tanh` in its two forms -/

/-- `(g + g·h)·(1 - h) = g·(1 - h·h)` for real `g`, `h`. -/
theorem tanh_deriv_forms {g h : EReal} (hg : IsReal g) (hh : IsReal h) :
    (g + g * h) * (c1 - h) = g * (c1 - h * h) := by
  obtain ⟨g, rfl⟩ := isReal_iff.1 hg
  obtain ⟨h, rfl⟩ := isReal_iff.1 hh
  rw [c1_eq, ← EReal.coe_one]
  norm_cast
  ring

section tangent
variable {w : Net} (hw : w.IsReal) {x0 x1 : EReal} (hx0 : IsReal x0) (hx1 : IsReal x1)
  {t : Fin 3 → EReal} (ht : ∀ k, IsReal (t k))
include hw hx0 hx1 ht

theorem isReal_pre1 (j : Fin 12) : IsReal (∑ k : Fin 3, t k * w.W1 k j) :=
  isReal_sum _ _ fun k => (ht k).mul (hw.W1 k j)

theorem dh1R_eq (j : Fin 12) :
    dh1R w x0 x1 t j = (∑ k : Fin 3, t k * w.W1 k j) * (c1 - h1 w x0 x1 j * h1 w x0 x1 j) := by
  unfold dh1R
  exact tanh_deriv_forms (isReal_pre1 hw hx0 hx1 ht j) (isReal_h1 hw hx0 hx1 j)

theorem isReal_c1 : IsReal c1 := by rw [c1_eq]; exact isReal_one

theorem isReal_dh1R (j : Fin 12) : IsReal (dh1R w x0 x1 t j) := by
  rw [dh1R_eq hw hx0 hx1 ht]
  exact (isReal_pre1 hw hx0 hx1 ht j).mul
    ((isReal_c1 hw hx0 hx1 ht).sub ((isReal_h1 hw hx0 hx1 j).mul (isReal_h1 hw hx0 hx1 j)))

theorem isReal_pre2 (j : Fin 8) : IsReal (∑ k : Fin 12, dh1R w x0 x1 t k * w.W2 k j) :=
  isReal_sum _ _ fun k => (isReal_dh1R hw hx0 hx1 ht k).mul (hw.W2 k j)

theorem dh2R_eq (j : Fin 8) :
    dh2R w x0 x1 t j
      = (∑ k : Fin 12, dh1R w x0 x1 t k * w.W2 k j) * (c1 - h2 w x0 x1 j * h2 w x0 x1 j) := by
  unfold dh2R
  exact tanh_deriv_forms (isReal_pre2 hw hx0 hx1 ht j) (isReal_h2 hw hx0 hx1 j)

theorem isReal_dh2R (j : Fin 8) : IsReal (dh2R w x0 x1 t j) := by
  rw [dh2R_eq hw hx0 hx1 ht]
  exact (isReal_pre2 hw hx0 hx1 ht j).mul
    ((isReal_c1 hw hx0 hx1 ht).sub ((isReal_h2 hw hx0 hx1 j).mul (isReal_h2 hw hx0 hx1 j)))

/-- The two arrangements push a real tangent to the same place. -/
theorem dK_eq_dR (j : Fin 2) : dK w x0 x1 t j = dR w x0 x1 t j := by
  unfold dK dR
  refine Finset.sum_congr rfl fun k8 _ => ?_
  rw [dh2R_eq hw hx0 hx1 ht k8]
  congr 2
  refine Finset.sum_congr rfl fun k12 _ => ?_
  rw [dh1R_eq hw hx0 hx1 ht k12]

theorem isReal_dR (j : Fin 2) : IsReal (dR w x0 x1 t j) := by
  unfold dR
  exact isReal_sum _ _ fun k => (isReal_dh2R hw hx0 hx1 ht k).mul (hw.W3 k j)

end tangent

/-! ## The right-hand side and the closed-form solve -/

/-- The two results from the Jacobian's entries, `ψ` and the row: the adjugate's product scaled by `1 / det`
    against the entrywise-divided inverse applied to the four-term right-hand side. -/
theorem solve_agree {a b c d p0 p1 x0 x1 x2 : EReal} (ha : IsReal a) (hb : IsReal b) (hc : IsReal c)
    (hd : IsReal d) (hp0 : IsReal p0) (hp1 : IsReal p1) (hx0 : IsReal x0) (hx1 : IsReal x1) (hx2 : IsReal x2)
    (hdet : a * d - b * c ≠ 0) (i : Fin 2) :
    (![((d * (cR * (x0 + x1) + p1 * cW) - b * ((cR * (x0 + x1) + cS * x2) + (0 - p0) * cW))
            * Ideal.div c1 (a * d - b * c)) * cT + x0,
        (((0 - c) * (cR * (x0 + x1) + p1 * cW) + a * ((cR * (x0 + x1) + cS * x2) + (0 - p0) * cW))
            * Ideal.div c1 (a * d - b * c)) * cT + x1] : Fin 2 → EReal) i
      = solveR a b c d p0 p1 x0 x1 x2 i := by
  obtain ⟨a, rfl⟩ := isReal_iff.1 ha
  obtain ⟨b, rfl⟩ := isReal_iff.1 hb
  obtain ⟨c, rfl⟩ := isReal_iff.1 hc
  obtain ⟨d, rfl⟩ := isReal_iff.1 hd
  obtain ⟨p0, rfl⟩ := isReal_iff.1 hp0
  obtain ⟨p1, rfl⟩ := isReal_iff.1 hp1
  obtain ⟨x0, rfl⟩ := isReal_iff.1 hx0
  obtain ⟨x1, rfl⟩ := isReal_iff.1 hx1
  obtain ⟨x2, rfl⟩ := isReal_iff.1 hx2
  obtain ⟨kR, hR⟩ := isReal_iff.1 isReal_cR
  obtain ⟨kW, hW⟩ := isReal_iff.1 isReal_cW
  obtain ⟨kS, hS⟩ := isReal_iff.1 isReal_cS
  obtain ⟨kT, hT⟩ := isReal_iff.1 isReal_cT
  have hdetc : ((a : EReal) * d - b * c) = ((a * d - b * c : ℝ) : EReal) := by norm_cast
  have hdet' : a * d - b * c ≠ 0 := by
    intro h; apply hdet; rw [hdetc, h, EReal.coe_zero]
  unfold solveR invLS rS
  rw [hdetc]
  simp only [Ideal.div_coe hdet', hR, hW, hS, hT, c1_eq]
  fin_cases i
  · simp [Fin.sum_univ_four]
    norm_cast
    ring
  · simp [Fin.sum_univ_four]
    norm_cast
    ring

/-! ## The two arrangements agree -/

/-- With every parameter and the row's three entries real and the Jacobian's determinant non-zero, the two
    arrangements of the row's arithmetic give the same two results. -/
theorem outK_eq_outR (w : Net) (hw : w.IsReal) {x0 x1 x2 : EReal} (h0 : IsReal x0) (h1 : IsReal x1) (h2 : IsReal x2)
    (hdet : detR w x0 x1 ≠ 0) : outK w x0 x1 x2 = outR w x0 x1 x2 := by
  have ht1 : ∀ k, IsReal (tR x0 x1 c1 0 k) := fun k => by
    rw [← t1K_eq h0 h1]; exact isReal_t1K h0 h1 k
  have ht2 : ∀ k, IsReal (tR x0 x1 0 c1 k) := fun k => by
    rw [← t2K_eq h0 h1]; exact isReal_t2K h0 h1 k
  have ha : aK w x0 x1 = aR w x0 x1 := by
    unfold aK aR; rw [t1K_eq h0 h1]; exact dK_eq_dR hw h0 h1 ht1 0
  have hc : cK w x0 x1 = cR' w x0 x1 := by
    unfold cK cR'; rw [t1K_eq h0 h1]; exact dK_eq_dR hw h0 h1 ht1 1
  have hb : bK w x0 x1 = bR w x0 x1 := by
    unfold bK bR; rw [t2K_eq h0 h1]; exact dK_eq_dR hw h0 h1 ht2 0
  have hd : dK' w x0 x1 = dR' w x0 x1 := by
    unfold dK' dR'; rw [t2K_eq h0 h1]; exact dK_eq_dR hw h0 h1 ht2 1
  have hdetK : detK w x0 x1 = detR w x0 x1 := by
    unfold detK detR; rw [ha, hb, hc, hd]
  have hAr : IsReal (aR w x0 x1) := isReal_dR hw h0 h1 ht1 0
  have hCr : IsReal (cR' w x0 x1) := isReal_dR hw h0 h1 ht1 1
  have hBr : IsReal (bR w x0 x1) := isReal_dR hw h0 h1 ht2 0
  have hDr : IsReal (dR' w x0 x1) := isReal_dR hw h0 h1 ht2 1
  funext i
  unfold outK outR y0K y1K
  rw [hdetK, ha, hb, hc, hd]
  unfold detR at hdet ⊢
  exact solve_agree hAr hBr hCr hDr (isReal_psi hw h0 h1 0) (isReal_psi hw h0 h1 1) h0 h1 h2 hdet i

end Cert.Spec

end
-- ==== Proof.Bridge.lean ====
import proofs.«114032_j50405736186087_1_alg».proof.Proof.PreFinite
import proofs.«114032_j50405736186087_1_alg».proof.Proof.PreDet
import proofs.«114032_j50405736186087_1_alg».proof.Proof.Algebra

/-!
# Under the precondition the two arrangements give one array

The precondition says that every argument entry is a real number and that the Jacobian's determinant is non-zero
at every row; under those the two arrangements agree row by row, hence as whole arrays.
-/

noncomputable section

namespace Cert.Bridge

open Cert.Pre_finite_inputs Idealize.ShloMosaic Idealize.ShloMosaic.ValueIdx

variable [Cert.Pre_finite_inputs.Facts]

/-- The parameter arrays' entries being real makes the network's parameters real. -/
theorem netOf_isReal {W1 : FVec Ideal S3x12 .f32} {b1 : FVec Ideal S12 .f32} {W2 : FVec Ideal S12x8 .f32}
    {b2 : FVec Ideal S8 .f32} {W3 : FVec Ideal S8x2 .f32} {b3 : FVec Ideal S2 .f32}
    (hW1 : ∀ i, Cert.Spec.IsReal (W1 i)) (hb1 : ∀ i, Cert.Spec.IsReal (b1 i)) (hW2 : ∀ i, Cert.Spec.IsReal (W2 i))
    (hb2 : ∀ i, Cert.Spec.IsReal (b2 i)) (hW3 : ∀ i, Cert.Spec.IsReal (W3 i)) (hb3 : ∀ i, Cert.Spec.IsReal (b3 i)) :
    (Cert.Spec.netOf W1 b1 W2 b2 W3 b3).IsReal :=
  ⟨fun k j => hW1 (ix2 k j), fun j => hb1 (ix1 j), fun k j => hW2 (ix2 k j), fun j => hb2 (ix1 j),
    fun k j => hW3 (ix2 k j), fun j => hb3 (ix1 j)⟩

/-- Under the precondition the second arrangement's array is the first's. -/
theorem GR_eq_GK_of_pre (X : FVec Ideal S4194304x5 .f32) (W1 : FVec Ideal S3x12 .f32) (b1 : FVec Ideal S12 .f32)
    (W2 : FVec Ideal S12x8 .f32) (b2 : FVec Ideal S8 .f32) (W3 : FVec Ideal S8x2 .f32) (b3 : FVec Ideal S2 .f32)
    (h : fn (F := Ideal) X W1 b1 W2 b2 W3 b3 = fun _ => 1#1) :
    Cert.Spec.GR X W1 b1 W2 b2 W3 b3 = Cert.Spec.GK X W1 b1 W2 b2 W3 b3 := by
  obtain ⟨hX, hW1, hb1, hW2, hb2, hW3, hb3⟩ := Cert.PreRead.finite_of_pre X W1 b1 W2 b2 W3 b3 h
  have hdet := Cert.PreRead.det_of_pre X W1 b1 W2 b2 W3 b3 h
  funext i
  unfold Cert.Spec.GR Cert.Spec.GK
  exact congrFun (Cert.Spec.outK_eq_outR _ (netOf_isReal hW1 hb1 hW2 hb2 hW3 hb3) (hX _) (hX _) (hX _) (hdet _)).symm _

end Cert.Bridge

end
-- ==== Proof.lean ====
/-
  A row-wise 3 → 12 → 8 → 2 `tanh` network, its 2 × 2 Jacobian by two forward-mode pushes, the Jacobian's closed-form
  inverse applied to a right-hand side built from the row, scaled by the time step and added to the row's first two entries:
  the kernel against its jnp reference, over the extended reals.

  The two programs arrange the arithmetic differently (Proof/Spec.lean writes each arrangement literally): the kernel takes
  `tanh' = 1 - h·h`, the norm's tangent as `x · (1/‖x‖)`, and multiplies the adjugate's product by `1/det` at the end; the
  reference takes `tanh'·g = (g + g·h)·(1 - h)`, the norm's tangent as `(Σ t·x + x·t)·(½/‖x‖)`, and divides each adjugate
  entry by `det` before the product. With every input a real number the two agree wherever `det ≠ 0` (Proof/Algebra.lean; at
  `‖x‖ = 0` both tangents of the norm are `0·⊤ = 0`). At `det = 0` they do not (the reference's entries `0/0` are `⊥`, the
  kernel's `0·(1/0)` is `0`), which is why the precondition also says that the reference's own determinant is non-zero at
  every row: outside that the reference's division has left its domain.

  The kernel's array: the generated blockwise value leg, the store read entry by entry (Proof/KernelPayload.lean) and the 64
  blocks put together (Proof/KernelValue.lean). The reference's array: its run written out (Proof/RefRun.lean), the push and
  the solve as whole-array functions read entry by entry (Proof/RefChain.lean, Proof/RefTail.lean, Proof/RefValue.lean,
  Proof/RefResult.lean). The precondition read back: Proof/PreFinite.lean, Proof/PreDet.lean; the two arrays are one:
  Proof/Bridge.lean.
-/
import proofs.«114032_j50405736186087_1_alg».proof.Defs
import proofs.«114032_j50405736186087_1_alg».proof.Proof.Gen.Kernel
import proofs.«114032_j50405736186087_1_alg».proof.Proof.Gen.Kernel.Frame
import proofs.«114032_j50405736186087_1_alg».proof.Proof.Gen.KernelIdeal
import proofs.«114032_j50405736186087_1_alg».proof.Proof.Gen.KernelIdeal.Frame
import proofs.«114032_j50405736186087_1_alg».proof.Proof.Gen.ReferenceIdeal
import proofs.«114032_j50405736186087_1_alg».proof.Proof.Gen.Pre_finite_inputs
import proofs.«114032_j50405736186087_1_alg».proof.Proof.KernelValue
import proofs.«114032_j50405736186087_1_alg».proof.Proof.RefResult
import proofs.«114032_j50405736186087_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's frame: generated whole. -/
theorem frame_p : Cert.frame_Kernel := fun m ρ _ => Cert.Kernel.Gen.frame m ρ

/-- The idealized kernel's frame: generated whole. -/
theorem frame_pi : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefResult.run m ρ)

/-- Both runs end at one array: the kernel's at the first arrangement of the arguments, the reference's at the second of
    arguments that agree, and under the precondition the two arrangements are one function. -/
theorem algebraic : Cert.algebraic_KernelIdeal_ReferenceIdeal := by
  intro m ρ m' ρ' hpre hagree
  refine ⟨fun c => Cert.KernelIdeal.RowValue.G m c, Cert.KernelIdeal.RowValue.run m ρ, ?_⟩
  refine (θ_run Cert.ReferenceIdeal.defs _ _).mono (fun r h c => ⟨(h c).1.trans ?_, (h c).2⟩)
    (Cert.ReferenceIdeal.RefResult.run m' ρ')
  show Cert.Spec.GR _ _ _ _ _ _ _ = Cert.Spec.GK _ _ _ _ _ _ _
  rw [(hagree c).1, (hagree c).2.1, (hagree c).2.2.1, (hagree c).2.2.2.1, (hagree c).2.2.2.2.1, (hagree c).2.2.2.2.2.1,
    (hagree c).2.2.2.2.2.2]
  exact Cert.Bridge.GR_eq_GK_of_pre _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
